-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_6" .f32 0x3E2AAAAB#32 ((1 / 6 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v181)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v181) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000 : Shape := ⟨1, ![2000000]⟩
abbrev S4000000 : Shape := ⟨1, ![4000000]⟩
abbrev S2000000x6 : Shape := ⟨2, ![2000000, 6]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel
  bcast_S_S4000000 : S_.BroadcastsInDim S4000000 (![] : Fin 0 → Fin S4000000.rank)
  reducesTo_S4000000_S_d0 : S4000000.ReducesTo [0] S_

variable [Facts]

def fn_part2 {F : FTy → Type} [FloatOps F] (main_arg6 : FVec F S4000000 .f32) (main_arg7 : FVec F S2000000 .f32) (main_v33 : IVec S_ 1) : IVec S_ 1 :=
  let main_v34 : FVec F S2000000 .f32 := Host.absf main_arg7
  let main_cst_12 : FVec F S_ .f32 := constant S_ .f32 0x7F800000#32
  let main_v35 : FVec F S2000000 .f32 := broadcastInDim S2000000 ![] bcast_S_S2000000 main_cst_12
  let main_v36 : IVec S2000000 1 := cmpf .olt main_v34 main_v35
  let main_c_13 : IVec S_ 1 := constantI S_ 1 1#1
  let main_v37 : IVec S_ 1 := (fun x v => Host.reduce IntOp.andi x v reducesTo_S2000000_S_d0 h_S_) main_v36 main_c_13
  let main_v38 : IVec S_ 1 := andi main_v33 main_v37
  let main_cst_14 : FVec F S_ .f32 := constant S_ .f32 0x00000000#32
  let main_v39 : FVec F S4000000 .f32 := broadcastInDim S4000000 ![] bcast_S_S4000000 main_cst_14
  let main_v40 : IVec S4000000 1 := cmpf .une main_arg6 main_v39
  let main_c_15 : IVec S_ 1 := constantI S_ 1 1#1
  let main_v41 : IVec S_ 1 := (fun x v => Host.reduce IntOp.andi x v reducesTo_S4000000_S_d0 h_S_) main_v40 main_c_15
  let main_v42 : IVec S_ 1 := andi main_v38 main_v41
  let main_cst_16 : FVec F S_ .f32 := constant S_ .f32 0x00000000#32
  let main_v43 : FVec F S2000000 .f32 := broadcastInDim S2000000 ![] bcast_S_S2000000 main_cst_16
  let main_v44 : IVec S2000000 1 := cmpf .une main_arg7 main_v43
  let main_c_17 : IVec S_ 1 := constantI S_ 1 1#1
  let main_v45 : IVec S_ 1 := (fun x v => Host.reduce IntOp.andi x v reducesTo_S2000000_S_d0 h_S_) main_v44 main_c_17
  let main_v46 : IVec S_ 1 := andi main_v42 main_v45
  main_v46

def fn_part1 {F : FTy → Type} [FloatOps F] (main_arg4 : FVec F S2000000 .f32) (main_arg5 : FVec F S2000000 .f32) (main_arg6 : FVec F S4000000 .f32) (main_arg7 : FVec F S2000000 .f32) (main_v13 : IVec S_ 1) (main_v16 : IVec S2000000 1) : IVec S_ 1 :=
  let main_c_5 : IVec S_ 1 := constantI S_ 1 1#1
  let main_v17 : IVec S_ 1 := (fun x v => Host.reduce IntOp.andi x v reducesTo_S2000000_S_d0 h_S_) main_v16 main_c_5
  let main_v18 : IVec S_ 1 := andi main_v13 main_v17
  let main_v19 : FVec F S2000000 .f32 := Host.absf main_arg4
  let main_cst_6 : FVec F S_ .f32 := constant S_ .f32 0x7F800000#32
  let main_v20 : FVec F S2000000 .f32 := broadcastInDim S2000000 ![] bcast_S_S2000000 main_cst_6
  let main_v21 : IVec S2000000 1 := cmpf .olt main_v19 main_v20
  let main_c_7 : IVec S_ 1 := constantI S_ 1 1#1
  let main_v22 : IVec S_ 1 := (fun x v => Host.reduce IntOp.andi x v reducesTo_S2000000_S_d0 h_S_) main_v21 main_c_7
  let main_v23 : IVec S_ 1 := andi main_v18 main_v22
  let main_v24 : FVec F S2000000 .f32 := Host.absf main_arg5
  let main_cst_8 : FVec F S_ .f32 := constant S_ .f32 0x7F800000#32
  let main_v25 : FVec F S2000000 .f32 := broadcastInDim S2000000 ![] bcast_S_S2000000 main_cst_8
  let main_v26 : IVec S2000000 1 := cmpf .olt main_v24 main_v25
  let main_c_9 : IVec S_ 1 := constantI S_ 1 1#1
  let main_v27 : IVec S_ 1 := (fun x v => Host.reduce IntOp.andi x v reducesTo_S2000000_S_d0 h_S_) main_v26 main_c_9
  let main_v28 : IVec S_ 1 := andi main_v23 main_v27
  let main_v29 : FVec F S4000000 .f32 := Host.absf main_arg6
  let main_cst_10 : FVec F S_ .f32 := constant S_ .f32 0x7F800000#32
  let main_v30 : FVec F S4000000 .f32 := broadcastInDim S4000000 ![] bcast_S_S4000000 main_cst_10
  let main_v31 : IVec S4000000 1 := cmpf .olt main_v29 main_v30
  let main_c_11 : IVec S_ 1 := constantI S_ 1 1#1
  let main_v32 : IVec S_ 1 := (fun x v => Host.reduce IntOp.andi x v reducesTo_S4000000_S_d0 h_S_) main_v31 main_c_11
  let main_v33 : IVec S_ 1 := andi main_v28 main_v32
  fn_part2 (F := F) main_arg6 main_arg7 main_v33

def fn {F : FTy → Type} [FloatOps F] (main_arg0 : FVec F S2000000 .f32) (main_arg1 : FVec F S2000000 .f32) (main_arg2 : FVec F S4000000 .f32) (main_arg3 : FVec F S2000000 .f32) (main_arg4 : FVec F S2000000 .f32) (main_arg5 : FVec F S2000000 .f32) (main_arg6 : FVec F S4000000 .f32) (main_arg7 : FVec F S2000000 .f32) (main_arg8 : IVec S4000000 32) (main_arg9 : IVec S4000000 32) (main_arg10 : IVec S2000000x6 32) (main_arg11 : IVec S2000000x6 32) : IVec S_ 1 :=
  let main_v0 : FVec F S2000000 .f32 := Host.absf main_arg0
  let main_cst : FVec F S_ .f32 := constant S_ .f32 0x7F800000#32
  let main_v1 : FVec F S2000000 .f32 := broadcastInDim S2000000 ![] bcast_S_S2000000 main_cst
  let main_v2 : IVec S2000000 1 := cmpf .olt main_v0 main_v1
  let main_c : IVec S_ 1 := constantI S_ 1 1#1
  let main_v3 : IVec S_ 1 := (fun x v => Host.reduce IntOp.andi x v reducesTo_S2000000_S_d0 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_v14 : FVec F S2000000 .f32 := Host.absf main_arg3
  let main_cst_4 : FVec F S_ .f32 := constant S_ .f32 0x7F800000#32
  let main_v15 : FVec F S2000000 .f32 := broadcastInDim S2000000 ![] bcast_S_S2000000 main_cst_4
  let main_v16 : IVec S2000000 1 := cmpf .olt main_v14 main_v15
  fn_part1 (F := F) main_arg4 main_arg5 main_arg6 main_arg7 main_v13 main_v16
-- ==== Kernel.lean ====
abbrev S2000000 : Shape := ⟨1, ![2000000]⟩
abbrev S4000000 : Shape := ⟨1, ![4000000]⟩
abbrev S2000000x6 : Shape := ⟨2, ![2000000, 6]⟩
abbrev S_ : Shape := ⟨0, ![]⟩
abbrev S4000000x1 : Shape := ⟨2, ![4000000, 1]⟩
abbrev S4194304 : Shape := ⟨1, ![4194304]⟩
abbrev S262144 : Shape := ⟨1, ![262144]⟩
abbrev S2000000x1 : Shape := ⟨2, ![2000000, 1]⟩
abbrev S1x2000000 : Shape := ⟨2, ![1, 2000000]⟩
abbrev S6x2000000 : Shape := ⟨2, ![6, 2000000]⟩
abbrev S6x2031616 : Shape := ⟨2, ![6, 2031616]⟩
abbrev S2031616 : Shape := ⟨1, ![2031616]⟩
abbrev S6x65536 : Shape := ⟨2, ![6, 65536]⟩
abbrev S65536 : Shape := ⟨1, ![65536]⟩
abbrev S2x2000000 : Shape := ⟨2, ![2, 2000000]⟩

abbrev nBuf : Space → Nat
  | .hbm => 266
  | .vmem => 38
  | .smem => 0
  | _ => 0

abbrev hbmTy0_0 (i : Nat) : BufTy := match i % 128 with
  | 0 => ⟨S2000000, .f32⟩
  | 1 => ⟨S2000000, .f32⟩
  | 2 => ⟨S4000000, .f32⟩
  | 3 => ⟨S2000000, .f32⟩
  | 4 => ⟨S2000000, .f32⟩
  | 5 => ⟨S2000000, .f32⟩
  | 6 => ⟨S4000000, .f32⟩
  | 7 => ⟨S2000000, .f32⟩
  | 8 => ⟨S4000000, .i32⟩
  | 9 => ⟨S4000000, .i32⟩
  | 10 => ⟨S2000000x6, .i32⟩
  | 11 => ⟨S2000000x6, .i32⟩
  | 12 => ⟨S_, .i32⟩
  | 13 => ⟨S4000000, .i32⟩
  | 14 => ⟨S4000000, .i1⟩
  | 15 => ⟨S_, .i32⟩
  | 16 => ⟨S4000000, .i32⟩
  | 17 => ⟨S4000000, .i32⟩
  | 18 => ⟨S4000000, .i32⟩
  | 19 => ⟨S4000000x1, .i32⟩
  | 20 => ⟨S4000000, .f32⟩
  | 21 => ⟨S_, .i32⟩
  | 22 => ⟨S4000000, .i32⟩
  | 23 => ⟨S4000000, .i1⟩
  | 24 => ⟨S_, .i32⟩
  | 25 => ⟨S4000000, .i32⟩
  | 26 => ⟨S4000000, .i32⟩
  | 27 => ⟨S4000000, .i32⟩
  | 28 => ⟨S4000000x1, .i32⟩
  | 29 => ⟨S4000000, .f32⟩
  | 30 => ⟨S_, .i32⟩
  | 31 => ⟨S4000000, .i32⟩
  | 32 => ⟨S4000000, .i1⟩
  | 33 => ⟨S_, .i32⟩
  | 34 => ⟨S4000000, .i32⟩
  | 35 => ⟨S4000000, .i32⟩
  | 36 => ⟨S4000000, .i32⟩
  | 37 => ⟨S4000000x1, .i32⟩
  | 38 => ⟨S4000000, .f32⟩
  | 39 => ⟨S_, .i32⟩
  | 40 => ⟨S4000000, .i32⟩
  | 41 => ⟨S4000000, .i1⟩
  | 42 => ⟨S_, .i32⟩
  | 43 => ⟨S4000000, .i32⟩
  | 44 => ⟨S4000000, .i32⟩
  | 45 => ⟨S4000000, .i32⟩
  | 46 => ⟨S4000000x1, .i32⟩
  | 47 => ⟨S4000000, .f32⟩
  | 48 => ⟨S_, .i32⟩
  | 49 => ⟨S_, .f32⟩
  | 50 => ⟨S4194304, .f32⟩
  | 51 => ⟨S_, .i32⟩
  | 52 => ⟨S_, .f32⟩
  | 53 => ⟨S4194304, .f32⟩
  | 54 => ⟨S_, .i32⟩
  | 55 => ⟨S_, .f32⟩
  | 56 => ⟨S4194304, .f32⟩
  | 57 => ⟨S_, .i32⟩
  | 58 => ⟨S_, .f32⟩
  | 59 => ⟨S4194304, .f32⟩
  | 60 => ⟨S_, .i32⟩
  | 61 => ⟨S_, .f32⟩
  | 62 => ⟨S4194304, .f32⟩
  | 63 => ⟨S_, .f32⟩
  | 64 => ⟨S4194304, .f32⟩
  | 65 => ⟨S4194304, .i1⟩
  | 66 => ⟨S_, .f32⟩
  | 67 => ⟨S_, .f32⟩
  | 68 => ⟨S4194304, .f32⟩
  | 69 => ⟨S4194304, .f32⟩
  | 70 => ⟨S_, .i32⟩
  | 71 => ⟨S_, .f32⟩
  | 72 => ⟨S4194304, .f32⟩
  | 73 => ⟨S4194304, .f32⟩
  | 74 => ⟨S4194304, .f32⟩
  | 75 => ⟨S4000000, .f32⟩
  | 76 => ⟨S4000000, .f32⟩
  | 77 => ⟨S2000000x1, .i32⟩
  | 78 => ⟨S2000000, .i32⟩
  | 79 => ⟨S_, .i32⟩
  | 80 => ⟨S2000000, .i32⟩
  | 81 => ⟨S2000000, .i1⟩
  | 82 => ⟨S_, .i32⟩
  | 83 => ⟨S2000000, .i32⟩
  | 84 => ⟨S2000000, .i32⟩
  | 85 => ⟨S2000000, .i32⟩
  | 86 => ⟨S2000000x1, .i32⟩
  | 87 => ⟨S2000000, .f32⟩
  | 88 => ⟨S2000000x1, .i32⟩
  | 89 => ⟨S2000000, .i32⟩
  | 90 => ⟨S_, .i32⟩
  | 91 => ⟨S2000000, .i32⟩
  | 92 => ⟨S2000000, .i1⟩
  | 93 => ⟨S_, .i32⟩
  | 94 => ⟨S2000000, .i32⟩
  | 95 => ⟨S2000000, .i32⟩
  | 96 => ⟨S2000000, .i32⟩
  | 97 => ⟨S2000000x1, .i32⟩
  | 98 => ⟨S2000000, .f32⟩
  | 99 => ⟨S2000000x1, .i32⟩
  | 100 => ⟨S2000000, .i32⟩
  | 101 => ⟨S_, .i32⟩
  | 102 => ⟨S2000000, .i32⟩
  | 103 => ⟨S2000000, .i1⟩
  | 104 => ⟨S_, .i32⟩
  | 105 => ⟨S2000000, .i32⟩
  | 106 => ⟨S2000000, .i32⟩
  | 107 => ⟨S2000000, .i32⟩
  | 108 => ⟨S2000000x1, .i32⟩
  | 109 => ⟨S2000000, .f32⟩
  | 110 => ⟨S2000000x1, .i32⟩
  | 111 => ⟨S2000000, .i32⟩
  | 112 => ⟨S_, .i32⟩
  | 113 => ⟨S2000000, .i32⟩
  | 114 => ⟨S2000000, .i1⟩
  | 115 => ⟨S_, .i32⟩
  | 116 => ⟨S2000000, .i32⟩
  | 117 => ⟨S2000000, .i32⟩
  | 118 => ⟨S2000000, .i32⟩
  | 119 => ⟨S2000000x1, .i32⟩
  | 120 => ⟨S2000000, .f32⟩
  | 121 => ⟨S2000000x1, .i32⟩
  | 122 => ⟨S2000000, .i32⟩
  | 123 => ⟨S_, .i32⟩
  | 124 => ⟨S2000000, .i32⟩
  | 125 => ⟨S2000000, .i1⟩
  | 126 => ⟨S_, .i32⟩
  | 127 => ⟨S2000000, .i32⟩
  | _ => ⟨S2000000, .f32⟩

abbrev hbmTy0_1 (i : Nat) : BufTy := match i % 128 with
  | 0 => ⟨S2000000, .i32⟩
  | 1 => ⟨S2000000, .i32⟩
  | 2 => ⟨S2000000x1, .i32⟩
  | 3 => ⟨S2000000, .f32⟩
  | 4 => ⟨S2000000x1, .i32⟩
  | 5 => ⟨S2000000, .i32⟩
  | 6 => ⟨S_, .i32⟩
  | 7 => ⟨S2000000, .i32⟩
  | 8 => ⟨S2000000, .i1⟩
  | 9 => ⟨S_, .i32⟩
  | 10 => ⟨S2000000, .i32⟩
  | 11 => ⟨S2000000, .i32⟩
  | 12 => ⟨S2000000, .i32⟩
  | 13 => ⟨S2000000x1, .i32⟩
  | 14 => ⟨S2000000, .f32⟩
  | 15 => ⟨S2000000x1, .i32⟩
  | 16 => ⟨S2000000, .i32⟩
  | 17 => ⟨S_, .i32⟩
  | 18 => ⟨S2000000, .i32⟩
  | 19 => ⟨S2000000, .i1⟩
  | 20 => ⟨S_, .i32⟩
  | 21 => ⟨S2000000, .i32⟩
  | 22 => ⟨S2000000, .i32⟩
  | 23 => ⟨S2000000, .i32⟩
  | 24 => ⟨S2000000x1, .i32⟩
  | 25 => ⟨S2000000, .f32⟩
  | 26 => ⟨S2000000x1, .i32⟩
  | 27 => ⟨S2000000, .i32⟩
  | 28 => ⟨S_, .i32⟩
  | 29 => ⟨S2000000, .i32⟩
  | 30 => ⟨S2000000, .i1⟩
  | 31 => ⟨S_, .i32⟩
  | 32 => ⟨S2000000, .i32⟩
  | 33 => ⟨S2000000, .i32⟩
  | 34 => ⟨S2000000, .i32⟩
  | 35 => ⟨S2000000x1, .i32⟩
  | 36 => ⟨S2000000, .f32⟩
  | 37 => ⟨S2000000x1, .i32⟩
  | 38 => ⟨S2000000, .i32⟩
  | 39 => ⟨S_, .i32⟩
  | 40 => ⟨S2000000, .i32⟩
  | 41 => ⟨S2000000, .i1⟩
  | 42 => ⟨S_, .i32⟩
  | 43 => ⟨S2000000, .i32⟩
  | 44 => ⟨S2000000, .i32⟩
  | 45 => ⟨S2000000, .i32⟩
  | 46 => ⟨S2000000x1, .i32⟩
  | 47 => ⟨S2000000, .f32⟩
  | 48 => ⟨S2000000x1, .i32⟩
  | 49 => ⟨S2000000, .i32⟩
  | 50 => ⟨S_, .i32⟩
  | 51 => ⟨S2000000, .i32⟩
  | 52 => ⟨S2000000, .i1⟩
  | 53 => ⟨S_, .i32⟩
  | 54 => ⟨S2000000, .i32⟩
  | 55 => ⟨S2000000, .i32⟩
  | 56 => ⟨S2000000, .i32⟩
  | 57 => ⟨S2000000x1, .i32⟩
  | 58 => ⟨S2000000, .f32⟩
  | 59 => ⟨S2000000x1, .i32⟩
  | 60 => ⟨S2000000, .i32⟩
  | 61 => ⟨S_, .i32⟩
  | 62 => ⟨S2000000, .i32⟩
  | 63 => ⟨S2000000, .i1⟩
  | 64 => ⟨S_, .i32⟩
  | 65 => ⟨S2000000, .i32⟩
  | 66 => ⟨S2000000, .i32⟩
  | 67 => ⟨S2000000, .i32⟩
  | 68 => ⟨S2000000x1, .i32⟩
  | 69 => ⟨S2000000, .f32⟩
  | 70 => ⟨S2000000x1, .i32⟩
  | 71 => ⟨S2000000, .i32⟩
  | 72 => ⟨S_, .i32⟩
  | 73 => ⟨S2000000, .i32⟩
  | 74 => ⟨S2000000, .i1⟩
  | 75 => ⟨S_, .i32⟩
  | 76 => ⟨S2000000, .i32⟩
  | 77 => ⟨S2000000, .i32⟩
  | 78 => ⟨S2000000, .i32⟩
  | 79 => ⟨S2000000x1, .i32⟩
  | 80 => ⟨S2000000, .f32⟩
  | 81 => ⟨S1x2000000, .f32⟩
  | 82 => ⟨S1x2000000, .f32⟩
  | 83 => ⟨S1x2000000, .f32⟩
  | 84 => ⟨S1x2000000, .f32⟩
  | 85 => ⟨S1x2000000, .f32⟩
  | 86 => ⟨S1x2000000, .f32⟩
  | 87 => ⟨S6x2000000, .f32⟩
  | 88 => ⟨S1x2000000, .f32⟩
  | 89 => ⟨S1x2000000, .f32⟩
  | 90 => ⟨S1x2000000, .f32⟩
  | 91 => ⟨S1x2000000, .f32⟩
  | 92 => ⟨S1x2000000, .f32⟩
  | 93 => ⟨S1x2000000, .f32⟩
  | 94 => ⟨S6x2000000, .f32⟩
  | 95 => ⟨S2000000x6, .f32⟩
  | 96 => ⟨S6x2000000, .f32⟩
  | 97 => ⟨S_, .i32⟩
  | 98 => ⟨S_, .f32⟩
  | 99 => ⟨S6x2031616, .f32⟩
  | 100 => ⟨S_, .i32⟩
  | 101 => ⟨S_, .f32⟩
  | 102 => ⟨S6x2031616, .f32⟩
  | 103 => ⟨S_, .i32⟩
  | 104 => ⟨S_, .f32⟩
  | 105 => ⟨S6x2031616, .f32⟩
  | 106 => ⟨S_, .i32⟩
  | 107 => ⟨S_, .f32⟩
  | 108 => ⟨S2031616, .f32⟩
  | 109 => ⟨S_, .f32⟩
  | 110 => ⟨S2031616, .f32⟩
  | 111 => ⟨S2031616, .i1⟩
  | 112 => ⟨S_, .f32⟩
  | 113 => ⟨S_, .f32⟩
  | 114 => ⟨S2031616, .f32⟩
  | 115 => ⟨S2031616, .f32⟩
  | 116 => ⟨S_, .i32⟩
  | 117 => ⟨S_, .f32⟩
  | 118 => ⟨S2031616, .f32⟩
  | 119 => ⟨S_, .i32⟩
  | 120 => ⟨S_, .f32⟩
  | 121 => ⟨S2031616, .f32⟩
  | 122 => ⟨S_, .i32⟩
  | 123 => ⟨S_, .f32⟩
  | 124 => ⟨S2031616, .f32⟩
  | 125 => ⟨S_, .i32⟩
  | 126 => ⟨S_, .f32⟩
  | 127 => ⟨S2031616, .f32⟩
  | _ => ⟨S2000000, .f32⟩

abbrev hbmTy0_2 (i : Nat) : BufTy := match i % 128 with
  | 0 => ⟨S_, .i32⟩
  | 1 => ⟨S_, .f32⟩
  | 2 => ⟨S2031616, .f32⟩
  | 3 => ⟨S2031616, .f32⟩
  | 4 => ⟨S2031616, .f32⟩
  | 5 => ⟨S2000000, .f32⟩
  | 6 => ⟨S2000000, .f32⟩
  | 7 => ⟨S1x2000000, .f32⟩
  | 8 => ⟨S1x2000000, .f32⟩
  | 9 => ⟨S2x2000000, .f32⟩
  | _ => ⟨S2000000, .f32⟩

abbrev hbmTy (i : Nat) : BufTy := match i / 128 with
  | 0 => hbmTy0_0 i
  | 1 => hbmTy0_1 i
  | 2 => hbmTy0_2 i
  | _ => ⟨S2000000, .f32⟩

abbrev bufTy : (tb : Table) → Fin (tcTables nBuf tb) → BufTy
  | .hbm, ⟨i, _⟩ => hbmTy i
  | .local _ .vmem, ⟨0, _⟩ => ⟨S262144, .f32⟩
  | .local _ .vmem, ⟨1, _⟩ => ⟨S262144, .f32⟩
  | .local _ .vmem, ⟨2, _⟩ => ⟨S262144, .f32⟩
  | .local _ .vmem, ⟨3, _⟩ => ⟨S262144, .f32⟩
  | .local _ .vmem, ⟨4, _⟩ => ⟨S262144, .f32⟩
  | .local _ .vmem, ⟨5, _⟩ => ⟨S262144, .f32⟩
  | .local _ .vmem, ⟨6, _⟩ => ⟨S262144, .f32⟩
  | .local _ .vmem, ⟨7, _⟩ => ⟨S262144, .f32⟩
  | .local _ .vmem, ⟨8, _⟩ => ⟨S262144, .f32⟩
  | .local _ .vmem, ⟨9, _⟩ => ⟨S262144, .f32⟩
  | .local _ .vmem, ⟨10, _⟩ => ⟨S262144, .f32⟩
  | .local _ .vmem, ⟨11, _⟩ => ⟨S262144, .f32⟩
  | .local _ .vmem, ⟨12, _⟩ => ⟨S262144, .f32⟩
  | .local _ .vmem, ⟨13, _⟩ => ⟨S262144, .f32⟩
  | .local _ .vmem, ⟨14, _⟩ => ⟨S262144, .f32⟩
  | .local _ .vmem, ⟨15, _⟩ => ⟨S262144, .f32⟩
  | .local _ .vmem, ⟨16, _⟩ => ⟨S6x65536, .f32⟩
  | .local _ .vmem, ⟨17, _⟩ => ⟨S6x65536, .f32⟩
  | .local _ .vmem, ⟨18, _⟩ => ⟨S6x65536, .f32⟩
  | .local _ .vmem, ⟨19, _⟩ => ⟨S6x65536, .f32⟩
  | .local _ .vmem, ⟨20, _⟩ => ⟨S6x65536, .f32⟩
  | .local _ .vmem, ⟨21, _⟩ => ⟨S6x65536, .f32⟩
  | .local _ .vmem, ⟨22, _⟩ => ⟨S65536, .f32⟩
  | .local _ .vmem, ⟨23, _⟩ => ⟨S65536, .f32⟩
  | .local _ .vmem, ⟨24, _⟩ => ⟨S65536, .f32⟩
  | .local _ .vmem, ⟨25, _⟩ => ⟨S65536, .f32⟩
  | .local _ .vmem, ⟨26, _⟩ => ⟨S65536, .f32⟩
  | .local _ .vmem, ⟨27, _⟩ => ⟨S65536, .f32⟩
  | .local _ .vmem, ⟨28, _⟩ => ⟨S65536, .f32⟩
  | .local _ .vmem, ⟨29, _⟩ => ⟨S65536, .f32⟩
  | .local _ .vmem, ⟨30, _⟩ => ⟨S65536, .f32⟩
  | .local _ .vmem, ⟨31, _⟩ => ⟨S65536, .f32⟩
  | .local _ .vmem, ⟨32, _⟩ => ⟨S65536, .f32⟩
  | .local _ .vmem, ⟨33, _⟩ => ⟨S65536, .f32⟩
  | .local _ .vmem, ⟨34, _⟩ => ⟨S65536, .f32⟩
  | .local _ .vmem, ⟨35, _⟩ => ⟨S65536, .f32⟩
  | .local _ .vmem, ⟨36, _⟩ => ⟨S65536, .f32⟩
  | .local _ .vmem, ⟨37, _⟩ => ⟨S65536, .f32⟩
  | _, _ => ⟨S2000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_call0_v0 : Ref sig .tc := ⟨.hbm, 49, rfl⟩
abbrev main_v28 : Ref sig .tc := ⟨.hbm, 50, rfl⟩
abbrev main_c_8 : Ref sig .tc := ⟨.hbm, 51, rfl⟩
abbrev main_call1_v0 : Ref sig .tc := ⟨.hbm, 52, rfl⟩
abbrev main_v29 : Ref sig .tc := ⟨.hbm, 53, rfl⟩
abbrev main_c_9 : Ref sig .tc := ⟨.hbm, 54, rfl⟩
abbrev main_call2_v0 : Ref sig .tc := ⟨.hbm, 55, rfl⟩
abbrev main_v30 : Ref sig .tc := ⟨.hbm, 56, rfl⟩
abbrev main_c_10 : Ref sig .tc := ⟨.hbm, 57, rfl⟩
abbrev main_call3_v0 : Ref sig .tc := ⟨.hbm, 58, rfl⟩
abbrev main_v31 : Ref sig .tc := ⟨.hbm, 59, rfl⟩
abbrev main_c_11 : Ref sig .tc := ⟨.hbm, 60, rfl⟩
abbrev main_call4_v0 : Ref sig .tc := ⟨.hbm, 61, rfl⟩
abbrev main_v32 : Ref sig .tc := ⟨.hbm, 62, rfl⟩
abbrev main_cst : Ref sig .tc := ⟨.hbm, 63, rfl⟩
abbrev main_v33 : Ref sig .tc := ⟨.hbm, 64, rfl⟩
abbrev main_v34 : Ref sig .tc := ⟨.hbm, 65, rfl⟩
abbrev main_cst_12 : Ref sig .tc := ⟨.hbm, 66, rfl⟩
abbrev main_call5_v0 : Ref sig .tc := ⟨.hbm, 67, rfl⟩
abbrev main_call5_v1 : Ref sig .tc := ⟨.hbm, 68, rfl⟩
abbrev main_v35 : Ref sig .tc := ⟨.hbm, 69, rfl⟩
abbrev main_c_13 : Ref sig .tc := ⟨.hbm, 70, rfl⟩
abbrev main_call6_v0 : Ref sig .tc := ⟨.hbm, 71, rfl⟩
abbrev main_v36 : Ref sig .tc := ⟨.hbm, 72, rfl⟩
abbrev main_v37_0 : Ref sig .tc := ⟨.hbm, 73, rfl⟩
abbrev main_v37_1 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_c_14 : Ref sig .tc := ⟨.hbm, 79, rfl⟩
abbrev main_v42 : Ref sig .tc := ⟨.hbm, 80, rfl⟩
abbrev main_v43 : Ref sig .tc := ⟨.hbm, 81, rfl⟩
abbrev main_c_15 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_c_16 : Ref sig .tc := ⟨.hbm, 90, rfl⟩
abbrev main_v51 : Ref sig .tc := ⟨.hbm, 91, rfl⟩
abbrev main_v52 : Ref sig .tc := ⟨.hbm, 92, rfl⟩
abbrev main_c_17 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_c_18 : Ref sig .tc := ⟨.hbm, 101, rfl⟩
abbrev main_v60 : Ref sig .tc := ⟨.hbm, 102, rfl⟩
abbrev main_v61 : Ref sig .tc := ⟨.hbm, 103, rfl⟩
abbrev main_c_19 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_c_20 : Ref sig .tc := ⟨.hbm, 112, rfl⟩
abbrev main_v69 : Ref sig .tc := ⟨.hbm, 113, rfl⟩
abbrev main_v70 : Ref sig .tc := ⟨.hbm, 114, rfl⟩
abbrev main_c_21 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_c_22 : Ref sig .tc := ⟨.hbm, 123, rfl⟩
abbrev main_v78 : Ref sig .tc := ⟨.hbm, 124, rfl⟩
abbrev main_v79 : Ref sig .tc := ⟨.hbm, 125, rfl⟩
abbrev main_c_23 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_c_24 : Ref sig .tc := ⟨.hbm, 134, rfl⟩
abbrev main_v87 : Ref sig .tc := ⟨.hbm, 135, rfl⟩
abbrev main_v88 : Ref sig .tc := ⟨.hbm, 136, rfl⟩
abbrev main_c_25 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_c_26 : Ref sig .tc := ⟨.hbm, 145, rfl⟩
abbrev main_v96 : Ref sig .tc := ⟨.hbm, 146, rfl⟩
abbrev main_v97 : Ref sig .tc := ⟨.hbm, 147, rfl⟩
abbrev main_c_27 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_c_28 : Ref sig .tc := ⟨.hbm, 156, rfl⟩
abbrev main_v105 : Ref sig .tc := ⟨.hbm, 157, rfl⟩
abbrev main_v106 : Ref sig .tc := ⟨.hbm, 158, rfl⟩
abbrev main_c_29 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_c_30 : Ref sig .tc := ⟨.hbm, 167, rfl⟩
abbrev main_v114 : Ref sig .tc := ⟨.hbm, 168, rfl⟩
abbrev main_v115 : Ref sig .tc := ⟨.hbm, 169, rfl⟩
abbrev main_c_31 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_c_32 : Ref sig .tc := ⟨.hbm, 178, rfl⟩
abbrev main_v123 : Ref sig .tc := ⟨.hbm, 179, rfl⟩
abbrev main_v124 : Ref sig .tc := ⟨.hbm, 180, rfl⟩
abbrev main_c_33 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_c_34 : Ref sig .tc := ⟨.hbm, 189, rfl⟩
abbrev main_v132 : Ref sig .tc := ⟨.hbm, 190, rfl⟩
abbrev main_v133 : Ref sig .tc := ⟨.hbm, 191, rfl⟩
abbrev main_c_35 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_c_36 : Ref sig .tc := ⟨.hbm, 200, rfl⟩
abbrev main_v141 : Ref sig .tc := ⟨.hbm, 201, rfl⟩
abbrev main_v142 : Ref sig .tc := ⟨.hbm, 202, rfl⟩
abbrev main_c_37 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_c_38 : Ref sig .tc := ⟨.hbm, 225, rfl⟩
abbrev main_call7_v0 : Ref sig .tc := ⟨.hbm, 226, rfl⟩
abbrev main_v164 : Ref sig .tc := ⟨.hbm, 227, rfl⟩
abbrev main_c_39 : Ref sig .tc := ⟨.hbm, 228, rfl⟩
abbrev main_call8_v0 : Ref sig .tc := ⟨.hbm, 229, rfl⟩
abbrev main_v165 : Ref sig .tc := ⟨.hbm, 230, rfl⟩
abbrev main_c_40 : Ref sig .tc := ⟨.hbm, 231, rfl⟩
abbrev main_call9_v0 : Ref sig .tc := ⟨.hbm, 232, rfl⟩
abbrev main_v166 : Ref sig .tc := ⟨.hbm, 233, rfl⟩
abbrev main_c_41 : Ref sig .tc := ⟨.hbm, 234, rfl⟩
abbrev main_call10_v0 : Ref sig .tc := ⟨.hbm, 235, rfl⟩
abbrev main_v167 : Ref sig .tc := ⟨.hbm, 236, rfl⟩
abbrev main_cst_42 : Ref sig .tc := ⟨.hbm, 237, rfl⟩
abbrev main_v168 : Ref sig .tc := ⟨.hbm, 238, rfl⟩
abbrev main_v169 : Ref sig .tc := ⟨.hbm, 239, rfl⟩
abbrev main_cst_43 : Ref sig .tc := ⟨.hbm, 240, rfl⟩
abbrev main_call11_v0 : Ref sig .tc := ⟨.hbm, 241, rfl⟩
abbrev main_call11_v1 : Ref sig .tc := ⟨.hbm, 242, rfl⟩
abbrev main_v170 : Ref sig .tc := ⟨.hbm, 243, rfl⟩
abbrev main_c_44 : Ref sig .tc := ⟨.hbm, 244, rfl⟩
abbrev main_call12_v0 : Ref sig .tc := ⟨.hbm, 245, rfl⟩
abbrev main_v171 : Ref sig .tc := ⟨.hbm, 246, rfl⟩
abbrev main_c_45 : Ref sig .tc := ⟨.hbm, 247, rfl⟩
abbrev main_call13_v0 : Ref sig .tc := ⟨.hbm, 248, rfl⟩
abbrev main_v172 : Ref sig .tc := ⟨.hbm, 249, rfl⟩
abbrev main_c_46 : Ref sig .tc := ⟨.hbm, 250, rfl⟩
abbrev main_call14_v0 : Ref sig .tc := ⟨.hbm, 251, rfl⟩
abbrev main_v173 : Ref sig .tc := ⟨.hbm, 252, rfl⟩
abbrev main_c_47 : Ref sig .tc := ⟨.hbm, 253, rfl⟩
abbrev main_call15_v0 : Ref sig .tc := ⟨.hbm, 254, rfl⟩
abbrev main_v174 : Ref sig .tc := ⟨.hbm, 255, rfl⟩
abbrev main_c_48 : Ref sig .tc := ⟨.hbm, 256, rfl⟩
abbrev main_call16_v0 : Ref sig .tc := ⟨.hbm, 257, rfl⟩
abbrev main_v175 : Ref sig .tc := ⟨.hbm, 258, rfl⟩
abbrev main_v176_0 : Ref sig .tc := ⟨.hbm, 259, rfl⟩
abbrev main_v176_1 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S262144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S262144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S262144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S262144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S262144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S262144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S262144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![31], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 1 → Nat :=
  let arg0 : BitVec 32 := BitVec.ofNat 32 (i 0).val
  let c0_i32 : BitVec 32 := 0#32
  ![arg0.toNat]

def cc1_transform_5 (i : grid1.Coords) : Fin 1 → Nat :=
  let arg0 : BitVec 32 := BitVec.ofNat 32 (i 0).val
  let c0_i32 : BitVec 32 := 0#32
  ![arg0.toNat]

def cc1_transform_6 (i : grid1.Coords) : Fin 1 → Nat :=
  let arg0 : BitVec 32 := BitVec.ofNat 32 (i 0).val
  let c0_i32 : BitVec 32 := 0#32
  ![arg0.toNat]

def cc1_transform_7 (i : grid1.Coords) : Fin 1 → Nat :=
  let arg0 : BitVec 32 := BitVec.ofNat 32 (i 0).val
  let c0_i32 : BitVec 32 := 0#32
  ![arg0.toNat]

def cc1_transform_8 (i : grid1.Coords) : Fin 1 → Nat :=
  let arg0 : BitVec 32 := BitVec.ofNat 32 (i 0).val
  let c0_i32 : BitVec 32 := 0#32
  ![arg0.toNat]

def cc1_transform_9 (i : grid1.Coords) : Fin 1 → Nat :=
  let arg0 : BitVec 32 := BitVec.ofNat 32 (i 0).val
  let c0_i32 : BitVec 32 := 0#32
  ![arg0.toNat]

def cc1_transform_10 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S6x65536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6x65536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6x65536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S65536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S65536 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S65536 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S65536 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S65536 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S65536 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S65536 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S65536 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  bcast_S_S4000000 : S_.BroadcastsInDim S4000000 (![] : Fin 0 → Fin S4000000.rank)
  bcast_S4000000_S4000000x1_0 : S4000000.BroadcastsInDim S4000000x1 (![0] : Fin 1 → Fin S4000000x1.rank)
  pads_S4000000_S4194304_01943040 : S4000000.Pads (![0] : Fin 1 → Nat) ![194304] ![0] S4194304
  h_S_ : 0 < S_.numel
  bcast_S_S4194304 : S_.BroadcastsInDim S4194304 (![] : Fin 0 → Fin S4194304.rank)
  inb_S262144_S262144_0 : ∀ a, (![0] : Fin 1 → Nat) a + S262144.size a ≤ S262144.size a
  h_S262144 : 0 < S262144.numel
  shapeCasts_S262144_S262144 : S262144.ShapeCasts S262144
  slices_S4194304_S4000000_0 : S4194304.Slices ![0] S4000000
  slices_S2000000x6_S2000000x1_0_0 : S2000000x6.Slices ![0, 0] S2000000x1
  shapeCasts_S2000000x1_S2000000 : S2000000x1.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2000000x6_S2000000x1_0_1 : S2000000x6.Slices ![0, 1] S2000000x1
  slices_S2000000x6_S2000000x1_0_2 : S2000000x6.Slices ![0, 2] S2000000x1
  slices_S2000000x6_S2000000x1_0_3 : S2000000x6.Slices ![0, 3] S2000000x1
  slices_S2000000x6_S2000000x1_0_4 : S2000000x6.Slices ![0, 4] S2000000x1
  slices_S2000000x6_S2000000x1_0_5 : S2000000x6.Slices ![0, 5] S2000000x1
  bcast_S2000000_S1x2000000_1 : S2000000.BroadcastsInDim S1x2000000 (![1] : Fin 1 → Fin S1x2000000.rank)
  concatenates_S1x2000000_S1x2000000_S1x2000000_S1x2000000_S1x2000000_S1x2000000_S6x2000000_d0 : Shape.Concatenates [S1x2000000, S1x2000000, S1x2000000, S1x2000000, S1x2000000, S1x2000000] S6x2000000 0
  transposes_S2000000x6_S6x2000000_1_0 : S2000000x6.Transposes [1, 0] S6x2000000
  pads_S6x2000000_S6x2031616_000_0316160 : S6x2000000.Pads (![0, 0] : Fin 2 → Nat) ![0, 31616] ![0, 0] S6x2031616
  pads_S2000000_S2031616_0316160 : S2000000.Pads (![0] : Fin 1 → Nat) ![31616] ![0] S2031616
  bcast_S_S2031616 : S_.BroadcastsInDim S2031616 (![] : Fin 0 → Fin S2031616.rank)
  inb_S6x65536_S6x65536_0_0 : ∀ a, (![0, 0] : Fin 2 → Nat) a + S6x65536.size a ≤ S6x65536.size a
  h_S6x65536 : 0 < S6x65536.numel
  shapeCasts_S6x65536_S6x65536 : S6x65536.ShapeCasts S6x65536
  reduces_S6x65536_S65536 : S6x65536.Reduces [0] S65536
  inb_S65536_S65536_0 : ∀ a, (![0] : Fin 1 → Nat) a + S65536.size a ≤ S65536.size a
  h_S65536 : 0 < S65536.numel
  shapeCasts_S65536_S65536 : S65536.ShapeCasts S65536
  slices_S2031616_S2000000_0 : S2031616.Slices ![0] S2000000
  concatenates_S1x2000000_S1x2000000_S2x2000000_d0 : Shape.Concatenates [S1x2000000, S1x2000000] S2x2000000 0
  gather_S2000000_S4000000x1_S4000000_n_0_n_n_0_1_1_wf : GatherDims.WF S2000000 S4000000x1 S4000000 [] [0] [] [0] [] 1 ![1]
  gather_S4000000_S2000000x1_S2000000_n_0_n_n_0_1_1_wf : GatherDims.WF S4000000 S2000000x1 S2000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S262144.size a ≤ S4194304.size a
  hwx0_0 : ∀ i : grid0.Coords, EltTy.bits .f32 = 32 ∨ (Rect.block (s := S4194304) S262144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S262144.size a ≤ S4194304.size a
  hwx0_1 : ∀ i : grid0.Coords, EltTy.bits .f32 = 32 ∨ (Rect.block (s := S4194304) S262144.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S262144.size a ≤ S4194304.size a
  hwx0_2 : ∀ i : grid0.Coords, EltTy.bits .f32 = 32 ∨ (Rect.block (s := S4194304) S262144.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S262144.size a ≤ S4194304.size a
  hwx0_3 : ∀ i : grid0.Coords, EltTy.bits .f32 = 32 ∨ (Rect.block (s := S4194304) S262144.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S262144.size a ≤ S4194304.size a
  hwx0_4 : ∀ i : grid0.Coords, EltTy.bits .f32 = 32 ∨ (Rect.block (s := S4194304) S262144.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S262144.size a ≤ S4194304.size a
  hwx0_5 : ∀ i : grid0.Coords, EltTy.bits .f32 = 32 ∨ (Rect.block (s := S4194304) S262144.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S262144.size a ≤ S4194304.size a
  hwx0_6 : ∀ i : grid0.Coords, EltTy.bits .f32 = 32 ∨ (Rect.block (s := S4194304) S262144.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S262144.size a ≤ S4194304.size a
  hwx0_7 : ∀ i : grid0.Coords, EltTy.bits .f32 = 32 ∨ (Rect.block (s := S4194304) S262144.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6x65536.size a ≤ S6x2031616.size a
  hwx1_0 : ∀ i : grid1.Coords, EltTy.bits .f32 = 32 ∨ (Rect.block (s := S6x2031616) S6x65536.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6x65536.size a ≤ S6x2031616.size a
  hwx1_1 : ∀ i : grid1.Coords, EltTy.bits .f32 = 32 ∨ (Rect.block (s := S6x2031616) S6x65536.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6x65536.size a ≤ S6x2031616.size a
  hwx1_2 : ∀ i : grid1.Coords, EltTy.bits .f32 = 32 ∨ (Rect.block (s := S6x2031616) S6x65536.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S65536.size a ≤ S2031616.size a
  hwx1_3 : ∀ i : grid1.Coords, EltTy.bits .f32 = 32 ∨ (Rect.block (s := S2031616) S65536.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S65536.size a ≤ S2031616.size a
  hwx1_4 : ∀ i : grid1.Coords, EltTy.bits .f32 = 32 ∨ (Rect.block (s := S2031616) S65536.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S65536.size a ≤ S2031616.size a
  hwx1_5 : ∀ i : grid1.Coords, EltTy.bits .f32 = 32 ∨ (Rect.block (s := S2031616) S65536.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S65536.size a ≤ S2031616.size a
  hwx1_6 : ∀ i : grid1.Coords, EltTy.bits .f32 = 32 ∨ (Rect.block (s := S2031616) S65536.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S65536.size a ≤ S2031616.size a
  hwx1_7 : ∀ i : grid1.Coords, EltTy.bits .f32 = 32 ∨ (Rect.block (s := S2031616) S65536.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S65536.size a ≤ S2031616.size a
  hwx1_8 : ∀ i : grid1.Coords, EltTy.bits .f32 = 32 ∨ (Rect.block (s := S2031616) S65536.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S65536.size a ≤ S2031616.size a
  hwx1_9 : ∀ i : grid1.Coords, EltTy.bits .f32 = 32 ∨ (Rect.block (s := S2031616) S65536.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S65536.size a ≤ S2031616.size a
  hwx1_10 : ∀ i : grid1.Coords, EltTy.bits .f32 = 32 ∨ (Rect.block (s := S2031616) S65536.size (cc1_transform_10 i) (hinb1_10 i)).WholeWords (EltTy.packing .f32)

variable [Facts₀]

def gather_S2000000_S4000000x1_S4000000_n_0_n_n_0_1_1 : GatherDims S2000000 S4000000x1 S4000000 where
  offsetDims := []
  collapsedSliceDims := [0]
  operandBatchingDims := []
  startIndicesBatchingDims := []
  startIndexMap := [0]
  indexVectorDim := 1
  sliceSizes := ![1]
  wf := gather_S2000000_S4000000x1_S4000000_n_0_n_n_0_1_1_wf
def gather_S4000000_S2000000x1_S2000000_n_0_n_n_0_1_1 : GatherDims S4000000 S2000000x1 S2000000 where
  offsetDims := []
  collapsedSliceDims := [0]
  operandBatchingDims := []
  startIndicesBatchingDims := []
  startIndexMap := [0]
  indexVectorDim := 1
  sliceSizes := ![1]
  wf := gather_S4000000_S2000000x1_S2000000_n_0_n_n_0_1_1_wf

abbrev win0_0 : Pipeline.Window sig grid0 :=
  Pipeline.Window.ofSpec (Memref.whole main_v28) S262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S262144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S262144.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S262144.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35) S262144.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v36) S262144.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v37_0) S262144.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v37_1) S262144.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v164) S6x65536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v165) S6x65536.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v166) S6x65536.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v170) S65536.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v171) S65536.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v172) S65536.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v173) S65536.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v174) S65536.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v175) S65536.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v176_0) S65536.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v176_1) S65536.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S2000000 : Shape := ⟨1, ![2000000]⟩
abbrev S4000000 : Shape := ⟨1, ![4000000]⟩
abbrev S2000000x6 : Shape := ⟨2, ![2000000, 6]⟩
abbrev S_ : Shape := ⟨0, ![]⟩
abbrev S4000000x1 : Shape := ⟨2, ![4000000, 1]⟩
abbrev S2000000x6x1 : Shape := ⟨3, ![2000000, 6, 1]⟩
abbrev S1x2000000 : Shape := ⟨2, ![1, 2000000]⟩
abbrev S2x2000000 : Shape := ⟨2, ![2, 2000000]⟩

abbrev nBuf : Space → Nat
  | .hbm => 168
  | .vmem => 0
  | .smem => 0
  | _ => 0

abbrev hbmTy0_0 (i : Nat) : BufTy := match i % 128 with
  | 0 => ⟨S2000000, .f32⟩
  | 1 => ⟨S2000000, .f32⟩
  | 2 => ⟨S4000000, .f32⟩
  | 3 => ⟨S2000000, .f32⟩
  | 4 => ⟨S2000000, .f32⟩
  | 5 => ⟨S2000000, .f32⟩
  | 6 => ⟨S4000000, .f32⟩
  | 7 => ⟨S2000000, .f32⟩
  | 8 => ⟨S4000000, .i32⟩
  | 9 => ⟨S4000000, .i32⟩
  | 10 => ⟨S2000000x6, .i32⟩
  | 11 => ⟨S2000000x6, .i32⟩
  | 12 => ⟨S_, .i32⟩
  | 13 => ⟨S4000000, .i32⟩
  | 14 => ⟨S4000000, .i1⟩
  | 15 => ⟨S_, .i32⟩
  | 16 => ⟨S4000000, .i32⟩
  | 17 => ⟨S4000000, .i32⟩
  | 18 => ⟨S4000000, .i32⟩
  | 19 => ⟨S4000000x1, .i32⟩
  | 20 => ⟨S4000000, .f32⟩
  | 21 => ⟨S_, .i32⟩
  | 22 => ⟨S4000000, .i32⟩
  | 23 => ⟨S4000000, .i1⟩
  | 24 => ⟨S_, .i32⟩
  | 25 => ⟨S4000000, .i32⟩
  | 26 => ⟨S4000000, .i32⟩
  | 27 => ⟨S4000000, .i32⟩
  | 28 => ⟨S4000000x1, .i32⟩
  | 29 => ⟨S4000000, .f32⟩
  | 30 => ⟨S4000000, .f32⟩
  | 31 => ⟨S_, .f32⟩
  | 32 => ⟨S4000000, .f32⟩
  | 33 => ⟨S4000000, .f32⟩
  | 34 => ⟨S_, .i32⟩
  | 35 => ⟨S4000000, .i32⟩
  | 36 => ⟨S4000000, .i1⟩
  | 37 => ⟨S_, .i32⟩
  | 38 => ⟨S4000000, .i32⟩
  | 39 => ⟨S4000000, .i32⟩
  | 40 => ⟨S4000000, .i32⟩
  | 41 => ⟨S4000000x1, .i32⟩
  | 42 => ⟨S4000000, .f32⟩
  | 43 => ⟨S_, .i32⟩
  | 44 => ⟨S4000000, .i32⟩
  | 45 => ⟨S4000000, .i1⟩
  | 46 => ⟨S_, .i32⟩
  | 47 => ⟨S4000000, .i32⟩
  | 48 => ⟨S4000000, .i32⟩
  | 49 => ⟨S4000000, .i32⟩
  | 50 => ⟨S4000000x1, .i32⟩
  | 51 => ⟨S4000000, .f32⟩
  | 52 => ⟨S4000000, .f32⟩
  | 53 => ⟨S4000000, .f32⟩
  | 54 => ⟨S4000000, .f32⟩
  | 55 => ⟨S4000000, .f32⟩
  | 56 => ⟨S_, .f32⟩
  | 57 => ⟨S4000000, .f32⟩
  | 58 => ⟨S4000000, .f32⟩
  | 59 => ⟨S_, .f32⟩
  | 60 => ⟨S4000000, .f32⟩
  | 61 => ⟨S4000000, .f32⟩
  | 62 => ⟨S_, .f32⟩
  | 63 => ⟨S4000000, .f32⟩
  | 64 => ⟨S4000000, .f32⟩
  | 65 => ⟨S_, .f32⟩
  | 66 => ⟨S4000000, .f32⟩
  | 67 => ⟨S4000000, .f32⟩
  | 68 => ⟨S4000000, .f32⟩
  | 69 => ⟨S4000000, .f32⟩
  | 70 => ⟨S_, .i32⟩
  | 71 => ⟨S2000000x6, .i32⟩
  | 72 => ⟨S2000000x6, .i1⟩
  | 73 => ⟨S_, .i32⟩
  | 74 => ⟨S2000000x6, .i32⟩
  | 75 => ⟨S2000000x6, .i32⟩
  | 76 => ⟨S2000000x6, .i32⟩
  | 77 => ⟨S2000000x6x1, .i32⟩
  | 78 => ⟨S2000000x6, .f32⟩
  | 79 => ⟨S2000000x6, .f32⟩
  | 80 => ⟨S2000000x6, .f32⟩
  | 81 => ⟨S_, .f32⟩
  | 82 => ⟨S2000000, .f32⟩
  | 83 => ⟨S2000000, .f32⟩
  | 84 => ⟨S4000000, .f32⟩
  | 85 => ⟨S4000000, .f32⟩
  | 86 => ⟨S_, .i32⟩
  | 87 => ⟨S2000000x6, .i32⟩
  | 88 => ⟨S2000000x6, .i1⟩
  | 89 => ⟨S_, .i32⟩
  | 90 => ⟨S2000000x6, .i32⟩
  | 91 => ⟨S2000000x6, .i32⟩
  | 92 => ⟨S2000000x6, .i32⟩
  | 93 => ⟨S2000000x6x1, .i32⟩
  | 94 => ⟨S2000000x6, .f32⟩
  | 95 => ⟨S_, .f32⟩
  | 96 => ⟨S2000000, .f32⟩
  | 97 => ⟨S_, .f32⟩
  | 98 => ⟨S2000000, .f32⟩
  | 99 => ⟨S2000000, .f32⟩
  | 100 => ⟨S_, .f32⟩
  | 101 => ⟨S2000000, .f32⟩
  | 102 => ⟨S2000000, .f32⟩
  | 103 => ⟨S2000000, .f32⟩
  | 104 => ⟨S_, .f32⟩
  | 105 => ⟨S2000000, .f32⟩
  | 106 => ⟨S2000000, .f32⟩
  | 107 => ⟨S_, .f32⟩
  | 108 => ⟨S2000000, .f32⟩
  | 109 => ⟨S2000000, .f32⟩
  | 110 => ⟨S_, .f32⟩
  | 111 => ⟨S2000000, .f32⟩
  | 112 => ⟨S2000000, .f32⟩
  | 113 => ⟨S2000000, .f32⟩
  | 114 => ⟨S_, .f32⟩
  | 115 => ⟨S2000000, .f32⟩
  | 116 => ⟨S2000000, .f32⟩
  | 117 => ⟨S2000000, .f32⟩
  | 118 => ⟨S2000000, .f32⟩
  | 119 => ⟨S_, .f32⟩
  | 120 => ⟨S2000000, .f32⟩
  | 121 => ⟨S2000000, .f32⟩
  | 122 => ⟨S2000000, .f32⟩
  | 123 => ⟨S2000000, .f32⟩
  | 124 => ⟨S2000000, .f32⟩
  | 125 => ⟨S_, .f32⟩
  | 126 => ⟨S2000000, .f32⟩
  | 127 => ⟨S2000000, .f32⟩
  | _ => ⟨S2000000, .f32⟩

abbrev hbmTy0_1 (i : Nat) : BufTy := match i % 128 with
  | 0 => ⟨S_, .f32⟩
  | 1 => ⟨S2000000, .f32⟩
  | 2 => ⟨S2000000, .f32⟩
  | 3 => ⟨S2000000, .f32⟩
  | 4 => ⟨S2000000, .f32⟩
  | 5 => ⟨S2000000, .f32⟩
  | 6 => ⟨S_, .f32⟩
  | 7 => ⟨S2000000, .f32⟩
  | 8 => ⟨S2000000, .f32⟩
  | 9 => ⟨S_, .f32⟩
  | 10 => ⟨S2000000, .f32⟩
  | 11 => ⟨S2000000, .f32⟩
  | 12 => ⟨S2000000, .f32⟩
  | 13 => ⟨S2000000, .f32⟩
  | 14 => ⟨S2000000, .f32⟩
  | 15 => ⟨S_, .f32⟩
  | 16 => ⟨S2000000, .f32⟩
  | 17 => ⟨S2000000, .f32⟩
  | 18 => ⟨S2000000, .f32⟩
  | 19 => ⟨S2000000, .f32⟩
  | 20 => ⟨S2000000, .f32⟩
  | 21 => ⟨S_, .f32⟩
  | 22 => ⟨S2000000, .f32⟩
  | 23 => ⟨S2000000, .f32⟩
  | 24 => ⟨S2000000, .f32⟩
  | 25 => ⟨S_, .f32⟩
  | 26 => ⟨S2000000, .f32⟩
  | 27 => ⟨S2000000, .f32⟩
  | 28 => ⟨S2000000, .f32⟩
  | 29 => ⟨S2000000, .f32⟩
  | 30 => ⟨S_, .f32⟩
  | 31 => ⟨S2000000, .f32⟩
  | 32 => ⟨S2000000, .f32⟩
  | 33 => ⟨S_, .f32⟩
  | 34 => ⟨S2000000, .f32⟩
  | 35 => ⟨S2000000, .f32⟩
  | 36 => ⟨S2000000, .f32⟩
  | 37 => ⟨S1x2000000, .f32⟩
  | 38 => ⟨S1x2000000, .f32⟩
  | 39 => ⟨S2x2000000, .f32⟩
  | _ => ⟨S2000000, .f32⟩

abbrev hbmTy (i : Nat) : BufTy := match i / 128 with
  | 0 => hbmTy0_0 i
  | 1 => hbmTy0_1 i
  | _ => ⟨S2000000, .f32⟩

abbrev bufTy : (tb : Table) → Fin (tcTables nBuf tb) → BufTy
  | .hbm, ⟨i, _⟩ => hbmTy i
  | _, _ => ⟨S2000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_c_15 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_16 : Ref sig .tc := ⟨.hbm, 95, rfl⟩
abbrev main_v65 : Ref sig .tc := ⟨.hbm, 96, rfl⟩
abbrev main_cst_17 : Ref sig .tc := ⟨.hbm, 97, rfl⟩
abbrev main_v66 : Ref sig .tc := ⟨.hbm, 98, rfl⟩
abbrev main_v67 : Ref sig .tc := ⟨.hbm, 99, rfl⟩
abbrev main_cst_18 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_19 : Ref sig .tc := ⟨.hbm, 104, rfl⟩
abbrev main_v71 : Ref sig .tc := ⟨.hbm, 105, rfl⟩
abbrev main_v72 : Ref sig .tc := ⟨.hbm, 106, rfl⟩
abbrev main_cst_20 : Ref sig .tc := ⟨.hbm, 107, rfl⟩
abbrev main_v73 : Ref sig .tc := ⟨.hbm, 108, rfl⟩
abbrev main_v74 : Ref sig .tc := ⟨.hbm, 109, rfl⟩
abbrev main_cst_21 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_22 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_23 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_24 : Ref sig .tc := ⟨.hbm, 125, rfl⟩
abbrev main_v87 : Ref sig .tc := ⟨.hbm, 126, rfl⟩
abbrev main_v88 : Ref sig .tc := ⟨.hbm, 127, rfl⟩
abbrev main_cst_25 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_26 : Ref sig .tc := ⟨.hbm, 134, rfl⟩
abbrev main_v94 : Ref sig .tc := ⟨.hbm, 135, rfl⟩
abbrev main_v95 : Ref sig .tc := ⟨.hbm, 136, rfl⟩
abbrev main_cst_27 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_28 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_29 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_30 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_31 : Ref sig .tc := ⟨.hbm, 158, rfl⟩
abbrev main_v113 : Ref sig .tc := ⟨.hbm, 159, rfl⟩
abbrev main_v114 : Ref sig .tc := ⟨.hbm, 160, rfl⟩
abbrev main_cst_32 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩

abbrev nD : Nat := 1
abbrev τ : Topo := Topo.v7x

variable {F : FTy → Type} [FloatOps F]

class Facts₀ : Prop where
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S2000000x6 : S_.BroadcastsInDim S2000000x6 (![] : Fin 0 → Fin S2000000x6.rank)
  bcast_S2000000x6_S2000000x6x1_0_1 : S2000000x6.BroadcastsInDim S2000000x6x1 (![0, 1] : Fin 2 → Fin S2000000x6x1.rank)
  reducesTo_S2000000x6_S2000000_d1 : S2000000x6.ReducesTo [1] S2000000
  h_S_ : 0 < S_.numel
  bcast_S_S2000000 : S_.BroadcastsInDim S2000000 (![] : Fin 0 → Fin S2000000.rank)
  bcast_S2000000_S1x2000000_1 : S2000000.BroadcastsInDim S1x2000000 (![1] : Fin 1 → Fin S1x2000000.rank)
  concatenates_S1x2000000_S1x2000000_S2x2000000_d0 : Shape.Concatenates [S1x2000000, S1x2000000] S2x2000000 0
  gather_S2000000_S4000000x1_S4000000_n_0_n_n_0_1_1_wf : GatherDims.WF S2000000 S4000000x1 S4000000 [] [0] [] [0] [] 1 ![1]
  gather_S4000000_S2000000x6x1_S2000000x6_n_0_n_n_0_2_1_wf : GatherDims.WF S4000000 S2000000x6x1 S2000000x6 [] [0] [] [0] [] 2 ![1]

variable [Facts₀]

def gather_S2000000_S4000000x1_S4000000_n_0_n_n_0_1_1 : GatherDims S2000000 S4000000x1 S4000000 where
  offsetDims := []
  collapsedSliceDims := [0]
  operandBatchingDims := []
  startIndicesBatchingDims := []
  startIndexMap := [0]
  indexVectorDim := 1
  sliceSizes := ![1]
  wf := gather_S2000000_S4000000x1_S4000000_n_0_n_n_0_1_1_wf
def gather_S4000000_S2000000x6x1_S2000000x6_n_0_n_n_0_2_1 : GatherDims S4000000 S2000000x6x1 S2000000x6 where
  offsetDims := []
  collapsedSliceDims := [0]
  operandBatchingDims := []
  startIndicesBatchingDims := []
  startIndexMap := [0]
  indexVectorDim := 2
  sliceSizes := ![1]
  wf := gather_S4000000_S2000000x6x1_S2000000x6_n_0_n_n_0_2_1_wf

class Facts : Prop extends Facts₀ where

variable [Facts]
-- ==== Proof.KRegion0.lean ====
/-
  The link stage's pallas_call (pipeline 0 of @main) at the buffer contents V the region is entered with:
  what each window's block is at a grid point, what the body leaves in the two output buffers (the discharge
  and the dissipation of the 262144 links of the block, as functions of the six input blocks), the body's
  triple, the pipeline's proof data and the body obligation at every grid point.
-/
import proofs.«417076_j8899172237900_1_alg».proof.Proof.Gen.Kernel.Launch
import proofs.«417076_j8899172237900_1_alg».proof.Proof.Gen.Kernel.Skeleton
import proofs.«417076_j8899172237900_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, for any proof data whose array is
    `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, for any proof data whose array is
    `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, for any proof data whose array is
    `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, for any proof data whose array is
    `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, for any proof data whose array is
    `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body loads and stores through: the whole block. -/
abbrev r0 : Rect S262144 := Rect.unit (s := S262144) ![0] S262144.size inb_S262144_S262144_0

/-- The discharge buffer after the body, from the six input blocks. -/
def out0_6 (x0 : Vec F S262144 .f32) (x1 : Vec F S262144 .f32) (x2 : Vec F S262144 .f32) (x3 : Vec F S262144 .f32) (x4 : Vec F S262144 .f32) (x5 : Vec F S262144 .f32) : Vec F S262144 .f32 :=
  View.canon [⟨r0, k0_pay2 (View.ld x0 r0) (View.ld x1 r0) (View.ld x2 r0) (View.ld x3 r0) (View.ld x4 r0) (View.ld x5 r0)⟩]

/-- The dissipation buffer after the body, from the six input blocks. -/
def out0_7 (x0 : Vec F S262144 .f32) (x1 : Vec F S262144 .f32) (x2 : Vec F S262144 .f32) (x3 : Vec F S262144 .f32) (x4 : Vec F S262144 .f32) (x5 : Vec F S262144 .f32) : Vec F S262144 .f32 :=
  View.canon [⟨r0, k0_pay3 (View.ld x0 r0) (View.ld x1 r0) (View.ld x2 r0) (View.ld x3 r0) (View.ld x4 r0) (View.ld x5 r0)⟩]

/-- The single store covers the buffer. -/
theorem cover0 (p0 : Vec F S262144 .f32) (y : S262144.Idx) :
    ∃ pc ∈ ([⟨r0, p0⟩] : List (View.Piece (Elt F) S262144 .f32)), y ∈ pc.1.set :=
  View.cover_of_tiled [⟨r0, p0⟩] S262144.size (by rfl) y

set_option maxHeartbeats 4000000 in
/-- The body on whole staging memrefs, the inputs' at contents `xW` and the outputs' at anything, runs to the
    continuation holding the inputs' as they were and each output's at `out0_W` of the inputs'. -/
theorem sound_kernel0 (c : Dev nD) (E : Set ℕ) (i : grid0.Coords) (arg1 : Memref sig .tc .vmem S262144 .f32) (harg1 : arg1.IsWhole) (arg2 : Memref sig .tc .vmem S262144 .f32) (harg2 : arg2.IsWhole) (arg3 : Memref sig .tc .vmem S262144 .f32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .f32) (harg6 : arg6.IsWhole) (arg7 : Memref sig .tc .vmem S262144 .f32) (harg7 : arg7.IsWhole) (arg8 : Memref sig .tc .vmem S262144 .f32) (harg8 : arg8.IsWhole)
    (x0 : Vec F S262144 .f32) (x1 : Vec F S262144 .f32) (x2 : Vec F S262144 .f32) (x3 : Vec F S262144 .f32) (x4 : Vec F S262144 .f32) (x5 : Vec F S262144 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__link_kernel i arg1 harg1 arg2 harg2 arg3 harg3 arg4 harg4 arg5 harg5 arg6 harg6 arg7 harg7 arg8 harg8) K := by
  simp only [cc0__link_kernel_eq_skeleton]; unfold cc0__link_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-- The proof data of pipeline 0 on core `c`: the arrays as the region finds them; after the body at point `t`
    each input's buffer at its block and each output's at `out0_W` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`: the invariant, what the core owes, and each window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What the body returns: the same at the next point, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the six inputs' buffers hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every grid point. -/
theorem body_obligation0 (c : Dev nD) : BodyObligation (dat0 (F := F) V c) (defs₀ (F := F)) Variants.none () Set.univ := by
  intro t
  rw [bigSep_W0, bigSep_W0]
  exact sound_body0 V c t

end Cert.Kernel.Hand

end
-- ==== Proof.KRegion1.lean ====
/-
  The node stage's pallas_call (pipeline 1 of @main) at the buffer contents V the region is entered with:
  what each window's block is at a grid point, what the body leaves in the two output buffers (the new conduit
  size and the flux divergence of the 65536 nodes of the block, as functions of the nine input blocks), the
  body's triple, the pipeline's proof data and the body obligation at every grid point.
-/
import proofs.«417076_j8899172237900_1_alg».proof.Proof.Gen.Kernel.Launch
import proofs.«417076_j8899172237900_1_alg».proof.Proof.Gen.Kernel.Skeleton
import proofs.«417076_j8899172237900_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, for any proof data whose array is
    `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, for any proof data whose array is
    `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, for any proof data whose array is
    `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, for any proof data whose array is
    `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, for any proof data whose array is
    `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, for any proof data whose array is
    `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, for any proof data whose array is
    `V`'s and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, for any proof data whose array is
    `V`'s and whose body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- The two rectangles the body loads and stores through: a whole (6, 65536) block and a whole 65536 block. -/
abbrev r1a : Rect S6x65536 := Rect.unit (s := S6x65536) ![0, 0] S6x65536.size inb_S6x65536_S6x65536_0_0
abbrev r1b : Rect S65536 := Rect.unit (s := S65536) ![0] S65536.size inb_S65536_S65536_0

/-- The new conduit size's buffer after the body, from the input blocks (the dissipation rows, the geothermal
    flux, the ice thickness, the bedrock, the head and the old size). -/
def out1_9 (x0 : Vec F S6x65536 .f32) (x1 : Vec F S6x65536 .f32) (x2 : Vec F S6x65536 .f32) (x3 : Vec F S65536 .f32) (x4 : Vec F S65536 .f32) (x5 : Vec F S65536 .f32) (x6 : Vec F S65536 .f32) (x7 : Vec F S65536 .f32) (x8 : Vec F S65536 .f32) : Vec F S65536 .f32 :=
  View.canon [⟨r1b, k1_pay1 (k1_pay3 (View.ld x1 r1a) (View.ld x4 r1b)) (k1_pay4 (View.ld x5 r1b) (View.ld x7 r1b) (View.ld x6 r1b)) (View.ld x8 r1b)⟩]

/-- The flux divergence's buffer after the body, from the input blocks (the discharge rows, the direction rows
    and the area). -/
def out1_10 (x0 : Vec F S6x65536 .f32) (x1 : Vec F S6x65536 .f32) (x2 : Vec F S6x65536 .f32) (x3 : Vec F S65536 .f32) (x4 : Vec F S65536 .f32) (x5 : Vec F S65536 .f32) (x6 : Vec F S65536 .f32) (x7 : Vec F S65536 .f32) (x8 : Vec F S65536 .f32) : Vec F S65536 .f32 :=
  View.canon [⟨r1b, k1_pay2 (View.ld x0 r1a) (View.ld x2 r1a) (View.ld x3 r1b)⟩]

/-- The single store covers the buffer. -/
theorem cover1 (p0 : Vec F S65536 .f32) (y : S65536.Idx) :
    ∃ pc ∈ ([⟨r1b, p0⟩] : List (View.Piece (Elt F) S65536 .f32)), y ∈ pc.1.set :=
  View.cover_of_tiled [⟨r1b, p0⟩] S65536.size (by rfl) y

set_option maxHeartbeats 4000000 in
/-- The body on whole staging memrefs, the inputs' at contents `xW` and the outputs' at anything, runs to the
    continuation holding the inputs' as they were and each output's at `out1_W` of the inputs'. -/
theorem sound_kernel1 (c : Dev nD) (E : Set ℕ) (i : grid1.Coords) (arg1 : Memref sig .tc .vmem S6x65536 .f32) (harg1 : arg1.IsWhole) (arg2 : Memref sig .tc .vmem S6x65536 .f32) (harg2 : arg2.IsWhole) (arg3 : Memref sig .tc .vmem S6x65536 .f32) (harg3 : arg3.IsWhole) (arg4 : Memref sig .tc .vmem S65536 .f32) (harg4 : arg4.IsWhole) (arg5 : Memref sig .tc .vmem S65536 .f32) (harg5 : arg5.IsWhole) (arg6 : Memref sig .tc .vmem S65536 .f32) (harg6 : arg6.IsWhole) (arg7 : Memref sig .tc .vmem S65536 .f32) (harg7 : arg7.IsWhole) (arg8 : Memref sig .tc .vmem S65536 .f32) (harg8 : arg8.IsWhole) (arg9 : Memref sig .tc .vmem S65536 .f32) (harg9 : arg9.IsWhole) (arg10 : Memref sig .tc .vmem S65536 .f32) (harg10 : arg10.IsWhole) (arg11 : Memref sig .tc .vmem S65536 .f32) (harg11 : arg11.IsWhole)
    (x0 : Vec F S6x65536 .f32) (x1 : Vec F S6x65536 .f32) (x2 : Vec F S6x65536 .f32) (x3 : Vec F S65536 .f32) (x4 : Vec F S65536 .f32) (x5 : Vec F S65536 .f32) (x6 : Vec F S65536 .f32) (x7 : Vec F S65536 .f32) (x8 : Vec F S65536 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8) ∗ owns (c : Thread nD τ) arg11 fullShare (out1_10 x0 x1 x2 x3 x4 x5 x6 x7 x8)) -∗ K ⟨⟩))
      ⊢ wp frame (wpE (defs₀ (F := F)) Variants.none c none) E (cc1__node_kernel i arg1 harg1 arg2 harg2 arg3 harg3 arg4 harg4 arg5 harg5 arg6 harg6 arg7 harg7 arg8 harg8 arg9 harg9 arg10 harg10 arg11 harg11) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover1 _)
  iexists _; isplitr
  swap; · iexact H10
  ipureintro
  exact View.read_writes_eq_canon _ _ _ (cover1 _)

/-- The proof data of pipeline 1 on core `c`: the arrays as the region finds them; after the body at point `t`
    each input's buffer at its block and each output's at `out1_W` of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`: the invariant, what the core owes, and each window's current
    staging buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- What the body returns: the same at the next point, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 4000000 in
/-- The body at any point: the nine inputs' buffers hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every grid point. -/
theorem body_obligation1 (c : Dev nD) : BodyObligation (dat1 (F := F) V c) (defs₀ (F := F)) Variants.none () Set.univ := by
  intro t
  rw [bigSep_W1, bigSep_W1]
  exact sound_body1 V c t

end Cert.Kernel.Hand

end
-- ==== Proof.KRun.lean ====
/-
  The run of @main through its two kernel regions: the buffer contents at each boundary (the host operations
  before the link stage, the link stage's region, the host operations between the stages, the node stage's
  region, the closing host operations) as a fold from the launch memory; the two regions and the three host
  stretches as segments; and the launch: every weakly fair execution terminates, nothing faults, and every
  unscoped buffer ends at the fold's last contents.
-/
import proofs.«417076_j8899172237900_1_alg».proof.Proof.Gen.Kernel.Launch
import proofs.«417076_j8899172237900_1_alg».proof.Proof.Gen.Kernel.Skeleton
import proofs.«417076_j8899172237900_1_alg».proof.Proof.Gen.Kernel.Points
import proofs.«417076_j8899172237900_1_alg».proof.Proof.KRegion0
import proofs.«417076_j8899172237900_1_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three stretches of host operations -/

/-- The host operations before the link stage's region (the four gathers and the padding). -/
abbrev opsA : List (HloOp τ sig (Elt F)) := List.flatten [hostOps0, hostOps0_1, hostOps0_2, hostOps0_3, hostOps0_4, hostOps0_5, hostOps0_6, hostOps0_7, hostOps0_8, hostOps0_9, hostOps0_10, hostOps0_11, hostOps0_12, hostOps0_13]
/-- The host operations between the two regions (the slices, the twelve column gathers, the stacking, the padding). -/
abbrev opsB : List (HloOp τ sig (Elt F)) := List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19]
/-- The closing host operations (the slices and the stacking of the two results). -/
abbrev opsC : List (HloOp τ sig (Elt F)) := hostOps2

theorem opsA_sub : (opsA : List (HloOp τ sig (Elt F))).Forall fun op => op.bufs ⊆ StableHlo.tcRefs τ sig := by
  refine List.forall_iff_forall_mem.mpr fun op h => ?_
  simp only [opsA, List.mem_flatten, List.mem_cons, List.not_mem_nil, or_false] at h
  obtain ⟨l, hl, hop⟩ := h
  rcases hl with rfl | rfl | rfl | rfl | rfl | rfl | rfl | rfl | rfl | rfl | rfl | rfl | rfl | rfl
  · exact List.forall_iff_forall_mem.mp hostOps0_sub op hop
  · exact List.forall_iff_forall_mem.mp hostOps0_1_sub op hop
  · exact List.forall_iff_forall_mem.mp hostOps0_2_sub op hop
  · exact List.forall_iff_forall_mem.mp hostOps0_3_sub op hop
  · exact List.forall_iff_forall_mem.mp hostOps0_4_sub op hop
  · exact List.forall_iff_forall_mem.mp hostOps0_5_sub op hop
  · exact List.forall_iff_forall_mem.mp hostOps0_6_sub op hop
  · exact List.forall_iff_forall_mem.mp hostOps0_7_sub op hop
  · exact List.forall_iff_forall_mem.mp hostOps0_8_sub op hop
  · exact List.forall_iff_forall_mem.mp hostOps0_9_sub op hop
  · exact List.forall_iff_forall_mem.mp hostOps0_10_sub op hop
  · exact List.forall_iff_forall_mem.mp hostOps0_11_sub op hop
  · exact List.forall_iff_forall_mem.mp hostOps0_12_sub op hop
  · exact List.forall_iff_forall_mem.mp hostOps0_13_sub op hop

theorem opsB_sub : (opsB : List (HloOp τ sig (Elt F))).Forall fun op => op.bufs ⊆ StableHlo.tcRefs τ sig := by
  refine List.forall_iff_forall_mem.mpr fun op h => ?_
  simp only [opsB, List.mem_flatten, List.mem_cons, List.not_mem_nil, or_false] at h
  obtain ⟨l, hl, hop⟩ := h
  rcases hl with rfl | rfl | rfl | rfl | rfl | rfl | rfl | rfl | rfl | rfl | rfl | rfl | rfl | rfl | rfl | rfl | rfl | rfl | rfl | rfl
  · exact List.forall_iff_forall_mem.mp hostOps1_sub op hop
  · exact List.forall_iff_forall_mem.mp hostOps1_1_sub op hop
  · exact List.forall_iff_forall_mem.mp hostOps1_2_sub op hop
  · exact List.forall_iff_forall_mem.mp hostOps1_3_sub op hop
  · exact List.forall_iff_forall_mem.mp hostOps1_4_sub op hop
  · exact List.forall_iff_forall_mem.mp hostOps1_5_sub op hop
  · exact List.forall_iff_forall_mem.mp hostOps1_6_sub op hop
  · exact List.forall_iff_forall_mem.mp hostOps1_7_sub op hop
  · exact List.forall_iff_forall_mem.mp hostOps1_8_sub op hop
  · exact List.forall_iff_forall_mem.mp hostOps1_9_sub op hop
  · exact List.forall_iff_forall_mem.mp hostOps1_10_sub op hop
  · exact List.forall_iff_forall_mem.mp hostOps1_11_sub op hop
  · exact List.forall_iff_forall_mem.mp hostOps1_12_sub op hop
  · exact List.forall_iff_forall_mem.mp hostOps1_13_sub op hop
  · exact List.forall_iff_forall_mem.mp hostOps1_14_sub op hop
  · exact List.forall_iff_forall_mem.mp hostOps1_15_sub op hop
  · exact List.forall_iff_forall_mem.mp hostOps1_16_sub op hop
  · exact List.forall_iff_forall_mem.mp hostOps1_17_sub op hop
  · exact List.forall_iff_forall_mem.mp hostOps1_18_sub op hop
  · exact List.forall_iff_forall_mem.mp hostOps1_19_sub op hop

theorem opsA_fresh : (opsA : List (HloOp τ sig (Elt F))).Forall fun op => op.fresh = ∅ := by
  refine List.forall_iff_forall_mem.mpr fun op h => ?_
  simp only [opsA, List.mem_flatten, List.mem_cons, List.not_mem_nil, or_false] at h
  obtain ⟨l, hl, hop⟩ := h
  rcases hl with rfl | rfl | rfl | rfl | rfl | rfl | rfl | rfl | rfl | rfl | rfl | rfl | rfl | rfl
  · exact List.forall_iff_forall_mem.mp (by simp only [List.Forall]; repeat' constructor : (hostOps0 : List (HloOp τ sig (Elt F))).Forall fun op => op.fresh = ∅) op hop
  · exact List.forall_iff_forall_mem.mp (by simp only [List.Forall]; repeat' constructor : (hostOps0_1 : List (HloOp τ sig (Elt F))).Forall fun op => op.fresh = ∅) op hop
  · exact List.forall_iff_forall_mem.mp (by simp only [List.Forall]; repeat' constructor : (hostOps0_2 : List (HloOp τ sig (Elt F))).Forall fun op => op.fresh = ∅) op hop
  · exact List.forall_iff_forall_mem.mp (by simp only [List.Forall]; repeat' constructor : (hostOps0_3 : List (HloOp τ sig (Elt F))).Forall fun op => op.fresh = ∅) op hop
  · exact List.forall_iff_forall_mem.mp (by simp only [List.Forall]; repeat' constructor : (hostOps0_4 : List (HloOp τ sig (Elt F))).Forall fun op => op.fresh = ∅) op hop
  · exact List.forall_iff_forall_mem.mp (by simp only [List.Forall]; repeat' constructor : (hostOps0_5 : List (HloOp τ sig (Elt F))).Forall fun op => op.fresh = ∅) op hop
  · exact List.forall_iff_forall_mem.mp (by simp only [List.Forall]; repeat' constructor : (hostOps0_6 : List (HloOp τ sig (Elt F))).Forall fun op => op.fresh = ∅) op hop
  · exact List.forall_iff_forall_mem.mp (by simp only [List.Forall]; repeat' constructor : (hostOps0_7 : List (HloOp τ sig (Elt F))).Forall fun op => op.fresh = ∅) op hop
  · exact List.forall_iff_forall_mem.mp (by simp only [List.Forall]; repeat' constructor : (hostOps0_8 : List (HloOp τ sig (Elt F))).Forall fun op => op.fresh = ∅) op hop
  · exact List.forall_iff_forall_mem.mp (by simp only [List.Forall]; repeat' constructor : (hostOps0_9 : List (HloOp τ sig (Elt F))).Forall fun op => op.fresh = ∅) op hop
  · exact List.forall_iff_forall_mem.mp (by simp only [List.Forall]; repeat' constructor : (hostOps0_10 : List (HloOp τ sig (Elt F))).Forall fun op => op.fresh = ∅) op hop
  · exact List.forall_iff_forall_mem.mp (by simp only [List.Forall]; repeat' constructor : (hostOps0_11 : List (HloOp τ sig (Elt F))).Forall fun op => op.fresh = ∅) op hop
  · exact List.forall_iff_forall_mem.mp (by simp only [List.Forall]; repeat' constructor : (hostOps0_12 : List (HloOp τ sig (Elt F))).Forall fun op => op.fresh = ∅) op hop
  · exact List.forall_iff_forall_mem.mp (by simp only [List.Forall]; repeat' constructor : (hostOps0_13 : List (HloOp τ sig (Elt F))).Forall fun op => op.fresh = ∅) op hop
theorem opsB_fresh : (opsB : List (HloOp τ sig (Elt F))).Forall fun op => op.fresh = ∅ := by
  refine List.forall_iff_forall_mem.mpr fun op h => ?_
  simp only [opsB, List.mem_flatten, List.mem_cons, List.not_mem_nil, or_false] at h
  obtain ⟨l, hl, hop⟩ := h
  rcases hl with rfl | rfl | rfl | rfl | rfl | rfl | rfl | rfl | rfl | rfl | rfl | rfl | rfl | rfl | rfl | rfl | rfl | rfl | rfl | rfl
  · exact List.forall_iff_forall_mem.mp (by simp only [List.Forall]; repeat' constructor : (hostOps1 : List (HloOp τ sig (Elt F))).Forall fun op => op.fresh = ∅) op hop
  · exact List.forall_iff_forall_mem.mp (by simp only [List.Forall]; repeat' constructor : (hostOps1_1 : List (HloOp τ sig (Elt F))).Forall fun op => op.fresh = ∅) op hop
  · exact List.forall_iff_forall_mem.mp (by simp only [List.Forall]; repeat' constructor : (hostOps1_2 : List (HloOp τ sig (Elt F))).Forall fun op => op.fresh = ∅) op hop
  · exact List.forall_iff_forall_mem.mp (by simp only [List.Forall]; repeat' constructor : (hostOps1_3 : List (HloOp τ sig (Elt F))).Forall fun op => op.fresh = ∅) op hop
  · exact List.forall_iff_forall_mem.mp (by simp only [List.Forall]; repeat' constructor : (hostOps1_4 : List (HloOp τ sig (Elt F))).Forall fun op => op.fresh = ∅) op hop
  · exact List.forall_iff_forall_mem.mp (by simp only [List.Forall]; repeat' constructor : (hostOps1_5 : List (HloOp τ sig (Elt F))).Forall fun op => op.fresh = ∅) op hop
  · exact List.forall_iff_forall_mem.mp (by simp only [List.Forall]; repeat' constructor : (hostOps1_6 : List (HloOp τ sig (Elt F))).Forall fun op => op.fresh = ∅) op hop
  · exact List.forall_iff_forall_mem.mp (by simp only [List.Forall]; repeat' constructor : (hostOps1_7 : List (HloOp τ sig (Elt F))).Forall fun op => op.fresh = ∅) op hop
  · exact List.forall_iff_forall_mem.mp (by simp only [List.Forall]; repeat' constructor : (hostOps1_8 : List (HloOp τ sig (Elt F))).Forall fun op => op.fresh = ∅) op hop
  · exact List.forall_iff_forall_mem.mp (by simp only [List.Forall]; repeat' constructor : (hostOps1_9 : List (HloOp τ sig (Elt F))).Forall fun op => op.fresh = ∅) op hop
  · exact List.forall_iff_forall_mem.mp (by simp only [List.Forall]; repeat' constructor : (hostOps1_10 : List (HloOp τ sig (Elt F))).Forall fun op => op.fresh = ∅) op hop
  · exact List.forall_iff_forall_mem.mp (by simp only [List.Forall]; repeat' constructor : (hostOps1_11 : List (HloOp τ sig (Elt F))).Forall fun op => op.fresh = ∅) op hop
  · exact List.forall_iff_forall_mem.mp (by simp only [List.Forall]; repeat' constructor : (hostOps1_12 : List (HloOp τ sig (Elt F))).Forall fun op => op.fresh = ∅) op hop
  · exact List.forall_iff_forall_mem.mp (by simp only [List.Forall]; repeat' constructor : (hostOps1_13 : List (HloOp τ sig (Elt F))).Forall fun op => op.fresh = ∅) op hop
  · exact List.forall_iff_forall_mem.mp (by simp only [List.Forall]; repeat' constructor : (hostOps1_14 : List (HloOp τ sig (Elt F))).Forall fun op => op.fresh = ∅) op hop
  · exact List.forall_iff_forall_mem.mp (by simp only [List.Forall]; repeat' constructor : (hostOps1_15 : List (HloOp τ sig (Elt F))).Forall fun op => op.fresh = ∅) op hop
  · exact List.forall_iff_forall_mem.mp (by simp only [List.Forall]; repeat' constructor : (hostOps1_16 : List (HloOp τ sig (Elt F))).Forall fun op => op.fresh = ∅) op hop
  · exact List.forall_iff_forall_mem.mp (by simp only [List.Forall]; repeat' constructor : (hostOps1_17 : List (HloOp τ sig (Elt F))).Forall fun op => op.fresh = ∅) op hop
  · exact List.forall_iff_forall_mem.mp (by simp only [List.Forall]; repeat' constructor : (hostOps1_18 : List (HloOp τ sig (Elt F))).Forall fun op => op.fresh = ∅) op hop
  · exact List.forall_iff_forall_mem.mp (by simp only [List.Forall]; repeat' constructor : (hostOps1_19 : List (HloOp τ sig (Elt F))).Forall fun op => op.fresh = ∅) op hop
theorem opsC_fresh : (opsC : List (HloOp τ sig (Elt F))).Forall fun op => op.fresh = ∅ := by
  simp only [List.Forall]; repeat' constructor

/-! ## The buffer contents at each boundary -/

/-- Core `c`'s buffers at launch. -/
abbrev W0 : Dev nD → Valuation τ sig (Elt F) := fun c b => (s₀ m ρ).mem ((c : Dev nD), b)
/-- At the link stage's entry. -/
abbrev W1 : Dev nD → Valuation τ sig (Elt F) := fun c => StableHlo.after opsA (W0 m ρ c)
abbrev V1 : (c : Dev nD) → (b : Ref sig .tc) → Buf (Elt F) ((c : Thread nD τ).loc b) := fun c b => W1 m ρ c b
/-- At the link stage's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the node stage's entry. -/
abbrev W3 : Dev nD → Valuation τ sig (Elt F) := fun c => StableHlo.after opsB (W2 m ρ c)
abbrev V3 : (c : Dev nD) → (b : Ref sig .tc) → Buf (Elt F) ((c : Thread nD τ).loc b) := fun c b => W3 m ρ c b
/-- At the node stage's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- At @main's return. -/
abbrev W5 : Dev nD → Valuation τ sig (Elt F) := fun c => StableHlo.after opsC (W4 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m ρ) () defs₀ 𝒱₀ L lv) :=
  [ .host (hseg opsA opsA_sub opsA_fresh (W0 m ρ)),
    .region (reg0 m ρ),
    .host (hseg opsB opsB_sub opsB_fresh (W2 m ρ)),
    .region (reg1 m ρ),
    .host (hseg opsC hostOps2_sub opsC_fresh (W4 m ρ)) ]

/-- @main is the run of the segments. -/
theorem main_run (c : Dev nD) : main (F := F) c = Pipeline.Seg.run (segs m ρ) := (main_chain c).trans (by chain_rfl)

set_option backward.isDefEq.respectTransparency.types false in
/-- The launch: from any memory with zero counters, every weakly fair execution of @main on the TensorCores
    terminates, nothing faulting, and in every final state each unscoped buffer holds the fold's last contents
    `W5`; any postcondition that follows from that holds of the run. -/
theorem run_main {Q : PUnit × MemSt nD τ sig (Elt F) → Prop}
    (hQ : ∀ s : MemSt nD τ sig (Elt F), (∀ c : Dev nD, ∀ b ∈ Pipeline.ucRefs τ sig, s.mem (((c : Thread nD τ)).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (StableHlo.after opsC (W4 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

end Cert.Kernel.Hand

end
-- ==== Proof.KKept.lean ====
/-
  No host operation and no region of @main writes an argument array: at every boundary of the run each
  argument's buffer still holds the launch contents.
-/
import proofs.«417076_j8899172237900_1_alg».proof.Proof.Gen.Kernel.Launch
import proofs.«417076_j8899172237900_1_alg».proof.Proof.Gen.Kernel.Skeleton
import proofs.«417076_j8899172237900_1_alg».proof.Proof.Gen.Kernel.Points
import proofs.«417076_j8899172237900_1_alg».proof.Proof.KRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No operation of a host stretch writes an argument -/

/-- The twelve arguments of @main. -/
abbrev argL : List (Ref sig .tc) :=
  [main_arg0, main_arg1, main_arg2, main_arg3, main_arg4, main_arg5, main_arg6, main_arg7, main_arg8, main_arg9, main_arg10, main_arg11]

/-- The operation writes no argument's buffer. -/
def NoArg (op : HloOp τ sig (Elt F)) : Prop := ∀ r ∈ argL, Proc.devRef (τ := τ) .tc r ∉ op.writes

/-- An operation whose one written buffer is that of a reference that is no argument writes no argument's buffer. -/
theorem noArg_of_writes {op : HloOp τ sig (Elt F)} {y : Ref sig .tc} (h : op.writes = {Proc.devRef .tc y}) (hy : y ∉ argL) :
    NoArg op := fun r hr hm =>
  hy (Proc.devRef_injective _ (Finset.mem_singleton.mp (h ▸ hm)) ▸ hr)

/-- Every operation of a list of lists has a property that every operation of each list has. -/
theorem forall_mem_flatten {α : Type} {P : α → Prop} (L : List (List α)) (hL : L.Forall fun l => l.Forall P) :
    ∀ x ∈ L.flatten, P x := fun x hx => by
  obtain ⟨l, hl, hxl⟩ := List.mem_flatten.mp hx
  exact List.forall_iff_forall_mem.mp (List.forall_iff_forall_mem.mp hL l hl) x hxl

/-- One operation: its written buffer is its result's, and the result is no argument. -/
macro "no_arg" : tactic => `(tactic| first
  | exact noArg_of_writes (StableHlo.unary_writes ..) (by decide)
  | exact noArg_of_writes (StableHlo.binary_writes ..) (by decide)
  | exact noArg_of_writes (StableHlo.nullary_writes ..) (by decide)
  | exact noArg_of_writes (StableHlo.ternary_writes ..) (by decide)
  | exact noArg_of_writes (StableHlo.reshape_writes ..) (by decide)
  | exact noArg_of_writes (StableHlo.nary_writes ..) (by decide)
  | exact noArg_of_writes (StableHlo.quaternary_writes ..) (by decide)
  | exact noArg_of_writes (StableHlo.unaryIndexed_writes ..) (by decide)
  | exact noArg_of_writes (StableHlo.binaryIndexed_writes ..) (by decide))

/-- A literal list of operations, one by one. -/
macro "no_arg_list" ops:ident : tactic => `(tactic| (
  simp only [$ops:ident, List.Forall]
  repeat' apply And.intro
  all_goals no_arg))

set_option maxHeartbeats 4000000 in
theorem hostOps0_noArg : (hostOps0 : List (HloOp τ sig (Elt F))).Forall NoArg := by no_arg_list hostOps0
theorem hostOps0_1_noArg : (hostOps0_1 : List (HloOp τ sig (Elt F))).Forall NoArg := by no_arg_list hostOps0_1
theorem hostOps0_2_noArg : (hostOps0_2 : List (HloOp τ sig (Elt F))).Forall NoArg := by no_arg_list hostOps0_2
theorem hostOps0_3_noArg : (hostOps0_3 : List (HloOp τ sig (Elt F))).Forall NoArg := by no_arg_list hostOps0_3
theorem hostOps0_4_noArg : (hostOps0_4 : List (HloOp τ sig (Elt F))).Forall NoArg := by no_arg_list hostOps0_4
theorem hostOps0_5_noArg : (hostOps0_5 : List (HloOp τ sig (Elt F))).Forall NoArg := by no_arg_list hostOps0_5
theorem hostOps0_6_noArg : (hostOps0_6 : List (HloOp τ sig (Elt F))).Forall NoArg := by no_arg_list hostOps0_6
theorem hostOps0_7_noArg : (hostOps0_7 : List (HloOp τ sig (Elt F))).Forall NoArg := by no_arg_list hostOps0_7
theorem hostOps0_8_noArg : (hostOps0_8 : List (HloOp τ sig (Elt F))).Forall NoArg := by no_arg_list hostOps0_8
theorem hostOps0_9_noArg : (hostOps0_9 : List (HloOp τ sig (Elt F))).Forall NoArg := by no_arg_list hostOps0_9
theorem hostOps0_10_noArg : (hostOps0_10 : List (HloOp τ sig (Elt F))).Forall NoArg := by no_arg_list hostOps0_10
theorem hostOps0_11_noArg : (hostOps0_11 : List (HloOp τ sig (Elt F))).Forall NoArg := by no_arg_list hostOps0_11
theorem hostOps0_12_noArg : (hostOps0_12 : List (HloOp τ sig (Elt F))).Forall NoArg := by no_arg_list hostOps0_12
theorem hostOps0_13_noArg : (hostOps0_13 : List (HloOp τ sig (Elt F))).Forall NoArg := by no_arg_list hostOps0_13
set_option maxHeartbeats 4000000 in
theorem hostOps1_noArg : (hostOps1 : List (HloOp τ sig (Elt F))).Forall NoArg := by no_arg_list hostOps1
theorem hostOps1_1_noArg : (hostOps1_1 : List (HloOp τ sig (Elt F))).Forall NoArg := by no_arg_list hostOps1_1
theorem hostOps1_2_noArg : (hostOps1_2 : List (HloOp τ sig (Elt F))).Forall NoArg := by no_arg_list hostOps1_2
theorem hostOps1_3_noArg : (hostOps1_3 : List (HloOp τ sig (Elt F))).Forall NoArg := by no_arg_list hostOps1_3
theorem hostOps1_4_noArg : (hostOps1_4 : List (HloOp τ sig (Elt F))).Forall NoArg := by no_arg_list hostOps1_4
theorem hostOps1_5_noArg : (hostOps1_5 : List (HloOp τ sig (Elt F))).Forall NoArg := by no_arg_list hostOps1_5
theorem hostOps1_6_noArg : (hostOps1_6 : List (HloOp τ sig (Elt F))).Forall NoArg := by no_arg_list hostOps1_6
theorem hostOps1_7_noArg : (hostOps1_7 : List (HloOp τ sig (Elt F))).Forall NoArg := by no_arg_list hostOps1_7
theorem hostOps1_8_noArg : (hostOps1_8 : List (HloOp τ sig (Elt F))).Forall NoArg := by no_arg_list hostOps1_8
theorem hostOps1_9_noArg : (hostOps1_9 : List (HloOp τ sig (Elt F))).Forall NoArg := by no_arg_list hostOps1_9
theorem hostOps1_10_noArg : (hostOps1_10 : List (HloOp τ sig (Elt F))).Forall NoArg := by no_arg_list hostOps1_10
theorem hostOps1_11_noArg : (hostOps1_11 : List (HloOp τ sig (Elt F))).Forall NoArg := by no_arg_list hostOps1_11
theorem hostOps1_12_noArg : (hostOps1_12 : List (HloOp τ sig (Elt F))).Forall NoArg := by no_arg_list hostOps1_12
theorem hostOps1_13_noArg : (hostOps1_13 : List (HloOp τ sig (Elt F))).Forall NoArg := by no_arg_list hostOps1_13
theorem hostOps1_14_noArg : (hostOps1_14 : List (HloOp τ sig (Elt F))).Forall NoArg := by no_arg_list hostOps1_14
theorem hostOps1_15_noArg : (hostOps1_15 : List (HloOp τ sig (Elt F))).Forall NoArg := by no_arg_list hostOps1_15
theorem hostOps1_16_noArg : (hostOps1_16 : List (HloOp τ sig (Elt F))).Forall NoArg := by no_arg_list hostOps1_16
theorem hostOps1_17_noArg : (hostOps1_17 : List (HloOp τ sig (Elt F))).Forall NoArg := by no_arg_list hostOps1_17
theorem hostOps1_18_noArg : (hostOps1_18 : List (HloOp τ sig (Elt F))).Forall NoArg := by no_arg_list hostOps1_18
theorem hostOps1_19_noArg : (hostOps1_19 : List (HloOp τ sig (Elt F))).Forall NoArg := by no_arg_list hostOps1_19
set_option maxHeartbeats 4000000 in
theorem hostOps2_noArg : (hostOps2 : List (HloOp τ sig (Elt F))).Forall NoArg := by no_arg_list hostOps2

/-- No operation before the link stage writes an argument. -/
theorem opsA_noArg : ∀ op ∈ (opsA : List (HloOp τ sig (Elt F))), NoArg op :=
  forall_mem_flatten _ ⟨hostOps0_noArg, hostOps0_1_noArg, hostOps0_2_noArg, hostOps0_3_noArg, hostOps0_4_noArg, hostOps0_5_noArg, hostOps0_6_noArg, hostOps0_7_noArg, hostOps0_8_noArg, hostOps0_9_noArg, hostOps0_10_noArg, hostOps0_11_noArg, hostOps0_12_noArg, hostOps0_13_noArg⟩
/-- No operation between the two stages writes an argument. -/
theorem opsB_noArg : ∀ op ∈ (opsB : List (HloOp τ sig (Elt F))), NoArg op :=
  forall_mem_flatten _ ⟨hostOps1_noArg, hostOps1_1_noArg, hostOps1_2_noArg, hostOps1_3_noArg, hostOps1_4_noArg, hostOps1_5_noArg, hostOps1_6_noArg, hostOps1_7_noArg, hostOps1_8_noArg, hostOps1_9_noArg, hostOps1_10_noArg, hostOps1_11_noArg, hostOps1_12_noArg, hostOps1_13_noArg, hostOps1_14_noArg, hostOps1_15_noArg, hostOps1_16_noArg, hostOps1_17_noArg, hostOps1_18_noArg, hostOps1_19_noArg⟩
/-- No closing operation writes an argument. -/
theorem opsC_noArg : ∀ op ∈ (opsC : List (HloOp τ sig (Elt F))), NoArg op :=
  List.forall_iff_forall_mem.mp hostOps2_noArg

/-- A host stretch none of whose operations writes an argument leaves an argument's buffer as it was. -/
theorem after_arg (ops : List (HloOp τ sig (Elt F))) (h : ∀ op ∈ ops, NoArg op) (V : Valuation τ sig (Elt F))
    (r : Ref sig .tc) (hr : r ∈ argL) : StableHlo.after ops V (Proc.devRef .tc r) = V (Proc.devRef .tc r) :=
  StableHlo.after_of_forall_not_mem ops V fun op hop => h op hop r hr

/-- No argument is an array of a window of the link stage, -/
theorem arg_ne0 : ∀ r ∈ argL, ∀ w, Pipeline.arrRef spec0 w ≠ r := by decide
/-- nor of the node stage. -/
theorem arg_ne1 : ∀ r ∈ argL, ∀ w, Pipeline.arrRef spec1 w ≠ r := by decide

/-! ## An argument's buffer at each boundary -/

/-- At the link stage's entry. -/
theorem keep1 (c : Dev nD) (r : Ref sig .tc) (hr : r ∈ argL) :
    W1 m ρ c (Proc.devRef .tc r) = m ((c : Thread nD τ).loc r) :=
  after_arg opsA opsA_noArg (W0 m ρ c) r hr
/-- At the link stage's exit: the region's arrays are none of the arguments. -/
theorem keep2 (c : Dev nD) (r : Ref sig .tc) (hr : r ∈ argL) :
    W2 m ρ c (Proc.devRef .tc r) = m ((c : Thread nD τ).loc r) :=
  (W2_of_ne m ρ c r (arg_ne0 r hr)).trans (keep1 m ρ c r hr)
/-- At the node stage's entry. -/
theorem keep3 (c : Dev nD) (r : Ref sig .tc) (hr : r ∈ argL) :
    W3 m ρ c (Proc.devRef .tc r) = m ((c : Thread nD τ).loc r) :=
  (after_arg opsB opsB_noArg (W2 m ρ c) r hr).trans (keep2 m ρ c r hr)
/-- At the node stage's exit: the region's arrays are none of the arguments. -/
theorem keep4 (c : Dev nD) (r : Ref sig .tc) (hr : r ∈ argL) :
    W4 m ρ c (Proc.devRef .tc r) = m ((c : Thread nD τ).loc r) :=
  (W4_of_ne m ρ c r (arg_ne1 r hr)).trans (keep3 m ρ c r hr)
/-- At @main's return. -/
theorem keep5 (c : Dev nD) (r : Ref sig .tc) (hr : r ∈ argL) :
    W5 m ρ c (Proc.devRef .tc r) = m ((c : Thread nD τ).loc r) :=
  (after_arg opsC opsC_noArg (W4 m ρ c) r hr).trans (keep4 m ρ c r hr)

/-! ## The sixty instances -/

theorem W1_arg0 (c : Dev nD) : W1 m ρ c (Proc.devRef .tc main_arg0) = m ((c : Thread nD τ).loc main_arg0) :=
  keep1 m ρ c main_arg0 (by decide)
theorem W2_arg0 (c : Dev nD) : W2 m ρ c (Proc.devRef .tc main_arg0) = m ((c : Thread nD τ).loc main_arg0) :=
  keep2 m ρ c main_arg0 (by decide)
theorem W3_arg0 (c : Dev nD) : W3 m ρ c (Proc.devRef .tc main_arg0) = m ((c : Thread nD τ).loc main_arg0) :=
  keep3 m ρ c main_arg0 (by decide)
theorem W4_arg0 (c : Dev nD) : W4 m ρ c (Proc.devRef .tc main_arg0) = m ((c : Thread nD τ).loc main_arg0) :=
  keep4 m ρ c main_arg0 (by decide)
theorem W5_arg0 (c : Dev nD) : W5 m ρ c (Proc.devRef .tc main_arg0) = m ((c : Thread nD τ).loc main_arg0) :=
  keep5 m ρ c main_arg0 (by decide)
theorem W1_arg1 (c : Dev nD) : W1 m ρ c (Proc.devRef .tc main_arg1) = m ((c : Thread nD τ).loc main_arg1) :=
  keep1 m ρ c main_arg1 (by decide)
theorem W2_arg1 (c : Dev nD) : W2 m ρ c (Proc.devRef .tc main_arg1) = m ((c : Thread nD τ).loc main_arg1) :=
  keep2 m ρ c main_arg1 (by decide)
theorem W3_arg1 (c : Dev nD) : W3 m ρ c (Proc.devRef .tc main_arg1) = m ((c : Thread nD τ).loc main_arg1) :=
  keep3 m ρ c main_arg1 (by decide)
theorem W4_arg1 (c : Dev nD) : W4 m ρ c (Proc.devRef .tc main_arg1) = m ((c : Thread nD τ).loc main_arg1) :=
  keep4 m ρ c main_arg1 (by decide)
theorem W5_arg1 (c : Dev nD) : W5 m ρ c (Proc.devRef .tc main_arg1) = m ((c : Thread nD τ).loc main_arg1) :=
  keep5 m ρ c main_arg1 (by decide)
theorem W1_arg2 (c : Dev nD) : W1 m ρ c (Proc.devRef .tc main_arg2) = m ((c : Thread nD τ).loc main_arg2) :=
  keep1 m ρ c main_arg2 (by decide)
theorem W2_arg2 (c : Dev nD) : W2 m ρ c (Proc.devRef .tc main_arg2) = m ((c : Thread nD τ).loc main_arg2) :=
  keep2 m ρ c main_arg2 (by decide)
theorem W3_arg2 (c : Dev nD) : W3 m ρ c (Proc.devRef .tc main_arg2) = m ((c : Thread nD τ).loc main_arg2) :=
  keep3 m ρ c main_arg2 (by decide)
theorem W4_arg2 (c : Dev nD) : W4 m ρ c (Proc.devRef .tc main_arg2) = m ((c : Thread nD τ).loc main_arg2) :=
  keep4 m ρ c main_arg2 (by decide)
theorem W5_arg2 (c : Dev nD) : W5 m ρ c (Proc.devRef .tc main_arg2) = m ((c : Thread nD τ).loc main_arg2) :=
  keep5 m ρ c main_arg2 (by decide)
theorem W1_arg3 (c : Dev nD) : W1 m ρ c (Proc.devRef .tc main_arg3) = m ((c : Thread nD τ).loc main_arg3) :=
  keep1 m ρ c main_arg3 (by decide)
theorem W2_arg3 (c : Dev nD) : W2 m ρ c (Proc.devRef .tc main_arg3) = m ((c : Thread nD τ).loc main_arg3) :=
  keep2 m ρ c main_arg3 (by decide)
theorem W3_arg3 (c : Dev nD) : W3 m ρ c (Proc.devRef .tc main_arg3) = m ((c : Thread nD τ).loc main_arg3) :=
  keep3 m ρ c main_arg3 (by decide)
theorem W4_arg3 (c : Dev nD) : W4 m ρ c (Proc.devRef .tc main_arg3) = m ((c : Thread nD τ).loc main_arg3) :=
  keep4 m ρ c main_arg3 (by decide)
theorem W5_arg3 (c : Dev nD) : W5 m ρ c (Proc.devRef .tc main_arg3) = m ((c : Thread nD τ).loc main_arg3) :=
  keep5 m ρ c main_arg3 (by decide)
theorem W1_arg4 (c : Dev nD) : W1 m ρ c (Proc.devRef .tc main_arg4) = m ((c : Thread nD τ).loc main_arg4) :=
  keep1 m ρ c main_arg4 (by decide)
theorem W2_arg4 (c : Dev nD) : W2 m ρ c (Proc.devRef .tc main_arg4) = m ((c : Thread nD τ).loc main_arg4) :=
  keep2 m ρ c main_arg4 (by decide)
theorem W3_arg4 (c : Dev nD) : W3 m ρ c (Proc.devRef .tc main_arg4) = m ((c : Thread nD τ).loc main_arg4) :=
  keep3 m ρ c main_arg4 (by decide)
theorem W4_arg4 (c : Dev nD) : W4 m ρ c (Proc.devRef .tc main_arg4) = m ((c : Thread nD τ).loc main_arg4) :=
  keep4 m ρ c main_arg4 (by decide)
theorem W5_arg4 (c : Dev nD) : W5 m ρ c (Proc.devRef .tc main_arg4) = m ((c : Thread nD τ).loc main_arg4) :=
  keep5 m ρ c main_arg4 (by decide)
theorem W1_arg5 (c : Dev nD) : W1 m ρ c (Proc.devRef .tc main_arg5) = m ((c : Thread nD τ).loc main_arg5) :=
  keep1 m ρ c main_arg5 (by decide)
theorem W2_arg5 (c : Dev nD) : W2 m ρ c (Proc.devRef .tc main_arg5) = m ((c : Thread nD τ).loc main_arg5) :=
  keep2 m ρ c main_arg5 (by decide)
theorem W3_arg5 (c : Dev nD) : W3 m ρ c (Proc.devRef .tc main_arg5) = m ((c : Thread nD τ).loc main_arg5) :=
  keep3 m ρ c main_arg5 (by decide)
theorem W4_arg5 (c : Dev nD) : W4 m ρ c (Proc.devRef .tc main_arg5) = m ((c : Thread nD τ).loc main_arg5) :=
  keep4 m ρ c main_arg5 (by decide)
theorem W5_arg5 (c : Dev nD) : W5 m ρ c (Proc.devRef .tc main_arg5) = m ((c : Thread nD τ).loc main_arg5) :=
  keep5 m ρ c main_arg5 (by decide)
theorem W1_arg6 (c : Dev nD) : W1 m ρ c (Proc.devRef .tc main_arg6) = m ((c : Thread nD τ).loc main_arg6) :=
  keep1 m ρ c main_arg6 (by decide)
theorem W2_arg6 (c : Dev nD) : W2 m ρ c (Proc.devRef .tc main_arg6) = m ((c : Thread nD τ).loc main_arg6) :=
  keep2 m ρ c main_arg6 (by decide)
theorem W3_arg6 (c : Dev nD) : W3 m ρ c (Proc.devRef .tc main_arg6) = m ((c : Thread nD τ).loc main_arg6) :=
  keep3 m ρ c main_arg6 (by decide)
theorem W4_arg6 (c : Dev nD) : W4 m ρ c (Proc.devRef .tc main_arg6) = m ((c : Thread nD τ).loc main_arg6) :=
  keep4 m ρ c main_arg6 (by decide)
theorem W5_arg6 (c : Dev nD) : W5 m ρ c (Proc.devRef .tc main_arg6) = m ((c : Thread nD τ).loc main_arg6) :=
  keep5 m ρ c main_arg6 (by decide)
theorem W1_arg7 (c : Dev nD) : W1 m ρ c (Proc.devRef .tc main_arg7) = m ((c : Thread nD τ).loc main_arg7) :=
  keep1 m ρ c main_arg7 (by decide)
theorem W2_arg7 (c : Dev nD) : W2 m ρ c (Proc.devRef .tc main_arg7) = m ((c : Thread nD τ).loc main_arg7) :=
  keep2 m ρ c main_arg7 (by decide)
theorem W3_arg7 (c : Dev nD) : W3 m ρ c (Proc.devRef .tc main_arg7) = m ((c : Thread nD τ).loc main_arg7) :=
  keep3 m ρ c main_arg7 (by decide)
theorem W4_arg7 (c : Dev nD) : W4 m ρ c (Proc.devRef .tc main_arg7) = m ((c : Thread nD τ).loc main_arg7) :=
  keep4 m ρ c main_arg7 (by decide)
theorem W5_arg7 (c : Dev nD) : W5 m ρ c (Proc.devRef .tc main_arg7) = m ((c : Thread nD τ).loc main_arg7) :=
  keep5 m ρ c main_arg7 (by decide)
theorem W1_arg8 (c : Dev nD) : W1 m ρ c (Proc.devRef .tc main_arg8) = m ((c : Thread nD τ).loc main_arg8) :=
  keep1 m ρ c main_arg8 (by decide)
theorem W2_arg8 (c : Dev nD) : W2 m ρ c (Proc.devRef .tc main_arg8) = m ((c : Thread nD τ).loc main_arg8) :=
  keep2 m ρ c main_arg8 (by decide)
theorem W3_arg8 (c : Dev nD) : W3 m ρ c (Proc.devRef .tc main_arg8) = m ((c : Thread nD τ).loc main_arg8) :=
  keep3 m ρ c main_arg8 (by decide)
theorem W4_arg8 (c : Dev nD) : W4 m ρ c (Proc.devRef .tc main_arg8) = m ((c : Thread nD τ).loc main_arg8) :=
  keep4 m ρ c main_arg8 (by decide)
theorem W5_arg8 (c : Dev nD) : W5 m ρ c (Proc.devRef .tc main_arg8) = m ((c : Thread nD τ).loc main_arg8) :=
  keep5 m ρ c main_arg8 (by decide)
theorem W1_arg9 (c : Dev nD) : W1 m ρ c (Proc.devRef .tc main_arg9) = m ((c : Thread nD τ).loc main_arg9) :=
  keep1 m ρ c main_arg9 (by decide)
theorem W2_arg9 (c : Dev nD) : W2 m ρ c (Proc.devRef .tc main_arg9) = m ((c : Thread nD τ).loc main_arg9) :=
  keep2 m ρ c main_arg9 (by decide)
theorem W3_arg9 (c : Dev nD) : W3 m ρ c (Proc.devRef .tc main_arg9) = m ((c : Thread nD τ).loc main_arg9) :=
  keep3 m ρ c main_arg9 (by decide)
theorem W4_arg9 (c : Dev nD) : W4 m ρ c (Proc.devRef .tc main_arg9) = m ((c : Thread nD τ).loc main_arg9) :=
  keep4 m ρ c main_arg9 (by decide)
theorem W5_arg9 (c : Dev nD) : W5 m ρ c (Proc.devRef .tc main_arg9) = m ((c : Thread nD τ).loc main_arg9) :=
  keep5 m ρ c main_arg9 (by decide)
theorem W1_arg10 (c : Dev nD) : W1 m ρ c (Proc.devRef .tc main_arg10) = m ((c : Thread nD τ).loc main_arg10) :=
  keep1 m ρ c main_arg10 (by decide)
theorem W2_arg10 (c : Dev nD) : W2 m ρ c (Proc.devRef .tc main_arg10) = m ((c : Thread nD τ).loc main_arg10) :=
  keep2 m ρ c main_arg10 (by decide)
theorem W3_arg10 (c : Dev nD) : W3 m ρ c (Proc.devRef .tc main_arg10) = m ((c : Thread nD τ).loc main_arg10) :=
  keep3 m ρ c main_arg10 (by decide)
theorem W4_arg10 (c : Dev nD) : W4 m ρ c (Proc.devRef .tc main_arg10) = m ((c : Thread nD τ).loc main_arg10) :=
  keep4 m ρ c main_arg10 (by decide)
theorem W5_arg10 (c : Dev nD) : W5 m ρ c (Proc.devRef .tc main_arg10) = m ((c : Thread nD τ).loc main_arg10) :=
  keep5 m ρ c main_arg10 (by decide)
theorem W1_arg11 (c : Dev nD) : W1 m ρ c (Proc.devRef .tc main_arg11) = m ((c : Thread nD τ).loc main_arg11) :=
  keep1 m ρ c main_arg11 (by decide)
theorem W2_arg11 (c : Dev nD) : W2 m ρ c (Proc.devRef .tc main_arg11) = m ((c : Thread nD τ).loc main_arg11) :=
  keep2 m ρ c main_arg11 (by decide)
theorem W3_arg11 (c : Dev nD) : W3 m ρ c (Proc.devRef .tc main_arg11) = m ((c : Thread nD τ).loc main_arg11) :=
  keep3 m ρ c main_arg11 (by decide)
theorem W4_arg11 (c : Dev nD) : W4 m ρ c (Proc.devRef .tc main_arg11) = m ((c : Thread nD τ).loc main_arg11) :=
  keep4 m ρ c main_arg11 (by decide)
theorem W5_arg11 (c : Dev nD) : W5 m ρ c (Proc.devRef .tc main_arg11) = m ((c : Thread nD τ).loc main_arg11) :=
  keep5 m ρ c main_arg11 (by decide)

end Cert.Kernel.Hand

end
-- ==== Proof.KIRegion0.lean ====
/-
  The link stage's pallas_call (pipeline 0 of @main) at the buffer contents V the region is entered with:
  what each window's block is at a grid point, what the body leaves in the two output buffers (the discharge
  and the dissipation of the 262144 links of the block, as functions of the six input blocks), the body's
  triple, the pipeline's proof data and the body obligation at every grid point.
-/
import proofs.«417076_j8899172237900_1_alg».proof.Proof.Gen.KernelIdeal.Launch
import proofs.«417076_j8899172237900_1_alg».proof.Proof.Gen.KernelIdeal.Skeleton
import proofs.«417076_j8899172237900_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, for any proof data whose array is
    `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, for any proof data whose array is
    `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, for any proof data whose array is
    `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, for any proof data whose array is
    `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, for any proof data whose array is
    `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body loads and stores through: the whole block. -/
abbrev r0 : Rect S262144 := Rect.unit (s := S262144) ![0] S262144.size inb_S262144_S262144_0

/-- The discharge buffer after the body, from the six input blocks. -/
def out0_6 (x0 : Vec F S262144 .f32) (x1 : Vec F S262144 .f32) (x2 : Vec F S262144 .f32) (x3 : Vec F S262144 .f32) (x4 : Vec F S262144 .f32) (x5 : Vec F S262144 .f32) : Vec F S262144 .f32 :=
  View.canon [⟨r0, k0_pay2 (View.ld x0 r0) (View.ld x1 r0) (View.ld x2 r0) (View.ld x3 r0) (View.ld x4 r0) (View.ld x5 r0)⟩]

/-- The dissipation buffer after the body, from the six input blocks. -/
def out0_7 (x0 : Vec F S262144 .f32) (x1 : Vec F S262144 .f32) (x2 : Vec F S262144 .f32) (x3 : Vec F S262144 .f32) (x4 : Vec F S262144 .f32) (x5 : Vec F S262144 .f32) : Vec F S262144 .f32 :=
  View.canon [⟨r0, k0_pay3 (View.ld x0 r0) (View.ld x1 r0) (View.ld x2 r0) (View.ld x3 r0) (View.ld x4 r0) (View.ld x5 r0)⟩]

/-- The single store covers the buffer. -/
theorem cover0 (p0 : Vec F S262144 .f32) (y : S262144.Idx) :
    ∃ pc ∈ ([⟨r0, p0⟩] : List (View.Piece (Elt F) S262144 .f32)), y ∈ pc.1.set :=
  View.cover_of_tiled [⟨r0, p0⟩] S262144.size (by rfl) y

set_option maxHeartbeats 4000000 in
/-- The body on whole staging memrefs, the inputs' at contents `xW` and the outputs' at anything, runs to the
    continuation holding the inputs' as they were and each output's at `out0_W` of the inputs'. -/
theorem sound_kernel0 (c : Dev nD) (E : Set ℕ) (i : grid0.Coords) (arg1 : Memref sig .tc .vmem S262144 .f32) (harg1 : arg1.IsWhole) (arg2 : Memref sig .tc .vmem S262144 .f32) (harg2 : arg2.IsWhole) (arg3 : Memref sig .tc .vmem S262144 .f32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .f32) (harg6 : arg6.IsWhole) (arg7 : Memref sig .tc .vmem S262144 .f32) (harg7 : arg7.IsWhole) (arg8 : Memref sig .tc .vmem S262144 .f32) (harg8 : arg8.IsWhole)
    (x0 : Vec F S262144 .f32) (x1 : Vec F S262144 .f32) (x2 : Vec F S262144 .f32) (x3 : Vec F S262144 .f32) (x4 : Vec F S262144 .f32) (x5 : Vec F S262144 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__link_kernel i arg1 harg1 arg2 harg2 arg3 harg3 arg4 harg4 arg5 harg5 arg6 harg6 arg7 harg7 arg8 harg8) K := by
  simp only [cc0__link_kernel_eq_skeleton]; unfold cc0__link_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-- The proof data of pipeline 0 on core `c`: the arrays as the region finds them; after the body at point `t`
    each input's buffer at its block and each output's at `out0_W` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`: the invariant, what the core owes, and each window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What the body returns: the same at the next point, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the six inputs' buffers hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every grid point. -/
theorem body_obligation0 (c : Dev nD) : BodyObligation (dat0 (F := F) V c) (defs₀ (F := F)) Variants.none () Set.univ := by
  intro t
  rw [bigSep_W0, bigSep_W0]
  exact sound_body0 V c t

end Cert.KernelIdeal.Hand

end
-- ==== Proof.KIRegion1.lean ====
/-
  The node stage's pallas_call (pipeline 1 of @main) at the buffer contents V the region is entered with:
  what each window's block is at a grid point, what the body leaves in the two output buffers (the new conduit
  size and the flux divergence of the 65536 nodes of the block, as functions of the nine input blocks), the
  body's triple, the pipeline's proof data and the body obligation at every grid point.
-/
import proofs.«417076_j8899172237900_1_alg».proof.Proof.Gen.KernelIdeal.Launch
import proofs.«417076_j8899172237900_1_alg».proof.Proof.Gen.KernelIdeal.Skeleton
import proofs.«417076_j8899172237900_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, for any proof data whose array is
    `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, for any proof data whose array is
    `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, for any proof data whose array is
    `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, for any proof data whose array is
    `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, for any proof data whose array is
    `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, for any proof data whose array is
    `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, for any proof data whose array is
    `V`'s and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, for any proof data whose array is
    `V`'s and whose body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- The two rectangles the body loads and stores through: a whole (6, 65536) block and a whole 65536 block. -/
abbrev r1a : Rect S6x65536 := Rect.unit (s := S6x65536) ![0, 0] S6x65536.size inb_S6x65536_S6x65536_0_0
abbrev r1b : Rect S65536 := Rect.unit (s := S65536) ![0] S65536.size inb_S65536_S65536_0

/-- The new conduit size's buffer after the body, from the input blocks (the dissipation rows, the geothermal
    flux, the ice thickness, the bedrock, the head and the old size). -/
def out1_9 (x0 : Vec F S6x65536 .f32) (x1 : Vec F S6x65536 .f32) (x2 : Vec F S6x65536 .f32) (x3 : Vec F S65536 .f32) (x4 : Vec F S65536 .f32) (x5 : Vec F S65536 .f32) (x6 : Vec F S65536 .f32) (x7 : Vec F S65536 .f32) (x8 : Vec F S65536 .f32) : Vec F S65536 .f32 :=
  View.canon [⟨r1b, k1_pay1 (k1_pay3 (View.ld x1 r1a) (View.ld x4 r1b)) (k1_pay4 (View.ld x5 r1b) (View.ld x7 r1b) (View.ld x6 r1b)) (View.ld x8 r1b)⟩]

/-- The flux divergence's buffer after the body, from the input blocks (the discharge rows, the direction rows
    and the area). -/
def out1_10 (x0 : Vec F S6x65536 .f32) (x1 : Vec F S6x65536 .f32) (x2 : Vec F S6x65536 .f32) (x3 : Vec F S65536 .f32) (x4 : Vec F S65536 .f32) (x5 : Vec F S65536 .f32) (x6 : Vec F S65536 .f32) (x7 : Vec F S65536 .f32) (x8 : Vec F S65536 .f32) : Vec F S65536 .f32 :=
  View.canon [⟨r1b, k1_pay2 (View.ld x0 r1a) (View.ld x2 r1a) (View.ld x3 r1b)⟩]

/-- The single store covers the buffer. -/
theorem cover1 (p0 : Vec F S65536 .f32) (y : S65536.Idx) :
    ∃ pc ∈ ([⟨r1b, p0⟩] : List (View.Piece (Elt F) S65536 .f32)), y ∈ pc.1.set :=
  View.cover_of_tiled [⟨r1b, p0⟩] S65536.size (by rfl) y

set_option maxHeartbeats 4000000 in
/-- The body on whole staging memrefs, the inputs' at contents `xW` and the outputs' at anything, runs to the
    continuation holding the inputs' as they were and each output's at `out1_W` of the inputs'. -/
theorem sound_kernel1 (c : Dev nD) (E : Set ℕ) (i : grid1.Coords) (arg1 : Memref sig .tc .vmem S6x65536 .f32) (harg1 : arg1.IsWhole) (arg2 : Memref sig .tc .vmem S6x65536 .f32) (harg2 : arg2.IsWhole) (arg3 : Memref sig .tc .vmem S6x65536 .f32) (harg3 : arg3.IsWhole) (arg4 : Memref sig .tc .vmem S65536 .f32) (harg4 : arg4.IsWhole) (arg5 : Memref sig .tc .vmem S65536 .f32) (harg5 : arg5.IsWhole) (arg6 : Memref sig .tc .vmem S65536 .f32) (harg6 : arg6.IsWhole) (arg7 : Memref sig .tc .vmem S65536 .f32) (harg7 : arg7.IsWhole) (arg8 : Memref sig .tc .vmem S65536 .f32) (harg8 : arg8.IsWhole) (arg9 : Memref sig .tc .vmem S65536 .f32) (harg9 : arg9.IsWhole) (arg10 : Memref sig .tc .vmem S65536 .f32) (harg10 : arg10.IsWhole) (arg11 : Memref sig .tc .vmem S65536 .f32) (harg11 : arg11.IsWhole)
    (x0 : Vec F S6x65536 .f32) (x1 : Vec F S6x65536 .f32) (x2 : Vec F S6x65536 .f32) (x3 : Vec F S65536 .f32) (x4 : Vec F S65536 .f32) (x5 : Vec F S65536 .f32) (x6 : Vec F S65536 .f32) (x7 : Vec F S65536 .f32) (x8 : Vec F S65536 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8) ∗ owns (c : Thread nD τ) arg11 fullShare (out1_10 x0 x1 x2 x3 x4 x5 x6 x7 x8)) -∗ K ⟨⟩))
      ⊢ wp frame (wpE (defs₀ (F := F)) Variants.none c none) E (cc1__node_kernel i arg1 harg1 arg2 harg2 arg3 harg3 arg4 harg4 arg5 harg5 arg6 harg6 arg7 harg7 arg8 harg8 arg9 harg9 arg10 harg10 arg11 harg11) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover1 _)
  iexists _; isplitr
  swap; · iexact H10
  ipureintro
  exact View.read_writes_eq_canon _ _ _ (cover1 _)

/-- The proof data of pipeline 1 on core `c`: the arrays as the region finds them; after the body at point `t`
    each input's buffer at its block and each output's at `out1_W` of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`: the invariant, what the core owes, and each window's current
    staging buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- What the body returns: the same at the next point, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 4000000 in
/-- The body at any point: the nine inputs' buffers hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every grid point. -/
theorem body_obligation1 (c : Dev nD) : BodyObligation (dat1 (F := F) V c) (defs₀ (F := F)) Variants.none () Set.univ := by
  intro t
  rw [bigSep_W1, bigSep_W1]
  exact sound_body1 V c t

end Cert.KernelIdeal.Hand

end
-- ==== Proof.KIRun.lean ====
/-
  The run of @main through its two kernel regions: the buffer contents at each boundary (the host operations
  before the link stage, the link stage's region, the host operations between the stages, the node stage's
  region, the closing host operations) as a fold from the launch memory; the two regions and the three host
  stretches as segments; and the launch: every weakly fair execution terminates, nothing faults, and every
  unscoped buffer ends at the fold's last contents.
-/
import proofs.«417076_j8899172237900_1_alg».proof.Proof.Gen.KernelIdeal.Launch
import proofs.«417076_j8899172237900_1_alg».proof.Proof.Gen.KernelIdeal.Skeleton
import proofs.«417076_j8899172237900_1_alg».proof.Proof.Gen.KernelIdeal.Points
import proofs.«417076_j8899172237900_1_alg».proof.Proof.KIRegion0
import proofs.«417076_j8899172237900_1_alg».proof.Proof.KIRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The three stretches of host operations -/

/-- The host operations before the link stage's region (the four gathers and the padding). -/
abbrev opsA : List (HloOp τ sig (Elt F)) := List.flatten [hostOps0, hostOps0_1, hostOps0_2, hostOps0_3, hostOps0_4, hostOps0_5, hostOps0_6, hostOps0_7, hostOps0_8, hostOps0_9, hostOps0_10, hostOps0_11, hostOps0_12, hostOps0_13]
/-- The host operations between the two regions (the slices, the twelve column gathers, the stacking, the padding). -/
abbrev opsB : List (HloOp τ sig (Elt F)) := List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19]
/-- The closing host operations (the slices and the stacking of the two results). -/
abbrev opsC : List (HloOp τ sig (Elt F)) := hostOps2

theorem opsA_sub : (opsA : List (HloOp τ sig (Elt F))).Forall fun op => op.bufs ⊆ StableHlo.tcRefs τ sig := by
  refine List.forall_iff_forall_mem.mpr fun op h => ?_
  simp only [opsA, List.mem_flatten, List.mem_cons, List.not_mem_nil, or_false] at h
  obtain ⟨l, hl, hop⟩ := h
  rcases hl with rfl | rfl | rfl | rfl | rfl | rfl | rfl | rfl | rfl | rfl | rfl | rfl | rfl | rfl
  · exact List.forall_iff_forall_mem.mp hostOps0_sub op hop
  · exact List.forall_iff_forall_mem.mp hostOps0_1_sub op hop
  · exact List.forall_iff_forall_mem.mp hostOps0_2_sub op hop
  · exact List.forall_iff_forall_mem.mp hostOps0_3_sub op hop
  · exact List.forall_iff_forall_mem.mp hostOps0_4_sub op hop
  · exact List.forall_iff_forall_mem.mp hostOps0_5_sub op hop
  · exact List.forall_iff_forall_mem.mp hostOps0_6_sub op hop
  · exact List.forall_iff_forall_mem.mp hostOps0_7_sub op hop
  · exact List.forall_iff_forall_mem.mp hostOps0_8_sub op hop
  · exact List.forall_iff_forall_mem.mp hostOps0_9_sub op hop
  · exact List.forall_iff_forall_mem.mp hostOps0_10_sub op hop
  · exact List.forall_iff_forall_mem.mp hostOps0_11_sub op hop
  · exact List.forall_iff_forall_mem.mp hostOps0_12_sub op hop
  · exact List.forall_iff_forall_mem.mp hostOps0_13_sub op hop

theorem opsB_sub : (opsB : List (HloOp τ sig (Elt F))).Forall fun op => op.bufs ⊆ StableHlo.tcRefs τ sig := by
  refine List.forall_iff_forall_mem.mpr fun op h => ?_
  simp only [opsB, List.mem_flatten, List.mem_cons, List.not_mem_nil, or_false] at h
  obtain ⟨l, hl, hop⟩ := h
  rcases hl with rfl | rfl | rfl | rfl | rfl | rfl | rfl | rfl | rfl | rfl | rfl | rfl | rfl | rfl | rfl | rfl | rfl | rfl | rfl | rfl
  · exact List.forall_iff_forall_mem.mp hostOps1_sub op hop
  · exact List.forall_iff_forall_mem.mp hostOps1_1_sub op hop
  · exact List.forall_iff_forall_mem.mp hostOps1_2_sub op hop
  · exact List.forall_iff_forall_mem.mp hostOps1_3_sub op hop
  · exact List.forall_iff_forall_mem.mp hostOps1_4_sub op hop
  · exact List.forall_iff_forall_mem.mp hostOps1_5_sub op hop
  · exact List.forall_iff_forall_mem.mp hostOps1_6_sub op hop
  · exact List.forall_iff_forall_mem.mp hostOps1_7_sub op hop
  · exact List.forall_iff_forall_mem.mp hostOps1_8_sub op hop
  · exact List.forall_iff_forall_mem.mp hostOps1_9_sub op hop
  · exact List.forall_iff_forall_mem.mp hostOps1_10_sub op hop
  · exact List.forall_iff_forall_mem.mp hostOps1_11_sub op hop
  · exact List.forall_iff_forall_mem.mp hostOps1_12_sub op hop
  · exact List.forall_iff_forall_mem.mp hostOps1_13_sub op hop
  · exact List.forall_iff_forall_mem.mp hostOps1_14_sub op hop
  · exact List.forall_iff_forall_mem.mp hostOps1_15_sub op hop
  · exact List.forall_iff_forall_mem.mp hostOps1_16_sub op hop
  · exact List.forall_iff_forall_mem.mp hostOps1_17_sub op hop
  · exact List.forall_iff_forall_mem.mp hostOps1_18_sub op hop
  · exact List.forall_iff_forall_mem.mp hostOps1_19_sub op hop

theorem opsA_fresh : (opsA : List (HloOp τ sig (Elt F))).Forall fun op => op.fresh = ∅ := by
  refine List.forall_iff_forall_mem.mpr fun op h => ?_
  simp only [opsA, List.mem_flatten, List.mem_cons, List.not_mem_nil, or_false] at h
  obtain ⟨l, hl, hop⟩ := h
  rcases hl with rfl | rfl | rfl | rfl | rfl | rfl | rfl | rfl | rfl | rfl | rfl | rfl | rfl | rfl
  · exact List.forall_iff_forall_mem.mp (by simp only [List.Forall]; repeat' constructor : (hostOps0 : List (HloOp τ sig (Elt F))).Forall fun op => op.fresh = ∅) op hop
  · exact List.forall_iff_forall_mem.mp (by simp only [List.Forall]; repeat' constructor : (hostOps0_1 : List (HloOp τ sig (Elt F))).Forall fun op => op.fresh = ∅) op hop
  · exact List.forall_iff_forall_mem.mp (by simp only [List.Forall]; repeat' constructor : (hostOps0_2 : List (HloOp τ sig (Elt F))).Forall fun op => op.fresh = ∅) op hop
  · exact List.forall_iff_forall_mem.mp (by simp only [List.Forall]; repeat' constructor : (hostOps0_3 : List (HloOp τ sig (Elt F))).Forall fun op => op.fresh = ∅) op hop
  · exact List.forall_iff_forall_mem.mp (by simp only [List.Forall]; repeat' constructor : (hostOps0_4 : List (HloOp τ sig (Elt F))).Forall fun op => op.fresh = ∅) op hop
  · exact List.forall_iff_forall_mem.mp (by simp only [List.Forall]; repeat' constructor : (hostOps0_5 : List (HloOp τ sig (Elt F))).Forall fun op => op.fresh = ∅) op hop
  · exact List.forall_iff_forall_mem.mp (by simp only [List.Forall]; repeat' constructor : (hostOps0_6 : List (HloOp τ sig (Elt F))).Forall fun op => op.fresh = ∅) op hop
  · exact List.forall_iff_forall_mem.mp (by simp only [List.Forall]; repeat' constructor : (hostOps0_7 : List (HloOp τ sig (Elt F))).Forall fun op => op.fresh = ∅) op hop
  · exact List.forall_iff_forall_mem.mp (by simp only [List.Forall]; repeat' constructor : (hostOps0_8 : List (HloOp τ sig (Elt F))).Forall fun op => op.fresh = ∅) op hop
  · exact List.forall_iff_forall_mem.mp (by simp only [List.Forall]; repeat' constructor : (hostOps0_9 : List (HloOp τ sig (Elt F))).Forall fun op => op.fresh = ∅) op hop
  · exact List.forall_iff_forall_mem.mp (by simp only [List.Forall]; repeat' constructor : (hostOps0_10 : List (HloOp τ sig (Elt F))).Forall fun op => op.fresh = ∅) op hop
  · exact List.forall_iff_forall_mem.mp (by simp only [List.Forall]; repeat' constructor : (hostOps0_11 : List (HloOp τ sig (Elt F))).Forall fun op => op.fresh = ∅) op hop
  · exact List.forall_iff_forall_mem.mp (by simp only [List.Forall]; repeat' constructor : (hostOps0_12 : List (HloOp τ sig (Elt F))).Forall fun op => op.fresh = ∅) op hop
  · exact List.forall_iff_forall_mem.mp (by simp only [List.Forall]; repeat' constructor : (hostOps0_13 : List (HloOp τ sig (Elt F))).Forall fun op => op.fresh = ∅) op hop
theorem opsB_fresh : (opsB : List (HloOp τ sig (Elt F))).Forall fun op => op.fresh = ∅ := by
  refine List.forall_iff_forall_mem.mpr fun op h => ?_
  simp only [opsB, List.mem_flatten, List.mem_cons, List.not_mem_nil, or_false] at h
  obtain ⟨l, hl, hop⟩ := h
  rcases hl with rfl | rfl | rfl | rfl | rfl | rfl | rfl | rfl | rfl | rfl | rfl | rfl | rfl | rfl | rfl | rfl | rfl | rfl | rfl | rfl
  · exact List.forall_iff_forall_mem.mp (by simp only [List.Forall]; repeat' constructor : (hostOps1 : List (HloOp τ sig (Elt F))).Forall fun op => op.fresh = ∅) op hop
  · exact List.forall_iff_forall_mem.mp (by simp only [List.Forall]; repeat' constructor : (hostOps1_1 : List (HloOp τ sig (Elt F))).Forall fun op => op.fresh = ∅) op hop
  · exact List.forall_iff_forall_mem.mp (by simp only [List.Forall]; repeat' constructor : (hostOps1_2 : List (HloOp τ sig (Elt F))).Forall fun op => op.fresh = ∅) op hop
  · exact List.forall_iff_forall_mem.mp (by simp only [List.Forall]; repeat' constructor : (hostOps1_3 : List (HloOp τ sig (Elt F))).Forall fun op => op.fresh = ∅) op hop
  · exact List.forall_iff_forall_mem.mp (by simp only [List.Forall]; repeat' constructor : (hostOps1_4 : List (HloOp τ sig (Elt F))).Forall fun op => op.fresh = ∅) op hop
  · exact List.forall_iff_forall_mem.mp (by simp only [List.Forall]; repeat' constructor : (hostOps1_5 : List (HloOp τ sig (Elt F))).Forall fun op => op.fresh = ∅) op hop
  · exact List.forall_iff_forall_mem.mp (by simp only [List.Forall]; repeat' constructor : (hostOps1_6 : List (HloOp τ sig (Elt F))).Forall fun op => op.fresh = ∅) op hop
  · exact List.forall_iff_forall_mem.mp (by simp only [List.Forall]; repeat' constructor : (hostOps1_7 : List (HloOp τ sig (Elt F))).Forall fun op => op.fresh = ∅) op hop
  · exact List.forall_iff_forall_mem.mp (by simp only [List.Forall]; repeat' constructor : (hostOps1_8 : List (HloOp τ sig (Elt F))).Forall fun op => op.fresh = ∅) op hop
  · exact List.forall_iff_forall_mem.mp (by simp only [List.Forall]; repeat' constructor : (hostOps1_9 : List (HloOp τ sig (Elt F))).Forall fun op => op.fresh = ∅) op hop
  · exact List.forall_iff_forall_mem.mp (by simp only [List.Forall]; repeat' constructor : (hostOps1_10 : List (HloOp τ sig (Elt F))).Forall fun op => op.fresh = ∅) op hop
  · exact List.forall_iff_forall_mem.mp (by simp only [List.Forall]; repeat' constructor : (hostOps1_11 : List (HloOp τ sig (Elt F))).Forall fun op => op.fresh = ∅) op hop
  · exact List.forall_iff_forall_mem.mp (by simp only [List.Forall]; repeat' constructor : (hostOps1_12 : List (HloOp τ sig (Elt F))).Forall fun op => op.fresh = ∅) op hop
  · exact List.forall_iff_forall_mem.mp (by simp only [List.Forall]; repeat' constructor : (hostOps1_13 : List (HloOp τ sig (Elt F))).Forall fun op => op.fresh = ∅) op hop
  · exact List.forall_iff_forall_mem.mp (by simp only [List.Forall]; repeat' constructor : (hostOps1_14 : List (HloOp τ sig (Elt F))).Forall fun op => op.fresh = ∅) op hop
  · exact List.forall_iff_forall_mem.mp (by simp only [List.Forall]; repeat' constructor : (hostOps1_15 : List (HloOp τ sig (Elt F))).Forall fun op => op.fresh = ∅) op hop
  · exact List.forall_iff_forall_mem.mp (by simp only [List.Forall]; repeat' constructor : (hostOps1_16 : List (HloOp τ sig (Elt F))).Forall fun op => op.fresh = ∅) op hop
  · exact List.forall_iff_forall_mem.mp (by simp only [List.Forall]; repeat' constructor : (hostOps1_17 : List (HloOp τ sig (Elt F))).Forall fun op => op.fresh = ∅) op hop
  · exact List.forall_iff_forall_mem.mp (by simp only [List.Forall]; repeat' constructor : (hostOps1_18 : List (HloOp τ sig (Elt F))).Forall fun op => op.fresh = ∅) op hop
  · exact List.forall_iff_forall_mem.mp (by simp only [List.Forall]; repeat' constructor : (hostOps1_19 : List (HloOp τ sig (Elt F))).Forall fun op => op.fresh = ∅) op hop
theorem opsC_fresh : (opsC : List (HloOp τ sig (Elt F))).Forall fun op => op.fresh = ∅ := by
  simp only [List.Forall]; repeat' constructor

/-! ## The buffer contents at each boundary -/

/-- Core `c`'s buffers at launch. -/
abbrev W0 : Dev nD → Valuation τ sig (Elt F) := fun c b => (s₀ m ρ).mem ((c : Dev nD), b)
/-- At the link stage's entry. -/
abbrev W1 : Dev nD → Valuation τ sig (Elt F) := fun c => StableHlo.after opsA (W0 m ρ c)
abbrev V1 : (c : Dev nD) → (b : Ref sig .tc) → Buf (Elt F) ((c : Thread nD τ).loc b) := fun c b => W1 m ρ c b
/-- At the link stage's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the node stage's entry. -/
abbrev W3 : Dev nD → Valuation τ sig (Elt F) := fun c => StableHlo.after opsB (W2 m ρ c)
abbrev V3 : (c : Dev nD) → (b : Ref sig .tc) → Buf (Elt F) ((c : Thread nD τ).loc b) := fun c b => W3 m ρ c b
/-- At the node stage's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- At @main's return. -/
abbrev W5 : Dev nD → Valuation τ sig (Elt F) := fun c => StableHlo.after opsC (W4 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m ρ) () defs₀ 𝒱₀ L lv) :=
  [ .host (hseg opsA opsA_sub opsA_fresh (W0 m ρ)),
    .region (reg0 m ρ),
    .host (hseg opsB opsB_sub opsB_fresh (W2 m ρ)),
    .region (reg1 m ρ),
    .host (hseg opsC hostOps2_sub opsC_fresh (W4 m ρ)) ]

/-- @main is the run of the segments. -/
theorem main_run (c : Dev nD) : main (F := F) c = Pipeline.Seg.run (segs m ρ) := (main_chain c).trans (by chain_rfl)

set_option backward.isDefEq.respectTransparency.types false in
/-- The launch: from any memory with zero counters, every weakly fair execution of @main on the TensorCores
    terminates, nothing faulting, and in every final state each unscoped buffer holds the fold's last contents
    `W5`; any postcondition that follows from that holds of the run. -/
theorem run_main {Q : PUnit × MemSt nD τ sig (Elt F) → Prop}
    (hQ : ∀ s : MemSt nD τ sig (Elt F), (∀ c : Dev nD, ∀ b ∈ Pipeline.ucRefs τ sig, s.mem (((c : Thread nD τ)).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (StableHlo.after opsC (W4 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

end Cert.KernelIdeal.Hand

end
-- ==== Proof.KIKept.lean ====
/-
  No host operation and no region of @main writes an argument array: at every boundary of the run each
  argument's buffer still holds the launch contents.
-/
import proofs.«417076_j8899172237900_1_alg».proof.Proof.Gen.KernelIdeal.Launch
import proofs.«417076_j8899172237900_1_alg».proof.Proof.Gen.KernelIdeal.Skeleton
import proofs.«417076_j8899172237900_1_alg».proof.Proof.Gen.KernelIdeal.Points
import proofs.«417076_j8899172237900_1_alg».proof.Proof.KIRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## No operation of a host stretch writes an argument -/

/-- The twelve arguments of @main. -/
abbrev argL : List (Ref sig .tc) :=
  [main_arg0, main_arg1, main_arg2, main_arg3, main_arg4, main_arg5, main_arg6, main_arg7, main_arg8, main_arg9, main_arg10, main_arg11]

/-- The operation writes no argument's buffer. -/
def NoArg (op : HloOp τ sig (Elt F)) : Prop := ∀ r ∈ argL, Proc.devRef (τ := τ) .tc r ∉ op.writes

/-- An operation whose one written buffer is that of a reference that is no argument writes no argument's buffer. -/
theorem noArg_of_writes {op : HloOp τ sig (Elt F)} {y : Ref sig .tc} (h : op.writes = {Proc.devRef .tc y}) (hy : y ∉ argL) :
    NoArg op := fun r hr hm =>
  hy (Proc.devRef_injective _ (Finset.mem_singleton.mp (h ▸ hm)) ▸ hr)

/-- Every operation of a list of lists has a property that every operation of each list has. -/
theorem forall_mem_flatten {α : Type} {P : α → Prop} (L : List (List α)) (hL : L.Forall fun l => l.Forall P) :
    ∀ x ∈ L.flatten, P x := fun x hx => by
  obtain ⟨l, hl, hxl⟩ := List.mem_flatten.mp hx
  exact List.forall_iff_forall_mem.mp (List.forall_iff_forall_mem.mp hL l hl) x hxl

/-- One operation: its written buffer is its result's, and the result is no argument. -/
macro "no_arg" : tactic => `(tactic| first
  | exact noArg_of_writes (StableHlo.unary_writes ..) (by decide)
  | exact noArg_of_writes (StableHlo.binary_writes ..) (by decide)
  | exact noArg_of_writes (StableHlo.nullary_writes ..) (by decide)
  | exact noArg_of_writes (StableHlo.ternary_writes ..) (by decide)
  | exact noArg_of_writes (StableHlo.reshape_writes ..) (by decide)
  | exact noArg_of_writes (StableHlo.nary_writes ..) (by decide)
  | exact noArg_of_writes (StableHlo.quaternary_writes ..) (by decide)
  | exact noArg_of_writes (StableHlo.unaryIndexed_writes ..) (by decide)
  | exact noArg_of_writes (StableHlo.binaryIndexed_writes ..) (by decide))

/-- A literal list of operations, one by one. -/
macro "no_arg_list" ops:ident : tactic => `(tactic| (
  simp only [$ops:ident, List.Forall]
  repeat' apply And.intro
  all_goals no_arg))

set_option maxHeartbeats 4000000 in
theorem hostOps0_noArg : (hostOps0 : List (HloOp τ sig (Elt F))).Forall NoArg := by no_arg_list hostOps0
theorem hostOps0_1_noArg : (hostOps0_1 : List (HloOp τ sig (Elt F))).Forall NoArg := by no_arg_list hostOps0_1
theorem hostOps0_2_noArg : (hostOps0_2 : List (HloOp τ sig (Elt F))).Forall NoArg := by no_arg_list hostOps0_2
theorem hostOps0_3_noArg : (hostOps0_3 : List (HloOp τ sig (Elt F))).Forall NoArg := by no_arg_list hostOps0_3
theorem hostOps0_4_noArg : (hostOps0_4 : List (HloOp τ sig (Elt F))).Forall NoArg := by no_arg_list hostOps0_4
theorem hostOps0_5_noArg : (hostOps0_5 : List (HloOp τ sig (Elt F))).Forall NoArg := by no_arg_list hostOps0_5
theorem hostOps0_6_noArg : (hostOps0_6 : List (HloOp τ sig (Elt F))).Forall NoArg := by no_arg_list hostOps0_6
theorem hostOps0_7_noArg : (hostOps0_7 : List (HloOp τ sig (Elt F))).Forall NoArg := by no_arg_list hostOps0_7
theorem hostOps0_8_noArg : (hostOps0_8 : List (HloOp τ sig (Elt F))).Forall NoArg := by no_arg_list hostOps0_8
theorem hostOps0_9_noArg : (hostOps0_9 : List (HloOp τ sig (Elt F))).Forall NoArg := by no_arg_list hostOps0_9
theorem hostOps0_10_noArg : (hostOps0_10 : List (HloOp τ sig (Elt F))).Forall NoArg := by no_arg_list hostOps0_10
theorem hostOps0_11_noArg : (hostOps0_11 : List (HloOp τ sig (Elt F))).Forall NoArg := by no_arg_list hostOps0_11
theorem hostOps0_12_noArg : (hostOps0_12 : List (HloOp τ sig (Elt F))).Forall NoArg := by no_arg_list hostOps0_12
theorem hostOps0_13_noArg : (hostOps0_13 : List (HloOp τ sig (Elt F))).Forall NoArg := by no_arg_list hostOps0_13
set_option maxHeartbeats 4000000 in
theorem hostOps1_noArg : (hostOps1 : List (HloOp τ sig (Elt F))).Forall NoArg := by no_arg_list hostOps1
theorem hostOps1_1_noArg : (hostOps1_1 : List (HloOp τ sig (Elt F))).Forall NoArg := by no_arg_list hostOps1_1
theorem hostOps1_2_noArg : (hostOps1_2 : List (HloOp τ sig (Elt F))).Forall NoArg := by no_arg_list hostOps1_2
theorem hostOps1_3_noArg : (hostOps1_3 : List (HloOp τ sig (Elt F))).Forall NoArg := by no_arg_list hostOps1_3
theorem hostOps1_4_noArg : (hostOps1_4 : List (HloOp τ sig (Elt F))).Forall NoArg := by no_arg_list hostOps1_4
theorem hostOps1_5_noArg : (hostOps1_5 : List (HloOp τ sig (Elt F))).Forall NoArg := by no_arg_list hostOps1_5
theorem hostOps1_6_noArg : (hostOps1_6 : List (HloOp τ sig (Elt F))).Forall NoArg := by no_arg_list hostOps1_6
theorem hostOps1_7_noArg : (hostOps1_7 : List (HloOp τ sig (Elt F))).Forall NoArg := by no_arg_list hostOps1_7
theorem hostOps1_8_noArg : (hostOps1_8 : List (HloOp τ sig (Elt F))).Forall NoArg := by no_arg_list hostOps1_8
theorem hostOps1_9_noArg : (hostOps1_9 : List (HloOp τ sig (Elt F))).Forall NoArg := by no_arg_list hostOps1_9
theorem hostOps1_10_noArg : (hostOps1_10 : List (HloOp τ sig (Elt F))).Forall NoArg := by no_arg_list hostOps1_10
theorem hostOps1_11_noArg : (hostOps1_11 : List (HloOp τ sig (Elt F))).Forall NoArg := by no_arg_list hostOps1_11
theorem hostOps1_12_noArg : (hostOps1_12 : List (HloOp τ sig (Elt F))).Forall NoArg := by no_arg_list hostOps1_12
theorem hostOps1_13_noArg : (hostOps1_13 : List (HloOp τ sig (Elt F))).Forall NoArg := by no_arg_list hostOps1_13
theorem hostOps1_14_noArg : (hostOps1_14 : List (HloOp τ sig (Elt F))).Forall NoArg := by no_arg_list hostOps1_14
theorem hostOps1_15_noArg : (hostOps1_15 : List (HloOp τ sig (Elt F))).Forall NoArg := by no_arg_list hostOps1_15
theorem hostOps1_16_noArg : (hostOps1_16 : List (HloOp τ sig (Elt F))).Forall NoArg := by no_arg_list hostOps1_16
theorem hostOps1_17_noArg : (hostOps1_17 : List (HloOp τ sig (Elt F))).Forall NoArg := by no_arg_list hostOps1_17
theorem hostOps1_18_noArg : (hostOps1_18 : List (HloOp τ sig (Elt F))).Forall NoArg := by no_arg_list hostOps1_18
theorem hostOps1_19_noArg : (hostOps1_19 : List (HloOp τ sig (Elt F))).Forall NoArg := by no_arg_list hostOps1_19
set_option maxHeartbeats 4000000 in
theorem hostOps2_noArg : (hostOps2 : List (HloOp τ sig (Elt F))).Forall NoArg := by no_arg_list hostOps2

/-- No operation before the link stage writes an argument. -/
theorem opsA_noArg : ∀ op ∈ (opsA : List (HloOp τ sig (Elt F))), NoArg op :=
  forall_mem_flatten _ ⟨hostOps0_noArg, hostOps0_1_noArg, hostOps0_2_noArg, hostOps0_3_noArg, hostOps0_4_noArg, hostOps0_5_noArg, hostOps0_6_noArg, hostOps0_7_noArg, hostOps0_8_noArg, hostOps0_9_noArg, hostOps0_10_noArg, hostOps0_11_noArg, hostOps0_12_noArg, hostOps0_13_noArg⟩
/-- No operation between the two stages writes an argument. -/
theorem opsB_noArg : ∀ op ∈ (opsB : List (HloOp τ sig (Elt F))), NoArg op :=
  forall_mem_flatten _ ⟨hostOps1_noArg, hostOps1_1_noArg, hostOps1_2_noArg, hostOps1_3_noArg, hostOps1_4_noArg, hostOps1_5_noArg, hostOps1_6_noArg, hostOps1_7_noArg, hostOps1_8_noArg, hostOps1_9_noArg, hostOps1_10_noArg, hostOps1_11_noArg, hostOps1_12_noArg, hostOps1_13_noArg, hostOps1_14_noArg, hostOps1_15_noArg, hostOps1_16_noArg, hostOps1_17_noArg, hostOps1_18_noArg, hostOps1_19_noArg⟩
/-- No closing operation writes an argument. -/
theorem opsC_noArg : ∀ op ∈ (opsC : List (HloOp τ sig (Elt F))), NoArg op :=
  List.forall_iff_forall_mem.mp hostOps2_noArg

/-- A host stretch none of whose operations writes an argument leaves an argument's buffer as it was. -/
theorem after_arg (ops : List (HloOp τ sig (Elt F))) (h : ∀ op ∈ ops, NoArg op) (V : Valuation τ sig (Elt F))
    (r : Ref sig .tc) (hr : r ∈ argL) : StableHlo.after ops V (Proc.devRef .tc r) = V (Proc.devRef .tc r) :=
  StableHlo.after_of_forall_not_mem ops V fun op hop => h op hop r hr

/-- No argument is an array of a window of the link stage, -/
theorem arg_ne0 : ∀ r ∈ argL, ∀ w, Pipeline.arrRef spec0 w ≠ r := by decide
/-- nor of the node stage. -/
theorem arg_ne1 : ∀ r ∈ argL, ∀ w, Pipeline.arrRef spec1 w ≠ r := by decide

/-! ## An argument's buffer at each boundary -/

/-- At the link stage's entry. -/
theorem keep1 (c : Dev nD) (r : Ref sig .tc) (hr : r ∈ argL) :
    W1 m ρ c (Proc.devRef .tc r) = m ((c : Thread nD τ).loc r) :=
  after_arg opsA opsA_noArg (W0 m ρ c) r hr
/-- At the link stage's exit: the region's arrays are none of the arguments. -/
theorem keep2 (c : Dev nD) (r : Ref sig .tc) (hr : r ∈ argL) :
    W2 m ρ c (Proc.devRef .tc r) = m ((c : Thread nD τ).loc r) :=
  (W2_of_ne m ρ c r (arg_ne0 r hr)).trans (keep1 m ρ c r hr)
/-- At the node stage's entry. -/
theorem keep3 (c : Dev nD) (r : Ref sig .tc) (hr : r ∈ argL) :
    W3 m ρ c (Proc.devRef .tc r) = m ((c : Thread nD τ).loc r) :=
  (after_arg opsB opsB_noArg (W2 m ρ c) r hr).trans (keep2 m ρ c r hr)
/-- At the node stage's exit: the region's arrays are none of the arguments. -/
theorem keep4 (c : Dev nD) (r : Ref sig .tc) (hr : r ∈ argL) :
    W4 m ρ c (Proc.devRef .tc r) = m ((c : Thread nD τ).loc r) :=
  (W4_of_ne m ρ c r (arg_ne1 r hr)).trans (keep3 m ρ c r hr)
/-- At @main's return. -/
theorem keep5 (c : Dev nD) (r : Ref sig .tc) (hr : r ∈ argL) :
    W5 m ρ c (Proc.devRef .tc r) = m ((c : Thread nD τ).loc r) :=
  (after_arg opsC opsC_noArg (W4 m ρ c) r hr).trans (keep4 m ρ c r hr)

/-! ## The sixty instances -/

theorem W1_arg0 (c : Dev nD) : W1 m ρ c (Proc.devRef .tc main_arg0) = m ((c : Thread nD τ).loc main_arg0) :=
  keep1 m ρ c main_arg0 (by decide)
theorem W2_arg0 (c : Dev nD) : W2 m ρ c (Proc.devRef .tc main_arg0) = m ((c : Thread nD τ).loc main_arg0) :=
  keep2 m ρ c main_arg0 (by decide)
theorem W3_arg0 (c : Dev nD) : W3 m ρ c (Proc.devRef .tc main_arg0) = m ((c : Thread nD τ).loc main_arg0) :=
  keep3 m ρ c main_arg0 (by decide)
theorem W4_arg0 (c : Dev nD) : W4 m ρ c (Proc.devRef .tc main_arg0) = m ((c : Thread nD τ).loc main_arg0) :=
  keep4 m ρ c main_arg0 (by decide)
theorem W5_arg0 (c : Dev nD) : W5 m ρ c (Proc.devRef .tc main_arg0) = m ((c : Thread nD τ).loc main_arg0) :=
  keep5 m ρ c main_arg0 (by decide)
theorem W1_arg1 (c : Dev nD) : W1 m ρ c (Proc.devRef .tc main_arg1) = m ((c : Thread nD τ).loc main_arg1) :=
  keep1 m ρ c main_arg1 (by decide)
theorem W2_arg1 (c : Dev nD) : W2 m ρ c (Proc.devRef .tc main_arg1) = m ((c : Thread nD τ).loc main_arg1) :=
  keep2 m ρ c main_arg1 (by decide)
theorem W3_arg1 (c : Dev nD) : W3 m ρ c (Proc.devRef .tc main_arg1) = m ((c : Thread nD τ).loc main_arg1) :=
  keep3 m ρ c main_arg1 (by decide)
theorem W4_arg1 (c : Dev nD) : W4 m ρ c (Proc.devRef .tc main_arg1) = m ((c : Thread nD τ).loc main_arg1) :=
  keep4 m ρ c main_arg1 (by decide)
theorem W5_arg1 (c : Dev nD) : W5 m ρ c (Proc.devRef .tc main_arg1) = m ((c : Thread nD τ).loc main_arg1) :=
  keep5 m ρ c main_arg1 (by decide)
theorem W1_arg2 (c : Dev nD) : W1 m ρ c (Proc.devRef .tc main_arg2) = m ((c : Thread nD τ).loc main_arg2) :=
  keep1 m ρ c main_arg2 (by decide)
theorem W2_arg2 (c : Dev nD) : W2 m ρ c (Proc.devRef .tc main_arg2) = m ((c : Thread nD τ).loc main_arg2) :=
  keep2 m ρ c main_arg2 (by decide)
theorem W3_arg2 (c : Dev nD) : W3 m ρ c (Proc.devRef .tc main_arg2) = m ((c : Thread nD τ).loc main_arg2) :=
  keep3 m ρ c main_arg2 (by decide)
theorem W4_arg2 (c : Dev nD) : W4 m ρ c (Proc.devRef .tc main_arg2) = m ((c : Thread nD τ).loc main_arg2) :=
  keep4 m ρ c main_arg2 (by decide)
theorem W5_arg2 (c : Dev nD) : W5 m ρ c (Proc.devRef .tc main_arg2) = m ((c : Thread nD τ).loc main_arg2) :=
  keep5 m ρ c main_arg2 (by decide)
theorem W1_arg3 (c : Dev nD) : W1 m ρ c (Proc.devRef .tc main_arg3) = m ((c : Thread nD τ).loc main_arg3) :=
  keep1 m ρ c main_arg3 (by decide)
theorem W2_arg3 (c : Dev nD) : W2 m ρ c (Proc.devRef .tc main_arg3) = m ((c : Thread nD τ).loc main_arg3) :=
  keep2 m ρ c main_arg3 (by decide)
theorem W3_arg3 (c : Dev nD) : W3 m ρ c (Proc.devRef .tc main_arg3) = m ((c : Thread nD τ).loc main_arg3) :=
  keep3 m ρ c main_arg3 (by decide)
theorem W4_arg3 (c : Dev nD) : W4 m ρ c (Proc.devRef .tc main_arg3) = m ((c : Thread nD τ).loc main_arg3) :=
  keep4 m ρ c main_arg3 (by decide)
theorem W5_arg3 (c : Dev nD) : W5 m ρ c (Proc.devRef .tc main_arg3) = m ((c : Thread nD τ).loc main_arg3) :=
  keep5 m ρ c main_arg3 (by decide)
theorem W1_arg4 (c : Dev nD) : W1 m ρ c (Proc.devRef .tc main_arg4) = m ((c : Thread nD τ).loc main_arg4) :=
  keep1 m ρ c main_arg4 (by decide)
theorem W2_arg4 (c : Dev nD) : W2 m ρ c (Proc.devRef .tc main_arg4) = m ((c : Thread nD τ).loc main_arg4) :=
  keep2 m ρ c main_arg4 (by decide)
theorem W3_arg4 (c : Dev nD) : W3 m ρ c (Proc.devRef .tc main_arg4) = m ((c : Thread nD τ).loc main_arg4) :=
  keep3 m ρ c main_arg4 (by decide)
theorem W4_arg4 (c : Dev nD) : W4 m ρ c (Proc.devRef .tc main_arg4) = m ((c : Thread nD τ).loc main_arg4) :=
  keep4 m ρ c main_arg4 (by decide)
theorem W5_arg4 (c : Dev nD) : W5 m ρ c (Proc.devRef .tc main_arg4) = m ((c : Thread nD τ).loc main_arg4) :=
  keep5 m ρ c main_arg4 (by decide)
theorem W1_arg5 (c : Dev nD) : W1 m ρ c (Proc.devRef .tc main_arg5) = m ((c : Thread nD τ).loc main_arg5) :=
  keep1 m ρ c main_arg5 (by decide)
theorem W2_arg5 (c : Dev nD) : W2 m ρ c (Proc.devRef .tc main_arg5) = m ((c : Thread nD τ).loc main_arg5) :=
  keep2 m ρ c main_arg5 (by decide)
theorem W3_arg5 (c : Dev nD) : W3 m ρ c (Proc.devRef .tc main_arg5) = m ((c : Thread nD τ).loc main_arg5) :=
  keep3 m ρ c main_arg5 (by decide)
theorem W4_arg5 (c : Dev nD) : W4 m ρ c (Proc.devRef .tc main_arg5) = m ((c : Thread nD τ).loc main_arg5) :=
  keep4 m ρ c main_arg5 (by decide)
theorem W5_arg5 (c : Dev nD) : W5 m ρ c (Proc.devRef .tc main_arg5) = m ((c : Thread nD τ).loc main_arg5) :=
  keep5 m ρ c main_arg5 (by decide)
theorem W1_arg6 (c : Dev nD) : W1 m ρ c (Proc.devRef .tc main_arg6) = m ((c : Thread nD τ).loc main_arg6) :=
  keep1 m ρ c main_arg6 (by decide)
theorem W2_arg6 (c : Dev nD) : W2 m ρ c (Proc.devRef .tc main_arg6) = m ((c : Thread nD τ).loc main_arg6) :=
  keep2 m ρ c main_arg6 (by decide)
theorem W3_arg6 (c : Dev nD) : W3 m ρ c (Proc.devRef .tc main_arg6) = m ((c : Thread nD τ).loc main_arg6) :=
  keep3 m ρ c main_arg6 (by decide)
theorem W4_arg6 (c : Dev nD) : W4 m ρ c (Proc.devRef .tc main_arg6) = m ((c : Thread nD τ).loc main_arg6) :=
  keep4 m ρ c main_arg6 (by decide)
theorem W5_arg6 (c : Dev nD) : W5 m ρ c (Proc.devRef .tc main_arg6) = m ((c : Thread nD τ).loc main_arg6) :=
  keep5 m ρ c main_arg6 (by decide)
theorem W1_arg7 (c : Dev nD) : W1 m ρ c (Proc.devRef .tc main_arg7) = m ((c : Thread nD τ).loc main_arg7) :=
  keep1 m ρ c main_arg7 (by decide)
theorem W2_arg7 (c : Dev nD) : W2 m ρ c (Proc.devRef .tc main_arg7) = m ((c : Thread nD τ).loc main_arg7) :=
  keep2 m ρ c main_arg7 (by decide)
theorem W3_arg7 (c : Dev nD) : W3 m ρ c (Proc.devRef .tc main_arg7) = m ((c : Thread nD τ).loc main_arg7) :=
  keep3 m ρ c main_arg7 (by decide)
theorem W4_arg7 (c : Dev nD) : W4 m ρ c (Proc.devRef .tc main_arg7) = m ((c : Thread nD τ).loc main_arg7) :=
  keep4 m ρ c main_arg7 (by decide)
theorem W5_arg7 (c : Dev nD) : W5 m ρ c (Proc.devRef .tc main_arg7) = m ((c : Thread nD τ).loc main_arg7) :=
  keep5 m ρ c main_arg7 (by decide)
theorem W1_arg8 (c : Dev nD) : W1 m ρ c (Proc.devRef .tc main_arg8) = m ((c : Thread nD τ).loc main_arg8) :=
  keep1 m ρ c main_arg8 (by decide)
theorem W2_arg8 (c : Dev nD) : W2 m ρ c (Proc.devRef .tc main_arg8) = m ((c : Thread nD τ).loc main_arg8) :=
  keep2 m ρ c main_arg8 (by decide)
theorem W3_arg8 (c : Dev nD) : W3 m ρ c (Proc.devRef .tc main_arg8) = m ((c : Thread nD τ).loc main_arg8) :=
  keep3 m ρ c main_arg8 (by decide)
theorem W4_arg8 (c : Dev nD) : W4 m ρ c (Proc.devRef .tc main_arg8) = m ((c : Thread nD τ).loc main_arg8) :=
  keep4 m ρ c main_arg8 (by decide)
theorem W5_arg8 (c : Dev nD) : W5 m ρ c (Proc.devRef .tc main_arg8) = m ((c : Thread nD τ).loc main_arg8) :=
  keep5 m ρ c main_arg8 (by decide)
theorem W1_arg9 (c : Dev nD) : W1 m ρ c (Proc.devRef .tc main_arg9) = m ((c : Thread nD τ).loc main_arg9) :=
  keep1 m ρ c main_arg9 (by decide)
theorem W2_arg9 (c : Dev nD) : W2 m ρ c (Proc.devRef .tc main_arg9) = m ((c : Thread nD τ).loc main_arg9) :=
  keep2 m ρ c main_arg9 (by decide)
theorem W3_arg9 (c : Dev nD) : W3 m ρ c (Proc.devRef .tc main_arg9) = m ((c : Thread nD τ).loc main_arg9) :=
  keep3 m ρ c main_arg9 (by decide)
theorem W4_arg9 (c : Dev nD) : W4 m ρ c (Proc.devRef .tc main_arg9) = m ((c : Thread nD τ).loc main_arg9) :=
  keep4 m ρ c main_arg9 (by decide)
theorem W5_arg9 (c : Dev nD) : W5 m ρ c (Proc.devRef .tc main_arg9) = m ((c : Thread nD τ).loc main_arg9) :=
  keep5 m ρ c main_arg9 (by decide)
theorem W1_arg10 (c : Dev nD) : W1 m ρ c (Proc.devRef .tc main_arg10) = m ((c : Thread nD τ).loc main_arg10) :=
  keep1 m ρ c main_arg10 (by decide)
theorem W2_arg10 (c : Dev nD) : W2 m ρ c (Proc.devRef .tc main_arg10) = m ((c : Thread nD τ).loc main_arg10) :=
  keep2 m ρ c main_arg10 (by decide)
theorem W3_arg10 (c : Dev nD) : W3 m ρ c (Proc.devRef .tc main_arg10) = m ((c : Thread nD τ).loc main_arg10) :=
  keep3 m ρ c main_arg10 (by decide)
theorem W4_arg10 (c : Dev nD) : W4 m ρ c (Proc.devRef .tc main_arg10) = m ((c : Thread nD τ).loc main_arg10) :=
  keep4 m ρ c main_arg10 (by decide)
theorem W5_arg10 (c : Dev nD) : W5 m ρ c (Proc.devRef .tc main_arg10) = m ((c : Thread nD τ).loc main_arg10) :=
  keep5 m ρ c main_arg10 (by decide)
theorem W1_arg11 (c : Dev nD) : W1 m ρ c (Proc.devRef .tc main_arg11) = m ((c : Thread nD τ).loc main_arg11) :=
  keep1 m ρ c main_arg11 (by decide)
theorem W2_arg11 (c : Dev nD) : W2 m ρ c (Proc.devRef .tc main_arg11) = m ((c : Thread nD τ).loc main_arg11) :=
  keep2 m ρ c main_arg11 (by decide)
theorem W3_arg11 (c : Dev nD) : W3 m ρ c (Proc.devRef .tc main_arg11) = m ((c : Thread nD τ).loc main_arg11) :=
  keep3 m ρ c main_arg11 (by decide)
theorem W4_arg11 (c : Dev nD) : W4 m ρ c (Proc.devRef .tc main_arg11) = m ((c : Thread nD τ).loc main_arg11) :=
  keep4 m ρ c main_arg11 (by decide)
theorem W5_arg11 (c : Dev nD) : W5 m ρ c (Proc.devRef .tc main_arg11) = m ((c : Thread nD τ).loc main_arg11) :=
  keep5 m ρ c main_arg11 (by decide)

end Cert.KernelIdeal.Hand

end
-- ==== Proof.RefValue.lean ====
/-
  The reference's run and its stages read at an index.
-/
import proofs.«417076_j8899172237900_1_alg».proof.Proof.Gen.ReferenceIdeal.Run
import proofs.«417076_j8899172237900_1_alg».proof.Proof.Gen.ReferenceIdeal.Read

noncomputable section

namespace Cert.ReferenceIdeal.RefValue

end Cert.ReferenceIdeal.RefValue

end
-- ==== Proof.KIArgs.lean ====
/-
  The twelve argument arrays of @main as the launch memory holds them on a core, each typed at its literal shape
  (the same shapes the reference's stages are stated over).
-/
import proofs.«417076_j8899172237900_1_alg».proof.Proof.KIRun
import proofs.«417076_j8899172237900_1_alg».proof.Proof.RefValue
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

variable (m : (ℓ : Loc nD τ sig) → Buf (Elt Ideal) ℓ) (c : Dev nD)

/-- The conduit size. -/
abbrev A0 : (⟨Cert.ReferenceIdeal.S2000000, .f32⟩ : BufTy).Contents (Elt Ideal) := m ((c : Thread nD τ).loc main_arg0)
/-- The hydraulic head. -/
abbrev A1 : (⟨Cert.ReferenceIdeal.S2000000, .f32⟩ : BufTy).Contents (Elt Ideal) := m ((c : Thread nD τ).loc main_arg1)
/-- The Reynolds number. -/
abbrev A2 : (⟨Cert.ReferenceIdeal.S4000000, .f32⟩ : BufTy).Contents (Elt Ideal) := m ((c : Thread nD τ).loc main_arg2)
/-- The ice thickness. -/
abbrev A3 : (⟨Cert.ReferenceIdeal.S2000000, .f32⟩ : BufTy).Contents (Elt Ideal) := m ((c : Thread nD τ).loc main_arg3)
/-- The bedrock elevation. -/
abbrev A4 : (⟨Cert.ReferenceIdeal.S2000000, .f32⟩ : BufTy).Contents (Elt Ideal) := m ((c : Thread nD τ).loc main_arg4)
/-- The geothermal heat flux. -/
abbrev A5 : (⟨Cert.ReferenceIdeal.S2000000, .f32⟩ : BufTy).Contents (Elt Ideal) := m ((c : Thread nD τ).loc main_arg5)
/-- The link length. -/
abbrev A6 : (⟨Cert.ReferenceIdeal.S4000000, .f32⟩ : BufTy).Contents (Elt Ideal) := m ((c : Thread nD τ).loc main_arg6)
/-- The node area. -/
abbrev A7 : (⟨Cert.ReferenceIdeal.S2000000, .f32⟩ : BufTy).Contents (Elt Ideal) := m ((c : Thread nD τ).loc main_arg7)
/-- The head node of each link. -/
abbrev A8 : (⟨Cert.ReferenceIdeal.S4000000, .i32⟩ : BufTy).Contents (Elt Ideal) := m ((c : Thread nD τ).loc main_arg8)
/-- The tail node of each link. -/
abbrev A9 : (⟨Cert.ReferenceIdeal.S4000000, .i32⟩ : BufTy).Contents (Elt Ideal) := m ((c : Thread nD τ).loc main_arg9)
/-- The links at each node. -/
abbrev A10 : (⟨Cert.ReferenceIdeal.S2000000x6, .i32⟩ : BufTy).Contents (Elt Ideal) := m ((c : Thread nD τ).loc main_arg10)
/-- The link directions at each node. -/
abbrev A11 : (⟨Cert.ReferenceIdeal.S2000000x6, .i32⟩ : BufTy).Contents (Elt Ideal) := m ((c : Thread nD τ).loc main_arg11)

end Cert.KernelIdeal.Val

end
-- ==== Proof.KIValA.lean ====
/-
  The link stage's six operand arrays, as the host operations before it leave them, read at a link index: the
  four padded gathers are the reference's gathers there, the padded and guarded link length is the link length
  where that is not zero, and the padded Reynolds number is the Reynolds number.
-/
import proofs.«417076_j8899172237900_1_alg».proof.Proof.KIRun
import proofs.«417076_j8899172237900_1_alg».proof.Proof.KIArgs
import proofs.«417076_j8899172237900_1_alg».proof.Proof.KIKept
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.KernelVsHost
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

/-! ## Two readings at an index, over any arrays -/

/-- An array of 4000000 entries padded at its end to 4194304 entries, read at an entry below 4000000, is the
    array's entry there, whatever the padding value. -/
theorem pad_link {α : Type} (x : S4000000.Idx → α) (v : S_.Idx → α) (l : Fin 4000000) :
    pad S4194304 ![0] ![194304] ![0] x v pads_S4000000_S4194304_01943040 h_S_ (ix1 ⟨l.val, by have := l.isLt; omega⟩) = x (ix1 l) :=
  pad_apply_of_inside (![0] : Fin 1 → Nat) ![194304] ![0] x v pads_S4000000_S4194304_01943040 h_S_ _ (ix1 l) (fun a => by
    match a with
    | ⟨0, _⟩ =>
      show l.val = 0 + l.val * (0 + 1)
      omega)

/-- "Where the entry equals 0 take 1, else the entry", read where the entry is not zero, is the entry: on the
    extended reals the comparison with the constant 0 is equality with 0. -/
theorem guard_apply (P : FVec Ideal S4194304 .f32) (j : S4194304.Idx) (a : EReal) (hP : P j = a) (ha : a ≠ 0) :
    select (cmpf .oeq P (broadcastInDim S4194304 ![] bcast_S_S4194304 (constant (F := Ideal) S_ .f32 0x00000000#32)))
      (broadcastInDim S4194304 ![] bcast_S_S4194304 (constant (F := Ideal) S_ .f32 0x3F800000#32)) P j = a := by
  show Scalar.select (FloatOps.cmpf .oeq (P j) (Ideal.ofBits .f32 0x00000000#32)) (Ideal.ofBits .f32 0x3F800000#32) (P j) = a
  rw [hP, Ideal.cmpf_def, Ideal.ofBits_zero_f32]
  show Scalar.select (BitVec.ofBool (decide (a = 0))) _ a = a
  rw [decide_eq_false ha]
  exact select_zero _ _

variable (m : (ℓ : Loc nD τ sig) → Buf (Elt Ideal) ℓ) (ρ : Dev nD → PrngReg) (c : Dev nD)

/-! ## The six arrays whole -/
/-- The first operand is the reference's gather of the conduit size at the head nodes, padded. -/
theorem V1_v28_arr : (V1 m ρ c main_v28 : S4194304.Idx → EReal) = pad S4194304 ![0] ![194304] ![0] (Cert.ReferenceIdeal.Read.val_main_v6 (F := Ideal) (A0 m c) (A8 m c) : S4000000.Idx → EReal) (sitofp (F := Ideal) .f32 (constantI S_ 32 0#32)) pads_S4000000_S4194304_01943040 h_S_ := by
  show StableHlo.after opsA _ (Proc.devRef .tc main_v28) = _
  simp only [opsA, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  rfl
/-- The second is its gather of the conduit size at the tail nodes, padded. -/
theorem V1_v29_arr : (V1 m ρ c main_v29 : S4194304.Idx → EReal) = pad S4194304 ![0] ![194304] ![0] (Cert.ReferenceIdeal.Read.val_main_v13 (F := Ideal) (A0 m c) (A9 m c) : S4000000.Idx → EReal) (sitofp (F := Ideal) .f32 (constantI S_ 32 0#32)) pads_S4000000_S4194304_01943040 h_S_ := by
  show StableHlo.after opsA _ (Proc.devRef .tc main_v29) = _
  simp only [opsA, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  rfl
/-- The third is its gather of the head at the head nodes, padded. -/
theorem V1_v30_arr : (V1 m ρ c main_v30 : S4194304.Idx → EReal) = pad S4194304 ![0] ![194304] ![0] (Cert.ReferenceIdeal.Read.val_main_v23 (F := Ideal) (A1 m c) (A8 m c) : S4000000.Idx → EReal) (sitofp (F := Ideal) .f32 (constantI S_ 32 0#32)) pads_S4000000_S4194304_01943040 h_S_ := by
  show StableHlo.after opsA _ (Proc.devRef .tc main_v30) = _
  simp only [opsA, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  rfl
/-- The fourth is its gather of the head at the tail nodes, padded. -/
theorem V1_v31_arr : (V1 m ρ c main_v31 : S4194304.Idx → EReal) = pad S4194304 ![0] ![194304] ![0] (Cert.ReferenceIdeal.Read.val_main_v30 (F := Ideal) (A1 m c) (A9 m c) : S4000000.Idx → EReal) (sitofp (F := Ideal) .f32 (constantI S_ 32 0#32)) pads_S4000000_S4194304_01943040 h_S_ := by
  show StableHlo.after opsA _ (Proc.devRef .tc main_v31) = _
  simp only [opsA, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  rfl
/-- The fifth is the padded link length with 1 in place of every zero entry. -/
theorem V1_v35_arr : (V1 m ρ c main_v35 : S4194304.Idx → EReal)
    = select (cmpf .oeq (pad S4194304 ![0] ![194304] ![0] (A6 m c : S4000000.Idx → EReal) (sitofp (F := Ideal) .f32 (constantI S_ 32 0#32)) pads_S4000000_S4194304_01943040 h_S_ : FVec Ideal S4194304 .f32) (broadcastInDim S4194304 ![] bcast_S_S4194304 (constant (F := Ideal) S_ .f32 0x00000000#32)))
        (broadcastInDim S4194304 ![] bcast_S_S4194304 (constant (F := Ideal) S_ .f32 0x3F800000#32))
        (pad S4194304 ![0] ![194304] ![0] (A6 m c : S4000000.Idx → EReal) (sitofp (F := Ideal) .f32 (constantI S_ 32 0#32)) pads_S4000000_S4194304_01943040 h_S_) := by
  show StableHlo.after opsA _ (Proc.devRef .tc main_v35) = _
  simp only [opsA, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  rfl
/-- The sixth is the padded Reynolds number. -/
theorem V1_v36_arr : (V1 m ρ c main_v36 : S4194304.Idx → EReal) = pad S4194304 ![0] ![194304] ![0] (A2 m c : S4000000.Idx → EReal) (sitofp (F := Ideal) .f32 (constantI S_ 32 0#32)) pads_S4000000_S4194304_01943040 h_S_ := by
  show StableHlo.after opsA _ (Proc.devRef .tc main_v36) = _
  simp only [opsA, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  rfl

/-! ## The six arrays at a link index -/

theorem V1_v28 (l : Fin 4000000) : (V1 m ρ c main_v28 : S4194304.Idx → EReal) (ix1 ⟨l.val, by have := l.isLt; omega⟩) = Cert.ReferenceIdeal.Read.val_main_v6 (F := Ideal) (A0 m c) (A8 m c) (ix1 l) := by
  rw [V1_v28_arr]; exact pad_link _ _ l
theorem V1_v29 (l : Fin 4000000) : (V1 m ρ c main_v29 : S4194304.Idx → EReal) (ix1 ⟨l.val, by have := l.isLt; omega⟩) = Cert.ReferenceIdeal.Read.val_main_v13 (F := Ideal) (A0 m c) (A9 m c) (ix1 l) := by
  rw [V1_v29_arr]; exact pad_link _ _ l
theorem V1_v30 (l : Fin 4000000) : (V1 m ρ c main_v30 : S4194304.Idx → EReal) (ix1 ⟨l.val, by have := l.isLt; omega⟩) = Cert.ReferenceIdeal.Read.val_main_v23 (F := Ideal) (A1 m c) (A8 m c) (ix1 l) := by
  rw [V1_v30_arr]; exact pad_link _ _ l
theorem V1_v31 (l : Fin 4000000) : (V1 m ρ c main_v31 : S4194304.Idx → EReal) (ix1 ⟨l.val, by have := l.isLt; omega⟩) = Cert.ReferenceIdeal.Read.val_main_v30 (F := Ideal) (A1 m c) (A9 m c) (ix1 l) := by
  rw [V1_v31_arr]; exact pad_link _ _ l
theorem V1_v35 (hlen : ∀ i, A6 m c i ≠ (0 : EReal)) (l : Fin 4000000) : (V1 m ρ c main_v35 : S4194304.Idx → EReal) (ix1 ⟨l.val, by have := l.isLt; omega⟩) = A6 m c (ix1 l) := by
  rw [V1_v35_arr]; exact guard_apply _ _ _ (pad_link _ _ l) (hlen (ix1 l))
theorem V1_v36 (l : Fin 4000000) : (V1 m ρ c main_v36 : S4194304.Idx → EReal) (ix1 ⟨l.val, by have := l.isLt; omega⟩) = A2 m c (ix1 l) := by
  rw [V1_v36_arr]; exact pad_link _ _ l

end Cert.KernelIdeal.Val

end
-- ==== Proof.KIVal0.lean ====
/-
  The link stage's two result arrays at its region's exit, read at a link index: the discharge and the
  dissipation the reference computes for that link, given what the six operand arrays hold there.
-/
import proofs.«417076_j8899172237900_1_alg».proof.Proof.KIRun
import proofs.«417076_j8899172237900_1_alg».proof.Proof.KIArgs
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

/-! ## The link stage's two result arrays, whole

The body stores, over the whole block, one scalar function of the six loaded blocks; every window's block at grid point
`t` is the `t`-th run of 262144 elements of its array, and the sixteen points' blocks cover the arrays. So each result array
at the region's exit is that scalar function of the six operand arrays, index by index. -/

namespace Link

/-- The one-axis zero offset, however it is spelt. -/
theorem hz0 : (![0] : Fin 1 → Nat) = fun _ => 0 := funext fun a => by fin_cases a; rfl

/-- The head gradient along a link: the head difference of its two end nodes over its length. -/
def gradOf (h0 h1 len : EReal) : EReal :=
  FloatOps.divf (F := Ideal) (φ := .f32) (FloatOps.subf (F := Ideal) (φ := .f32) h0 h1) len

/-- The mean conduit size of a link's two end nodes. -/
def meanOf (a b : EReal) : EReal :=
  FloatOps.mulf (F := Ideal) (φ := .f32) (Scalar.ofBits .f32 0x3F000000#32) (FloatOps.addf (F := Ideal) (φ := .f32) a b)

/-- The conductivity of a link: the cube of the mean size times the gravity constant, over the viscosity scaled by the
    Reynolds term. -/
def condOf (a b re : EReal) : EReal :=
  FloatOps.divf (F := Ideal) (φ := .f32)
    (FloatOps.mulf (F := Ideal) (φ := .f32)
      (FloatOps.mulf (F := Ideal) (φ := .f32) (meanOf a b) (FloatOps.mulf (F := Ideal) (φ := .f32) (meanOf a b) (meanOf a b)))
      (Scalar.ofBits .f32 0x411CF5C3#32))
    (FloatOps.mulf (F := Ideal) (φ := .f32) (Scalar.ofBits .f32 0x37B3E2A4#32)
      (FloatOps.addf (F := Ideal) (φ := .f32) (Scalar.ofBits .f32 0x3F800000#32)
        (FloatOps.mulf (F := Ideal) (φ := .f32) (Scalar.ofBits .f32 0x3A83126F#32) re)))

/-- The discharge of a link from the six values the link stage reads for it. -/
def qOf (a b h0 h1 len re : EReal) : EReal :=
  FloatOps.mulf (F := Ideal) (φ := .f32) (condOf a b re) (gradOf h0 h1 len)

/-- The dissipation of a link: the absolute value of its discharge times its head gradient. -/
def dOf (a b h0 h1 len re : EReal) : EReal :=
  FloatOps.absf (F := Ideal) (φ := .f32) (FloatOps.mulf (F := Ideal) (φ := .f32) (qOf a b h0 h1 len re) (gradOf h0 h1 len))

theorem pay1_eq (x2 x3 x4 : Vec Ideal S262144 .f32) :
    k0_pay1 x2 x3 x4 = fun j => gradOf (x2 j) (x3 j) (x4 j) := by
  unfold k0_pay1
  simp only [shapeCast_self]
  rfl

theorem pay2_eq (x0 x1 x2 x3 x4 x5 : Vec Ideal S262144 .f32) :
    k0_pay2 x0 x1 x2 x3 x4 x5 = fun j => qOf (x0 j) (x1 j) (x2 j) (x3 j) (x4 j) (x5 j) := by
  unfold k0_pay2
  simp only [shapeCast_self, pay1_eq]
  rfl

theorem pay3_eq (x0 x1 x2 x3 x4 x5 : Vec Ideal S262144 .f32) :
    k0_pay3 x0 x1 x2 x3 x4 x5 = fun j => dOf (x0 j) (x1 j) (x2 j) (x3 j) (x4 j) (x5 j) := by
  unfold k0_pay3
  simp only [pay2_eq, pay1_eq]
  rfl

section Arrays

variable (V : (c : Dev nD) → (b : Ref sig .tc) → Buf (Elt Ideal) ((c : Thread nD τ).loc b)) (c : Dev nD)

/-- Every window of the link stage moves with the grid point: block `t` of each array is its `t`-th run of 262144 elements. -/
theorem idx_facts0 : ∀ t : Fin cfg0.N, win0_0.index t (0 : Fin 1) = t.val ∧ win0_1.index t (0 : Fin 1) = t.val
    ∧ win0_2.index t (0 : Fin 1) = t.val ∧ win0_3.index t (0 : Fin 1) = t.val ∧ win0_4.index t (0 : Fin 1) = t.val
    ∧ win0_5.index t (0 : Fin 1) = t.val ∧ win0_6.index t (0 : Fin 1) = t.val ∧ win0_7.index t (0 : Fin 1) = t.val :=
  (by decide +kernel : ∀ t : Fin grid0.N, _)

/-- The discharge array the link stage leaves, as one function of the six operand arrays, index by index. -/
def G6 : S4194304.Idx → EReal := fun i =>
  qOf ((V c main_v28 : S4194304.Idx → EReal) i) ((V c main_v29 : S4194304.Idx → EReal) i)
    ((V c main_v30 : S4194304.Idx → EReal) i) ((V c main_v31 : S4194304.Idx → EReal) i)
    ((V c main_v35 : S4194304.Idx → EReal) i) ((V c main_v36 : S4194304.Idx → EReal) i)

/-- The dissipation array the link stage leaves, likewise. -/
def G7 : S4194304.Idx → EReal := fun i =>
  dOf ((V c main_v28 : S4194304.Idx → EReal) i) ((V c main_v29 : S4194304.Idx → EReal) i)
    ((V c main_v30 : S4194304.Idx → EReal) i) ((V c main_v31 : S4194304.Idx → EReal) i)
    ((V c main_v35 : S4194304.Idx → EReal) i) ((V c main_v36 : S4194304.Idx → EReal) i)

/-- At a grid point the blocks of any two windows of the link stage sit at the same place of their arrays. -/
theorem emb_eq (j : S262144.Idx) (w w' : Fin 1 → Nat)
    (a b : S4194304.Idx) (ha : (a 0).val = w 0 * 262144 + 1 * (j 0).val) (hb : (b 0).val = w' 0 * 262144 + 1 * (j 0).val)
    (hw : w 0 = w' 0) : a = b := by
  funext d; apply Fin.ext
  match d with
  | ⟨0, _⟩ => show (a 0).val = (b 0).val; rw [ha, hb, hw]

theorem flushed6_eq (t : Fin cfg0.N) :
    (dat0 V c).flushed 6 t = ((cfg0.win 6).blk t).view.read (Elt Ideal) (G6 V c) := by
  show (cfg0.win 6).cut (grid0.coords t) ((dat0 V c).after 6 t) = _
  rw [after0_6]
  unfold out0_6
  rw [View.canon_unit_zero hz0]
  simp only [View.ld_unit_zero (S := S262144) hz0]
  rw [pay2_eq]
  obtain ⟨e0, e1, e2, e3, e4, e5, e6, e7⟩ := idx_facts0 t
  funext j
  have h0 : ((cfg0.win 0).blk t).view.emb j = ((cfg0.win 6).blk t).view.emb j :=
    emb_eq j (win0_0.index t) (win0_6.index t) _ _ rfl rfl (e0.trans e6.symm)
  have h1 : ((cfg0.win 1).blk t).view.emb j = ((cfg0.win 6).blk t).view.emb j :=
    emb_eq j (win0_1.index t) (win0_6.index t) _ _ rfl rfl (e1.trans e6.symm)
  have h2 : ((cfg0.win 2).blk t).view.emb j = ((cfg0.win 6).blk t).view.emb j :=
    emb_eq j (win0_2.index t) (win0_6.index t) _ _ rfl rfl (e2.trans e6.symm)
  have h3 : ((cfg0.win 3).blk t).view.emb j = ((cfg0.win 6).blk t).view.emb j :=
    emb_eq j (win0_3.index t) (win0_6.index t) _ _ rfl rfl (e3.trans e6.symm)
  have h4 : ((cfg0.win 4).blk t).view.emb j = ((cfg0.win 6).blk t).view.emb j :=
    emb_eq j (win0_4.index t) (win0_6.index t) _ _ rfl rfl (e4.trans e6.symm)
  have h5 : ((cfg0.win 5).blk t).view.emb j = ((cfg0.win 6).blk t).view.emb j :=
    emb_eq j (win0_5.index t) (win0_6.index t) _ _ rfl rfl (e5.trans e6.symm)
  show qOf ((V c main_v28 : S4194304.Idx → EReal) (((cfg0.win 0).blk t).view.emb j))
      ((V c main_v29 : S4194304.Idx → EReal) (((cfg0.win 1).blk t).view.emb j))
      ((V c main_v30 : S4194304.Idx → EReal) (((cfg0.win 2).blk t).view.emb j))
      ((V c main_v31 : S4194304.Idx → EReal) (((cfg0.win 3).blk t).view.emb j))
      ((V c main_v35 : S4194304.Idx → EReal) (((cfg0.win 4).blk t).view.emb j))
      ((V c main_v36 : S4194304.Idx → EReal) (((cfg0.win 5).blk t).view.emb j))
    = G6 V c (((cfg0.win 6).blk t).view.emb j)
  rw [h0, h1, h2, h3, h4, h5]
  rfl

theorem flushed7_eq (t : Fin cfg0.N) :
    (dat0 V c).flushed 7 t = ((cfg0.win 7).blk t).view.read (Elt Ideal) (G7 V c) := by
  show (cfg0.win 7).cut (grid0.coords t) ((dat0 V c).after 7 t) = _
  rw [after0_7]
  unfold out0_7
  rw [View.canon_unit_zero hz0]
  simp only [View.ld_unit_zero (S := S262144) hz0]
  rw [pay3_eq]
  obtain ⟨e0, e1, e2, e3, e4, e5, e6, e7⟩ := idx_facts0 t
  funext j
  have h0 : ((cfg0.win 0).blk t).view.emb j = ((cfg0.win 7).blk t).view.emb j :=
    emb_eq j (win0_0.index t) (win0_7.index t) _ _ rfl rfl (e0.trans e7.symm)
  have h1 : ((cfg0.win 1).blk t).view.emb j = ((cfg0.win 7).blk t).view.emb j :=
    emb_eq j (win0_1.index t) (win0_7.index t) _ _ rfl rfl (e1.trans e7.symm)
  have h2 : ((cfg0.win 2).blk t).view.emb j = ((cfg0.win 7).blk t).view.emb j :=
    emb_eq j (win0_2.index t) (win0_7.index t) _ _ rfl rfl (e2.trans e7.symm)
  have h3 : ((cfg0.win 3).blk t).view.emb j = ((cfg0.win 7).blk t).view.emb j :=
    emb_eq j (win0_3.index t) (win0_7.index t) _ _ rfl rfl (e3.trans e7.symm)
  have h4 : ((cfg0.win 4).blk t).view.emb j = ((cfg0.win 7).blk t).view.emb j :=
    emb_eq j (win0_4.index t) (win0_7.index t) _ _ rfl rfl (e4.trans e7.symm)
  have h5 : ((cfg0.win 5).blk t).view.emb j = ((cfg0.win 7).blk t).view.emb j :=
    emb_eq j (win0_5.index t) (win0_7.index t) _ _ rfl rfl (e5.trans e7.symm)
  show dOf ((V c main_v28 : S4194304.Idx → EReal) (((cfg0.win 0).blk t).view.emb j))
      ((V c main_v29 : S4194304.Idx → EReal) (((cfg0.win 1).blk t).view.emb j))
      ((V c main_v30 : S4194304.Idx → EReal) (((cfg0.win 2).blk t).view.emb j))
      ((V c main_v31 : S4194304.Idx → EReal) (((cfg0.win 3).blk t).view.emb j))
      ((V c main_v35 : S4194304.Idx → EReal) (((cfg0.win 4).blk t).view.emb j))
      ((V c main_v36 : S4194304.Idx → EReal) (((cfg0.win 5).blk t).view.emb j))
    = G7 V c (((cfg0.win 7).blk t).view.emb j)
  rw [h0, h1, h2, h3, h4, h5]
  rfl

/-- Every index of the discharge array lies in the block of the grid point that is its quotient by the block length. -/
theorem cover6 (i : S4194304.Idx) :
    ∃ t : Fin cfg0.N, (cfg0.win 6).flush t = true ∧ i ∈ ((cfg0.win 6).blk t).view.set := by
  have hi : (i 0).val < 4194304 := (i 0).isLt
  have hN : cfg0.N = 16 := N_0
  have hq : (i 0).val / 262144 < cfg0.N := by rw [hN]; omega
  have e6 : win0_6.index ⟨(i 0).val / 262144, hq⟩ (0 : Fin 1) = (i 0).val / 262144 := (idx_facts0 ⟨_, hq⟩).2.2.2.2.2.2.1
  refine ⟨⟨(i 0).val / 262144, hq⟩, flush0_6 _, ?_⟩
  show i ∈ ((View.whole main_v37_0).slice (win0_6.rect ⟨(i 0).val / 262144, hq⟩)).set
  rw [View.set_slice_whole, Rect.mem_set_unit]
  intro a
  match a with
  | ⟨0, _⟩ =>
    show win0_6.index ⟨(i 0).val / 262144, hq⟩ (0 : Fin 1) * 262144 ≤ (i 0).val
      ∧ (i 0).val < win0_6.index ⟨(i 0).val / 262144, hq⟩ (0 : Fin 1) * 262144 + 262144
    rw [e6]; omega

/-- Every index of the dissipation array likewise. -/
theorem cover7 (i : S4194304.Idx) :
    ∃ t : Fin cfg0.N, (cfg0.win 7).flush t = true ∧ i ∈ ((cfg0.win 7).blk t).view.set := by
  have hi : (i 0).val < 4194304 := (i 0).isLt
  have hN : cfg0.N = 16 := N_0
  have hq : (i 0).val / 262144 < cfg0.N := by rw [hN]; omega
  have e7 : win0_7.index ⟨(i 0).val / 262144, hq⟩ (0 : Fin 1) = (i 0).val / 262144 := (idx_facts0 ⟨_, hq⟩).2.2.2.2.2.2.2
  refine ⟨⟨(i 0).val / 262144, hq⟩, flush0_7 _, ?_⟩
  show i ∈ ((View.whole main_v37_1).slice (win0_7.rect ⟨(i 0).val / 262144, hq⟩)).set
  rw [View.set_slice_whole, Rect.mem_set_unit]
  intro a
  match a with
  | ⟨0, _⟩ =>
    show win0_7.index ⟨(i 0).val / 262144, hq⟩ (0 : Fin 1) * 262144 ≤ (i 0).val
      ∧ (i 0).val < win0_7.index ⟨(i 0).val / 262144, hq⟩ (0 : Fin 1) * 262144 + 262144
    rw [e7]; omega

/-- The discharge array at the region's exit, whole. -/
theorem arr6_eq : ((dat0 V c).arrAt 6 cfg0.N : S4194304.Idx → EReal) = G6 V c :=
  (dat0 V c).arrAt_eq_of_cover 6 (G6 V c) (fun t _ => flushed6_eq V c t) cover6

/-- The dissipation array at the region's exit, whole. -/
theorem arr7_eq : ((dat0 V c).arrAt 7 cfg0.N : S4194304.Idx → EReal) = G7 V c :=
  (dat0 V c).arrAt_eq_of_cover 7 (G7 V c) (fun t _ => flushed7_eq V c t) cover7

end Arrays

/-- The discharge in the order the reference multiplies: the cube as the square times the size. -/
theorem qOf_eq (a b h0 h1 len re : EReal) :
    qOf a b h0 h1 len re
      = FloatOps.mulf (F := Ideal) (φ := .f32)
          (FloatOps.hostDivf (F := Ideal) (φ := .f32)
            (FloatOps.mulf (F := Ideal) (φ := .f32)
              (FloatOps.mulf (F := Ideal) (φ := .f32)
                (FloatOps.mulf (F := Ideal) (φ := .f32)
                  (FloatOps.mulf (F := Ideal) (φ := .f32) (FloatOps.ofBits .f32 0x3F000000#32) (FloatOps.addf (F := Ideal) (φ := .f32) a b))
                  (FloatOps.mulf (F := Ideal) (φ := .f32) (FloatOps.ofBits .f32 0x3F000000#32) (FloatOps.addf (F := Ideal) (φ := .f32) a b)))
                (FloatOps.mulf (F := Ideal) (φ := .f32) (FloatOps.ofBits .f32 0x3F000000#32) (FloatOps.addf (F := Ideal) (φ := .f32) a b)))
              (FloatOps.ofBits .f32 0x411CF5C3#32))
            (FloatOps.mulf (F := Ideal) (φ := .f32) (FloatOps.ofBits .f32 0x37B3E2A4#32)
              (FloatOps.addf (F := Ideal) (φ := .f32) (FloatOps.ofBits .f32 0x3F800000#32)
                (FloatOps.mulf (F := Ideal) (φ := .f32) (FloatOps.ofBits .f32 0x3A83126F#32) re))))
          (FloatOps.hostDivf (F := Ideal) (φ := .f32) (FloatOps.subf (F := Ideal) (φ := .f32) h0 h1) len) := by
  have hc : ∀ s : EReal, FloatOps.mulf (F := Ideal) (φ := .f32) s (FloatOps.mulf (F := Ideal) (φ := .f32) s s)
      = FloatOps.mulf (F := Ideal) (φ := .f32) (FloatOps.mulf (F := Ideal) (φ := .f32) s s) s := fun s => mul_comm _ _
  unfold qOf condOf gradOf
  rw [hc (meanOf a b)]
  rfl

/-- The dissipation in the reference's terms. -/
theorem dOf_eq (a b h0 h1 len re : EReal) :
    dOf a b h0 h1 len re
      = FloatOps.hostAbsf (F := Ideal) (φ := .f32) (FloatOps.mulf (F := Ideal) (φ := .f32) (qOf a b h0 h1 len re)
          (FloatOps.hostDivf (F := Ideal) (φ := .f32) (FloatOps.subf (F := Ideal) (φ := .f32) h0 h1) len)) := rfl

end Link

open Link

variable (m : (ℓ : Loc nD τ sig) → Buf (Elt Ideal) ℓ) (ρ : Dev nD → PrngReg) (c : Dev nD)

theorem arr0_6
    (h28 : ∀ l : Fin 4000000, (V1 m ρ c main_v28 : S4194304.Idx → EReal) (ix1 ⟨l.val, by have := l.isLt; omega⟩) = Cert.ReferenceIdeal.Read.val_main_v6 (F := Ideal) (A0 m c) (A8 m c) (ix1 l))
    (h29 : ∀ l : Fin 4000000, (V1 m ρ c main_v29 : S4194304.Idx → EReal) (ix1 ⟨l.val, by have := l.isLt; omega⟩) = Cert.ReferenceIdeal.Read.val_main_v13 (F := Ideal) (A0 m c) (A9 m c) (ix1 l))
    (h30 : ∀ l : Fin 4000000, (V1 m ρ c main_v30 : S4194304.Idx → EReal) (ix1 ⟨l.val, by have := l.isLt; omega⟩) = Cert.ReferenceIdeal.Read.val_main_v23 (F := Ideal) (A1 m c) (A8 m c) (ix1 l))
    (h31 : ∀ l : Fin 4000000, (V1 m ρ c main_v31 : S4194304.Idx → EReal) (ix1 ⟨l.val, by have := l.isLt; omega⟩) = Cert.ReferenceIdeal.Read.val_main_v30 (F := Ideal) (A1 m c) (A9 m c) (ix1 l))
    (h35 : ∀ l : Fin 4000000, (V1 m ρ c main_v35 : S4194304.Idx → EReal) (ix1 ⟨l.val, by have := l.isLt; omega⟩) = A6 m c (ix1 l))
    (h36 : ∀ l : Fin 4000000, (V1 m ρ c main_v36 : S4194304.Idx → EReal) (ix1 ⟨l.val, by have := l.isLt; omega⟩) = A2 m c (ix1 l))
    (l : Fin 4000000) :
    ((dat0 (V1 m ρ) c).arrAt 6 cfg0.N : S4194304.Idx → EReal) (ix1 ⟨l.val, by have := l.isLt; omega⟩) = Cert.ReferenceIdeal.Read.val_main_v44 (F := Ideal) (A0 m c) (A1 m c) (A2 m c) (A6 m c) (A8 m c) (A9 m c) (ix1 l) := by
  refine (congrFun (arr6_eq (V1 m ρ) c) _).trans ?_
  show qOf ((V1 m ρ c main_v28 : S4194304.Idx → EReal) _) ((V1 m ρ c main_v29 : S4194304.Idx → EReal) _)
      ((V1 m ρ c main_v30 : S4194304.Idx → EReal) _) ((V1 m ρ c main_v31 : S4194304.Idx → EReal) _)
      ((V1 m ρ c main_v35 : S4194304.Idx → EReal) _) ((V1 m ρ c main_v36 : S4194304.Idx → EReal) _) = _
  rw [h28 l, h29 l, h30 l, h31 l, h35 l, h36 l, qOf_eq]
  simp only [
    Cert.ReferenceIdeal.Read.val_main_v44_apply, Cert.ReferenceIdeal.Read.val_main_v43_apply,
    Cert.ReferenceIdeal.Read.val_main_v42_apply, Cert.ReferenceIdeal.Read.val_main_v41_apply,
    Cert.ReferenceIdeal.Read.val_main_cst_10_apply, Cert.ReferenceIdeal.Read.val_main_v40_apply,
    Cert.ReferenceIdeal.Read.val_main_v39_apply, Cert.ReferenceIdeal.Read.val_main_cst_9_apply,
    Cert.ReferenceIdeal.Read.val_main_v38_apply, Cert.ReferenceIdeal.Read.val_main_v37_apply,
    Cert.ReferenceIdeal.Read.val_main_cst_8_apply, Cert.ReferenceIdeal.Read.val_main_v36_apply,
    Cert.ReferenceIdeal.Read.val_main_v35_apply, Cert.ReferenceIdeal.Read.val_main_cst_7_apply,
    Cert.ReferenceIdeal.Read.val_main_v34_apply, Cert.ReferenceIdeal.Read.val_main_v33_apply,
    Cert.ReferenceIdeal.Read.val_main_v16_apply, Cert.ReferenceIdeal.Read.val_main_v15_apply,
    Cert.ReferenceIdeal.Read.val_main_cst_apply, Cert.ReferenceIdeal.Read.val_main_v14_apply,
    Cert.ReferenceIdeal.Read.val_main_v32_apply, Cert.ReferenceIdeal.Read.val_main_v31_apply]

theorem arr0_7
    (h28 : ∀ l : Fin 4000000, (V1 m ρ c main_v28 : S4194304.Idx → EReal) (ix1 ⟨l.val, by have := l.isLt; omega⟩) = Cert.ReferenceIdeal.Read.val_main_v6 (F := Ideal) (A0 m c) (A8 m c) (ix1 l))
    (h29 : ∀ l : Fin 4000000, (V1 m ρ c main_v29 : S4194304.Idx → EReal) (ix1 ⟨l.val, by have := l.isLt; omega⟩) = Cert.ReferenceIdeal.Read.val_main_v13 (F := Ideal) (A0 m c) (A9 m c) (ix1 l))
    (h30 : ∀ l : Fin 4000000, (V1 m ρ c main_v30 : S4194304.Idx → EReal) (ix1 ⟨l.val, by have := l.isLt; omega⟩) = Cert.ReferenceIdeal.Read.val_main_v23 (F := Ideal) (A1 m c) (A8 m c) (ix1 l))
    (h31 : ∀ l : Fin 4000000, (V1 m ρ c main_v31 : S4194304.Idx → EReal) (ix1 ⟨l.val, by have := l.isLt; omega⟩) = Cert.ReferenceIdeal.Read.val_main_v30 (F := Ideal) (A1 m c) (A9 m c) (ix1 l))
    (h35 : ∀ l : Fin 4000000, (V1 m ρ c main_v35 : S4194304.Idx → EReal) (ix1 ⟨l.val, by have := l.isLt; omega⟩) = A6 m c (ix1 l))
    (h36 : ∀ l : Fin 4000000, (V1 m ρ c main_v36 : S4194304.Idx → EReal) (ix1 ⟨l.val, by have := l.isLt; omega⟩) = A2 m c (ix1 l))
    (l : Fin 4000000) :
    ((dat0 (V1 m ρ) c).arrAt 7 cfg0.N : S4194304.Idx → EReal) (ix1 ⟨l.val, by have := l.isLt; omega⟩) = Cert.ReferenceIdeal.Read.val_main_v57 (F := Ideal) (A0 m c) (A1 m c) (A2 m c) (A6 m c) (A8 m c) (A9 m c) (ix1 l) := by
  refine (congrFun (arr7_eq (V1 m ρ) c) _).trans ?_
  show dOf ((V1 m ρ c main_v28 : S4194304.Idx → EReal) _) ((V1 m ρ c main_v29 : S4194304.Idx → EReal) _)
      ((V1 m ρ c main_v30 : S4194304.Idx → EReal) _) ((V1 m ρ c main_v31 : S4194304.Idx → EReal) _)
      ((V1 m ρ c main_v35 : S4194304.Idx → EReal) _) ((V1 m ρ c main_v36 : S4194304.Idx → EReal) _) = _
  rw [h28 l, h29 l, h30 l, h31 l, h35 l, h36 l, dOf_eq, qOf_eq]
  simp only [
    Cert.ReferenceIdeal.Read.val_main_v57_apply, Cert.ReferenceIdeal.Read.val_main_v56_apply,
    Cert.ReferenceIdeal.Read.val_main_v44_apply, Cert.ReferenceIdeal.Read.val_main_v43_apply,
    Cert.ReferenceIdeal.Read.val_main_v42_apply, Cert.ReferenceIdeal.Read.val_main_v41_apply,
    Cert.ReferenceIdeal.Read.val_main_cst_10_apply, Cert.ReferenceIdeal.Read.val_main_v40_apply,
    Cert.ReferenceIdeal.Read.val_main_v39_apply, Cert.ReferenceIdeal.Read.val_main_cst_9_apply,
    Cert.ReferenceIdeal.Read.val_main_v38_apply, Cert.ReferenceIdeal.Read.val_main_v37_apply,
    Cert.ReferenceIdeal.Read.val_main_cst_8_apply, Cert.ReferenceIdeal.Read.val_main_v36_apply,
    Cert.ReferenceIdeal.Read.val_main_v35_apply, Cert.ReferenceIdeal.Read.val_main_cst_7_apply,
    Cert.ReferenceIdeal.Read.val_main_v34_apply, Cert.ReferenceIdeal.Read.val_main_v33_apply,
    Cert.ReferenceIdeal.Read.val_main_v16_apply, Cert.ReferenceIdeal.Read.val_main_v15_apply,
    Cert.ReferenceIdeal.Read.val_main_cst_apply, Cert.ReferenceIdeal.Read.val_main_v14_apply,
    Cert.ReferenceIdeal.Read.val_main_v32_apply, Cert.ReferenceIdeal.Read.val_main_v31_apply]

end Cert.KernelIdeal.Val

end
-- ==== Proof.KIValB.lean ====
/-
  The node stage's operand arrays, as the host operations between the two regions leave them, read at a node
  index: row k of the stacked, padded column gathers of the discharge (of the dissipation) at node n is the
  reference's gather at (n, k). Both read the link array at the number the links-at-node table holds at (n, k),
  normalised (a negative number counts from the end) and clamped into the array: the kernel takes the table one
  column at a time and stacks the six results as rows, the reference takes it whole.
-/
import proofs.«417076_j8899172237900_1_alg».proof.Proof.KIRun
import proofs.«417076_j8899172237900_1_alg».proof.Proof.KIArgs
import proofs.«417076_j8899172237900_1_alg».proof.Proof.KIKept
import Idealize.ShloMosaic.Lib.ValueIdx
import Idealize.ShloMosaic.Lib.ValueLayout
import Idealize.ShloMosaic.Lib.Pipeline.Value
import Idealize.ShloMosaic.Lib.Pipeline.Frame
import Idealize.ShloMosaic.Lib.StableHlo.Run
import Idealize.ShloMosaic.Lib.StableHlo.Predicate
import Idealize.ShloMosaic.Lib.KernelVsHost
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx Idealize.ShloMosaic.StableHlo

/-! ## Shape operations read at an entry -/

/-- A rank-1 index from its coordinate, in the two spellings. -/
theorem ix1_eq_ofFin {n : Nat} (p : Fin n) : (ix1 p : (⟨1, ![n]⟩ : Shape).Idx) = Shape.Idx.ofFin p := by
  funext d; match d with | ⟨0, _⟩ => rfl

/-- One column of a table of link numbers, normalised (a negative number counts from the end) and used to take
    entries of a vector: entry `n` of the result is the vector at the normalised, clamped number in row `n` of
    that column. -/
theorem col_take_apply {α : Type} {N R C : Nat} (hN : 0 < N)
    (d : GatherDims ⟨1, ![N]⟩ ⟨2, ![R, 1]⟩ ⟨1, ![R]⟩)
    (hcoll : d.collapsedSliceDims = [0]) (hob : d.operandBatchingDims = [])
    (hsim : d.startIndexMap = [0]) (hivd : d.indexVectorDim = 1)
    (x : (⟨1, ![N]⟩ : Shape).Idx → α) (a : IVec ⟨2, ![R, C]⟩ 32) (o : Nat) (ho : o < C)
    (hs : (⟨2, ![R, C]⟩ : Shape).Slices ![0, o] ⟨2, ![R, 1]⟩)
    (hc : (⟨2, ![R, 1]⟩ : Shape).ShapeCasts ⟨1, ![R]⟩)
    (hb0 : (⟨0, ![]⟩ : Shape).BroadcastsInDim ⟨1, ![R]⟩ ![])
    (hb1 : (⟨1, ![R]⟩ : Shape).BroadcastsInDim ⟨2, ![R, 1]⟩ ![0])
    (z M : BitVec 32) (n : Fin R) :
    Host.gather d x
      (broadcastInDim ⟨2, ![R, 1]⟩ ![0] hb1
        (select (cmpi .slt (shapeCast ⟨1, ![R]⟩ (extractStridedSlice ⟨2, ![R, 1]⟩ ![0, o] a hs) hc)
                    (broadcastInDim ⟨1, ![R]⟩ ![] hb0 (constantI ⟨0, ![]⟩ 32 z)))
          (addi (shapeCast ⟨1, ![R]⟩ (extractStridedSlice ⟨2, ![R, 1]⟩ ![0, o] a hs) hc)
                    (broadcastInDim ⟨1, ![R]⟩ ![] hb0 (constantI ⟨0, ![]⟩ 32 M)))
          (shapeCast ⟨1, ![R]⟩ (extractStridedSlice ⟨2, ![R, 1]⟩ ![0, o] a hs) hc))) (ix1 n)
    = x (ix1 ⟨min (Scalar.select (IntOp.cmpi .slt (a (ix2 n ⟨o, ho⟩)) z) (IntOp.addi (a (ix2 n ⟨o, ho⟩)) M)
          (a (ix2 n ⟨o, ho⟩))).toInt.toNat (N - 1), by omega⟩) := by
  have hv : shapeCast ⟨1, ![R]⟩ (extractStridedSlice ⟨2, ![R, 1]⟩ ![0, o] a hs) hc (Shape.Idx.ofFin n) = a (ix2 n ⟨o, ho⟩) := by
    refine (shapeCast_apply _ hc (Shape.Idx.ofFin n) (ix2 n (0 : Fin 1)) ?_).trans ?_
    · rw [Shape.rowMajor_val_two, Shape.rowMajor_val_one]
      show n.val * 1 + 0 = n.val
      omega
    · exact extractStridedSlice_apply _ a hs _ _ (fun ax => by
        match ax with
        | ⟨0, _⟩ => exact (Nat.zero_add _).symm
        | ⟨1, _⟩ => rfl)
  have hidx : broadcastInDim ⟨2, ![R, 1]⟩ ![0] hb1
        (select (cmpi .slt (shapeCast ⟨1, ![R]⟩ (extractStridedSlice ⟨2, ![R, 1]⟩ ![0, o] a hs) hc)
                    (broadcastInDim ⟨1, ![R]⟩ ![] hb0 (constantI ⟨0, ![]⟩ 32 z)))
          (addi (shapeCast ⟨1, ![R]⟩ (extractStridedSlice ⟨2, ![R, 1]⟩ ![0, o] a hs) hc)
                    (broadcastInDim ⟨1, ![R]⟩ ![] hb0 (constantI ⟨0, ![]⟩ 32 M)))
          (shapeCast ⟨1, ![R]⟩ (extractStridedSlice ⟨2, ![R, 1]⟩ ![0, o] a hs) hc)) (Predicate.ixP n)
      = Scalar.select (IntOp.cmpi .slt (a (ix2 n ⟨o, ho⟩)) z) (IntOp.addi (a (ix2 n ⟨o, ho⟩)) M) (a (ix2 n ⟨o, ho⟩)) := by
    rw [Predicate.bcast_col1 hb1 _ n]
    show Scalar.select (IntOp.cmpi .slt (shapeCast ⟨1, ![R]⟩ (extractStridedSlice ⟨2, ![R, 1]⟩ ![0, o] a hs) hc (Shape.Idx.ofFin n)) z)
      (IntOp.addi (shapeCast ⟨1, ![R]⟩ (extractStridedSlice ⟨2, ![R, 1]⟩ ![0, o] a hs) hc (Shape.Idx.ofFin n)) M)
      (shapeCast ⟨1, ![R]⟩ (extractStridedSlice ⟨2, ![R, 1]⟩ ![0, o] a hs) hc (Shape.Idx.ofFin n)) = _
    rw [hv]
  rw [ix1_eq_ofFin, Predicate.gather_take d hcoll hob hsim hivd x _ n hN, ← ix1_eq_ofFin]
  simp only [hidx]

/-- Six vectors laid as the six rows of a matrix, then padded on the right: entry `(k, n)` inside the unpadded part
    is entry `n` of vector `k`. -/
theorem stack6_pad_apply {α : Type} {M P : Nat} (hi : Fin 2 → Nat)
    (hp : (⟨2, ![6, M]⟩ : Shape).Pads ![0, 0] hi ![0, 0] ⟨2, ![6, P]⟩)
    (hc : Shape.Concatenates [(⟨2, ![1, M]⟩ : Shape), ⟨2, ![1, M]⟩, ⟨2, ![1, M]⟩, ⟨2, ![1, M]⟩, ⟨2, ![1, M]⟩, ⟨2, ![1, M]⟩] ⟨2, ![6, M]⟩ 0)
    (hb : (⟨1, ![M]⟩ : Shape).BroadcastsInDim ⟨2, ![1, M]⟩ ![1])
    {u : Shape} (v : u.Idx → α) (hu : 0 < u.numel)
    (g0 g1 g2 g3 g4 g5 : (⟨1, ![M]⟩ : Shape).Idx → α) (k : Fin 6) (n : Fin M) (n' : Fin P) (hn : n'.val = n.val) :
    pad ⟨2, ![6, P]⟩ ![0, 0] hi ![0, 0]
      (concatenate ⟨2, ![6, M]⟩ 0
        [⟨⟨2, ![1, M]⟩, broadcastInDim ⟨2, ![1, M]⟩ ![1] hb g0⟩, ⟨⟨2, ![1, M]⟩, broadcastInDim ⟨2, ![1, M]⟩ ![1] hb g1⟩,
         ⟨⟨2, ![1, M]⟩, broadcastInDim ⟨2, ![1, M]⟩ ![1] hb g2⟩, ⟨⟨2, ![1, M]⟩, broadcastInDim ⟨2, ![1, M]⟩ ![1] hb g3⟩,
         ⟨⟨2, ![1, M]⟩, broadcastInDim ⟨2, ![1, M]⟩ ![1] hb g4⟩, ⟨⟨2, ![1, M]⟩, broadcastInDim ⟨2, ![1, M]⟩ ![1] hb g5⟩] hc) v hp hu (ix2 k n')
    = (![g0, g1, g2, g3, g4, g5] k) (ix1 n) := by
  refine (pad_apply_of_inside _ _ _ _ v hp hu (ix2 k n') (ix2 k n) (fun ax => by
    match ax with
    | ⟨0, _⟩ => show k.val = 0 + k.val * (0 + 1); omega
    | ⟨1, _⟩ => show n'.val = 0 + n.val * (0 + 1); omega)).trans ?_
  have hrow : ∀ (g : (⟨1, ![M]⟩ : Shape).Idx → α), broadcastInDim ⟨2, ![1, M]⟩ ![1] hb g (ix2 (0 : Fin 1) n) = g (ix1 n) := fun g =>
    broadcastInDim_apply _ hb g _ _ (fun ax => by
      match ax with
      | ⟨0, _⟩ =>
        show n.val = if M = 1 then 0 else n.val
        split
        · next h => have := n.isLt; omega
        · rfl)
  match k with
  | ⟨0, hk⟩ => exact (concatenate_apply_piece (t := ⟨2, ![6, M]⟩) 0
        [⟨⟨2, ![1, M]⟩, broadcastInDim ⟨2, ![1, M]⟩ ![1] hb g0⟩, ⟨⟨2, ![1, M]⟩, broadcastInDim ⟨2, ![1, M]⟩ ![1] hb g1⟩,
         ⟨⟨2, ![1, M]⟩, broadcastInDim ⟨2, ![1, M]⟩ ![1] hb g2⟩, ⟨⟨2, ![1, M]⟩, broadcastInDim ⟨2, ![1, M]⟩ ![1] hb g3⟩,
         ⟨⟨2, ![1, M]⟩, broadcastInDim ⟨2, ![1, M]⟩ ![1] hb g4⟩, ⟨⟨2, ![1, M]⟩, broadcastInDim ⟨2, ![1, M]⟩ ![1] hb g5⟩]
        hc (ix2 ⟨0, hk⟩ n) 0 (by show 0 < 6; omega) ⟨2, ![1, M]⟩ (broadcastInDim ⟨2, ![1, M]⟩ ![1] hb g0) rfl rfl 0 rfl (ix2 (0 : Fin 1) n) (fun b hb' => by
      match b with
      | ⟨0, _⟩ => exact absurd rfl hb'
      | ⟨1, _⟩ => rfl) rfl).trans (hrow g0)
  | ⟨1, hk⟩ => exact (concatenate_apply_piece (t := ⟨2, ![6, M]⟩) 0
        [⟨⟨2, ![1, M]⟩, broadcastInDim ⟨2, ![1, M]⟩ ![1] hb g0⟩, ⟨⟨2, ![1, M]⟩, broadcastInDim ⟨2, ![1, M]⟩ ![1] hb g1⟩,
         ⟨⟨2, ![1, M]⟩, broadcastInDim ⟨2, ![1, M]⟩ ![1] hb g2⟩, ⟨⟨2, ![1, M]⟩, broadcastInDim ⟨2, ![1, M]⟩ ![1] hb g3⟩,
         ⟨⟨2, ![1, M]⟩, broadcastInDim ⟨2, ![1, M]⟩ ![1] hb g4⟩, ⟨⟨2, ![1, M]⟩, broadcastInDim ⟨2, ![1, M]⟩ ![1] hb g5⟩]
        hc (ix2 ⟨1, hk⟩ n) 1 (by show 1 < 6; omega) ⟨2, ![1, M]⟩ (broadcastInDim ⟨2, ![1, M]⟩ ![1] hb g1) rfl rfl 1 rfl (ix2 (0 : Fin 1) n) (fun b hb' => by
      match b with
      | ⟨0, _⟩ => exact absurd rfl hb'
      | ⟨1, _⟩ => rfl) rfl).trans (hrow g1)
  | ⟨2, hk⟩ => exact (concatenate_apply_piece (t := ⟨2, ![6, M]⟩) 0
        [⟨⟨2, ![1, M]⟩, broadcastInDim ⟨2, ![1, M]⟩ ![1] hb g0⟩, ⟨⟨2, ![1, M]⟩, broadcastInDim ⟨2, ![1, M]⟩ ![1] hb g1⟩,
         ⟨⟨2, ![1, M]⟩, broadcastInDim ⟨2, ![1, M]⟩ ![1] hb g2⟩, ⟨⟨2, ![1, M]⟩, broadcastInDim ⟨2, ![1, M]⟩ ![1] hb g3⟩,
         ⟨⟨2, ![1, M]⟩, broadcastInDim ⟨2, ![1, M]⟩ ![1] hb g4⟩, ⟨⟨2, ![1, M]⟩, broadcastInDim ⟨2, ![1, M]⟩ ![1] hb g5⟩]
        hc (ix2 ⟨2, hk⟩ n) 2 (by show 2 < 6; omega) ⟨2, ![1, M]⟩ (broadcastInDim ⟨2, ![1, M]⟩ ![1] hb g2) rfl rfl 2 rfl (ix2 (0 : Fin 1) n) (fun b hb' => by
      match b with
      | ⟨0, _⟩ => exact absurd rfl hb'
      | ⟨1, _⟩ => rfl) rfl).trans (hrow g2)
  | ⟨3, hk⟩ => exact (concatenate_apply_piece (t := ⟨2, ![6, M]⟩) 0
        [⟨⟨2, ![1, M]⟩, broadcastInDim ⟨2, ![1, M]⟩ ![1] hb g0⟩, ⟨⟨2, ![1, M]⟩, broadcastInDim ⟨2, ![1, M]⟩ ![1] hb g1⟩,
         ⟨⟨2, ![1, M]⟩, broadcastInDim ⟨2, ![1, M]⟩ ![1] hb g2⟩, ⟨⟨2, ![1, M]⟩, broadcastInDim ⟨2, ![1, M]⟩ ![1] hb g3⟩,
         ⟨⟨2, ![1, M]⟩, broadcastInDim ⟨2, ![1, M]⟩ ![1] hb g4⟩, ⟨⟨2, ![1, M]⟩, broadcastInDim ⟨2, ![1, M]⟩ ![1] hb g5⟩]
        hc (ix2 ⟨3, hk⟩ n) 3 (by show 3 < 6; omega) ⟨2, ![1, M]⟩ (broadcastInDim ⟨2, ![1, M]⟩ ![1] hb g3) rfl rfl 3 rfl (ix2 (0 : Fin 1) n) (fun b hb' => by
      match b with
      | ⟨0, _⟩ => exact absurd rfl hb'
      | ⟨1, _⟩ => rfl) rfl).trans (hrow g3)
  | ⟨4, hk⟩ => exact (concatenate_apply_piece (t := ⟨2, ![6, M]⟩) 0
        [⟨⟨2, ![1, M]⟩, broadcastInDim ⟨2, ![1, M]⟩ ![1] hb g0⟩, ⟨⟨2, ![1, M]⟩, broadcastInDim ⟨2, ![1, M]⟩ ![1] hb g1⟩,
         ⟨⟨2, ![1, M]⟩, broadcastInDim ⟨2, ![1, M]⟩ ![1] hb g2⟩, ⟨⟨2, ![1, M]⟩, broadcastInDim ⟨2, ![1, M]⟩ ![1] hb g3⟩,
         ⟨⟨2, ![1, M]⟩, broadcastInDim ⟨2, ![1, M]⟩ ![1] hb g4⟩, ⟨⟨2, ![1, M]⟩, broadcastInDim ⟨2, ![1, M]⟩ ![1] hb g5⟩]
        hc (ix2 ⟨4, hk⟩ n) 4 (by show 4 < 6; omega) ⟨2, ![1, M]⟩ (broadcastInDim ⟨2, ![1, M]⟩ ![1] hb g4) rfl rfl 4 rfl (ix2 (0 : Fin 1) n) (fun b hb' => by
      match b with
      | ⟨0, _⟩ => exact absurd rfl hb'
      | ⟨1, _⟩ => rfl) rfl).trans (hrow g4)
  | ⟨5, hk⟩ => exact (concatenate_apply_piece (t := ⟨2, ![6, M]⟩) 0
        [⟨⟨2, ![1, M]⟩, broadcastInDim ⟨2, ![1, M]⟩ ![1] hb g0⟩, ⟨⟨2, ![1, M]⟩, broadcastInDim ⟨2, ![1, M]⟩ ![1] hb g1⟩,
         ⟨⟨2, ![1, M]⟩, broadcastInDim ⟨2, ![1, M]⟩ ![1] hb g2⟩, ⟨⟨2, ![1, M]⟩, broadcastInDim ⟨2, ![1, M]⟩ ![1] hb g3⟩,
         ⟨⟨2, ![1, M]⟩, broadcastInDim ⟨2, ![1, M]⟩ ![1] hb g4⟩, ⟨⟨2, ![1, M]⟩, broadcastInDim ⟨2, ![1, M]⟩ ![1] hb g5⟩]
        hc (ix2 ⟨5, hk⟩ n) 5 (by show 5 < 6; omega) ⟨2, ![1, M]⟩ (broadcastInDim ⟨2, ![1, M]⟩ ![1] hb g5) rfl rfl 5 rfl (ix2 (0 : Fin 1) n) (fun b hb' => by
      match b with
      | ⟨0, _⟩ => exact absurd rfl hb'
      | ⟨1, _⟩ => rfl) rfl).trans (hrow g5)

/-- A table of link numbers, normalised (a negative number counts from the end) and used to take entries of a vector:
    entry `(n, k)` of the result is the vector at the normalised, clamped number at `(n, k)`. -/
theorem norm_take_apply {α : Type} {N R C : Nat} (hN : 0 < N)
    (wf : GatherDims.WF ⟨1, ![N]⟩ ⟨3, ![R, C, 1]⟩ ⟨2, ![R, C]⟩ [] [0] [] [0] [] 2 ![1])
    (y : (⟨1, ![N]⟩ : Shape).Idx → α) (a : IVec ⟨2, ![R, C]⟩ 32)
    (hb0 : (⟨0, ![]⟩ : Shape).BroadcastsInDim ⟨2, ![R, C]⟩ ![])
    (hb3 : (⟨2, ![R, C]⟩ : Shape).BroadcastsInDim ⟨3, ![R, C, 1]⟩ ![0, 1])
    (z M : BitVec 32) (n : Fin R) (k : Fin C) :
    Host.gather (takeDims N R C wf) y
      (broadcastInDim ⟨3, ![R, C, 1]⟩ ![0, 1] hb3
        (select (cmpi .slt a (broadcastInDim ⟨2, ![R, C]⟩ ![] hb0 (constantI ⟨0, ![]⟩ 32 z)))
          (addi a (broadcastInDim ⟨2, ![R, C]⟩ ![] hb0 (constantI ⟨0, ![]⟩ 32 M))) a)) (ix2 n k)
    = y (ix1 ⟨min (Scalar.select (IntOp.cmpi .slt (a (ix2 n k)) z) (IntOp.addi (a (ix2 n k)) M) (a (ix2 n k))).toInt.toNat (N - 1), by omega⟩) := by
  have hidx : broadcastInDim ⟨3, ![R, C, 1]⟩ ![0, 1] hb3
        (select (cmpi .slt a (broadcastInDim ⟨2, ![R, C]⟩ ![] hb0 (constantI ⟨0, ![]⟩ 32 z)))
          (addi a (broadcastInDim ⟨2, ![R, C]⟩ ![] hb0 (constantI ⟨0, ![]⟩ 32 M))) a) (takeIdx (ix2 n k))
      = Scalar.select (IntOp.cmpi .slt (a (ix2 n k)) z) (IntOp.addi (a (ix2 n k)) M) (a (ix2 n k)) :=
    (broadcastInDim_apply _ hb3 _ _ (ix2 n k) (fun ax => by
      match ax with
      | ⟨0, _⟩ =>
        show n.val = if R = 1 then 0 else n.val
        split
        · next h => have := n.isLt; omega
        · rfl
      | ⟨1, _⟩ =>
        show k.val = if C = 1 then 0 else k.val
        split
        · next h => have := k.isLt; omega
        · rfl)).trans rfl
  rw [gather_take_apply hN wf y _ (ix2 n k)]
  simp only [hidx]

section Nary6
variable {τ : Topo} {sig : RefSig} {Val : EltTy → Type} {x0 x1 x2 x3 x4 x5 y : Ref sig .tc}

/-- The result of an operation over a literal family of six references: its function at the six operands' contents,
    each read at its own reference. -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5)) (fun i => i.elim0))))))) := by
  rw [nary_result]; congr 1; funext k; fin_cases k <;> rfl
end Nary6

/-! ## Reading the host operations' results -/

section Read

variable {F : FTy → Type} [FloatOps F] [Named F]

macro "after_results6" : tactic =>
  `(tactic| (simp only [after_cons, after_nil]
             repeat (first
               | rw [nullary_result] | rw [unary_result] | rw [binary_result] | rw [ternary_result]
               | rw [reshape_result] | rw [nary6_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

macro "after_simp" : tactic =>
  `(tactic| simp (disch := decide) only [after_cons, after_nil,
      nullary_result', unary_result', binary_result', ternary_result', reshape_result',
      nullary_result_ne', unary_result_ne', binary_result_ne', ternary_result_ne', reshape_result_ne', nary_result_ne'])

/-- One column of the links-at-node table as start indices (normalised: a negative number counts from the end), and
    the entries of a link array taken at them. -/
def gcol (q : (⟨S4194304, .f32⟩ : BufTy).Contents (Elt F)) (a : (⟨S2000000x6, .i32⟩ : BufTy).Contents (Elt F))
    (o : Nat) (hs : S2000000x6.Slices ![0, o] S2000000x1) : (⟨S2000000, .f32⟩ : BufTy).Contents (Elt F) :=
  Host.gather gather_S4000000_S2000000x1_S2000000_n_0_n_n_0_1_1
    (extractStridedSlice S4000000 ![0] q slices_S4194304_S4000000_0)
    (broadcastInDim S2000000x1 ![0] bcast_S2000000_S2000000x1_0
      (select
        (cmpi .slt (shapeCast S2000000 (extractStridedSlice S2000000x1 ![0, o] a hs) shapeCasts_S2000000x1_S2000000)
          (broadcastInDim S2000000 ![] bcast_S_S2000000 (constantI S_ 32 0#32)))
        (addi (shapeCast S2000000 (extractStridedSlice S2000000x1 ![0, o] a hs) shapeCasts_S2000000x1_S2000000)
          (broadcastInDim S2000000 ![] bcast_S_S2000000 (constantI S_ 32 4000000#32)))
        (shapeCast S2000000 (extractStridedSlice S2000000x1 ![0, o] a hs) shapeCasts_S2000000x1_S2000000)))

/-- The six column gathers of a link array as the rows of a matrix, padded to the node stage's width. -/
def stackOf (q : (⟨S4194304, .f32⟩ : BufTy).Contents (Elt F)) (a : (⟨S2000000x6, .i32⟩ : BufTy).Contents (Elt F)) :
    (⟨S6x2031616, .f32⟩ : BufTy).Contents (Elt F) :=
  pad S6x2031616 ![0, 0] ![0, 31616] ![0, 0]
    (concatenate S6x2000000 0
      [⟨S1x2000000, broadcastInDim S1x2000000 ![1] bcast_S2000000_S1x2000000_1 (gcol q a 0 slices_S2000000x6_S2000000x1_0_0)⟩,
       ⟨S1x2000000, broadcastInDim S1x2000000 ![1] bcast_S2000000_S1x2000000_1 (gcol q a 1 slices_S2000000x6_S2000000x1_0_1)⟩,
       ⟨S1x2000000, broadcastInDim S1x2000000 ![1] bcast_S2000000_S1x2000000_1 (gcol q a 2 slices_S2000000x6_S2000000x1_0_2)⟩,
       ⟨S1x2000000, broadcastInDim S1x2000000 ![1] bcast_S2000000_S1x2000000_1 (gcol q a 3 slices_S2000000x6_S2000000x1_0_3)⟩,
       ⟨S1x2000000, broadcastInDim S1x2000000 ![1] bcast_S2000000_S1x2000000_1 (gcol q a 4 slices_S2000000x6_S2000000x1_0_4)⟩,
       ⟨S1x2000000, broadcastInDim S1x2000000 ![1] bcast_S2000000_S1x2000000_1 (gcol q a 5 slices_S2000000x6_S2000000x1_0_5)⟩]
      concatenates_S1x2000000_S1x2000000_S1x2000000_S1x2000000_S1x2000000_S1x2000000_S6x2000000_d0)
    (sitofp .f32 (constantI S_ 32 0#32)) pads_S6x2000000_S6x2031616_000_0316160 h_S_

/-- The host operations between the regions up to the last column gather. -/
abbrev preB : List (HloOp τ sig (Elt F)) := (hostOps1 : List (HloOp τ sig (Elt F))).take 134
/-- The rest of them: the rows, the stacking, the padding. -/
abbrev postB : List (HloOp τ sig (Elt F)) :=
  (hostOps1 : List (HloOp τ sig (Elt F))).drop 134 ++ List.flatten [hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19]

theorem opsB_split : (opsB : List (HloOp τ sig (Elt F))) = preB ++ postB := by
  show List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19]
    = List.take 134 hostOps1 ++ (List.drop 134 hostOps1 ++ List.flatten [hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19])
  rw [List.flatten_cons, ← List.append_assoc, List.take_append_drop]

set_option maxHeartbeats 4000000 in
/-- After the column gathers, each gathered column of the discharge is the column function of the region's discharge array and the table. -/
theorem pre_cols_q (V : Valuation τ sig (Elt F)) :
    StableHlo.after (preB : List (HloOp τ sig (Elt F))) V (Proc.devRef .tc main_v48)
        = gcol (V (Proc.devRef .tc main_v37_0)) (V (Proc.devRef .tc main_arg10)) 0 slices_S2000000x6_S2000000x1_0_0 ∧
    StableHlo.after (preB : List (HloOp τ sig (Elt F))) V (Proc.devRef .tc main_v57)
        = gcol (V (Proc.devRef .tc main_v37_0)) (V (Proc.devRef .tc main_arg10)) 1 slices_S2000000x6_S2000000x1_0_1 ∧
    StableHlo.after (preB : List (HloOp τ sig (Elt F))) V (Proc.devRef .tc main_v66)
        = gcol (V (Proc.devRef .tc main_v37_0)) (V (Proc.devRef .tc main_arg10)) 2 slices_S2000000x6_S2000000x1_0_2 ∧
    StableHlo.after (preB : List (HloOp τ sig (Elt F))) V (Proc.devRef .tc main_v75)
        = gcol (V (Proc.devRef .tc main_v37_0)) (V (Proc.devRef .tc main_arg10)) 3 slices_S2000000x6_S2000000x1_0_3 ∧
    StableHlo.after (preB : List (HloOp τ sig (Elt F))) V (Proc.devRef .tc main_v84)
        = gcol (V (Proc.devRef .tc main_v37_0)) (V (Proc.devRef .tc main_arg10)) 4 slices_S2000000x6_S2000000x1_0_4 ∧
    StableHlo.after (preB : List (HloOp τ sig (Elt F))) V (Proc.devRef .tc main_v93)
        = gcol (V (Proc.devRef .tc main_v37_0)) (V (Proc.devRef .tc main_arg10)) 5 slices_S2000000x6_S2000000x1_0_5 := by
  simp only [preB, hostOps1, List.take_succ_cons, List.take_zero]
  after_simp
  exact ⟨rfl, rfl, rfl, rfl, rfl, rfl⟩

set_option maxHeartbeats 4000000 in
/-- The same for the dissipation. -/
theorem pre_cols_e (V : Valuation τ sig (Elt F)) :
    StableHlo.after (preB : List (HloOp τ sig (Elt F))) V (Proc.devRef .tc main_v102)
        = gcol (V (Proc.devRef .tc main_v37_1)) (V (Proc.devRef .tc main_arg10)) 0 slices_S2000000x6_S2000000x1_0_0 ∧
    StableHlo.after (preB : List (HloOp τ sig (Elt F))) V (Proc.devRef .tc main_v111)
        = gcol (V (Proc.devRef .tc main_v37_1)) (V (Proc.devRef .tc main_arg10)) 1 slices_S2000000x6_S2000000x1_0_1 ∧
    StableHlo.after (preB : List (HloOp τ sig (Elt F))) V (Proc.devRef .tc main_v120)
        = gcol (V (Proc.devRef .tc main_v37_1)) (V (Proc.devRef .tc main_arg10)) 2 slices_S2000000x6_S2000000x1_0_2 ∧
    StableHlo.after (preB : List (HloOp τ sig (Elt F))) V (Proc.devRef .tc main_v129)
        = gcol (V (Proc.devRef .tc main_v37_1)) (V (Proc.devRef .tc main_arg10)) 3 slices_S2000000x6_S2000000x1_0_3 ∧
    StableHlo.after (preB : List (HloOp τ sig (Elt F))) V (Proc.devRef .tc main_v138)
        = gcol (V (Proc.devRef .tc main_v37_1)) (V (Proc.devRef .tc main_arg10)) 4 slices_S2000000x6_S2000000x1_0_4 ∧
    StableHlo.after (preB : List (HloOp τ sig (Elt F))) V (Proc.devRef .tc main_v147)
        = gcol (V (Proc.devRef .tc main_v37_1)) (V (Proc.devRef .tc main_arg10)) 5 slices_S2000000x6_S2000000x1_0_5 := by
  simp only [preB, hostOps1, List.take_succ_cons, List.take_zero]
  after_simp
  exact ⟨rfl, rfl, rfl, rfl, rfl, rfl⟩

set_option maxHeartbeats 4000000 in
/-- The stacked, padded discharge rows in terms of the gathered columns. -/
theorem post_v164 (X : Valuation τ sig (Elt F)) :
    StableHlo.after (postB : List (HloOp τ sig (Elt F))) X (Proc.devRef .tc main_v164)
      = pad S6x2031616 ![0, 0] ![0, 31616] ![0, 0]
          (concatenate S6x2000000 0
            [⟨S1x2000000, broadcastInDim S1x2000000 ![1] bcast_S2000000_S1x2000000_1 (X (Proc.devRef .tc main_v48))⟩,
             ⟨S1x2000000, broadcastInDim S1x2000000 ![1] bcast_S2000000_S1x2000000_1 (X (Proc.devRef .tc main_v57))⟩,
             ⟨S1x2000000, broadcastInDim S1x2000000 ![1] bcast_S2000000_S1x2000000_1 (X (Proc.devRef .tc main_v66))⟩,
             ⟨S1x2000000, broadcastInDim S1x2000000 ![1] bcast_S2000000_S1x2000000_1 (X (Proc.devRef .tc main_v75))⟩,
             ⟨S1x2000000, broadcastInDim S1x2000000 ![1] bcast_S2000000_S1x2000000_1 (X (Proc.devRef .tc main_v84))⟩,
             ⟨S1x2000000, broadcastInDim S1x2000000 ![1] bcast_S2000000_S1x2000000_1 (X (Proc.devRef .tc main_v93))⟩]
            concatenates_S1x2000000_S1x2000000_S1x2000000_S1x2000000_S1x2000000_S1x2000000_S6x2000000_d0)
          (sitofp .f32 (constantI S_ 32 0#32)) pads_S6x2000000_S6x2031616_000_0316160 h_S_ := by
  simp only [postB, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, List.drop_succ_cons, List.drop_zero,
    List.flatten_cons, List.flatten_nil, List.append_nil, List.cons_append, List.nil_append]
  after_results6
  rfl

set_option maxHeartbeats 4000000 in
/-- The stacked, padded dissipation rows in terms of the gathered columns. -/
theorem post_v165 (X : Valuation τ sig (Elt F)) :
    StableHlo.after (postB : List (HloOp τ sig (Elt F))) X (Proc.devRef .tc main_v165)
      = pad S6x2031616 ![0, 0] ![0, 31616] ![0, 0]
          (concatenate S6x2000000 0
            [⟨S1x2000000, broadcastInDim S1x2000000 ![1] bcast_S2000000_S1x2000000_1 (X (Proc.devRef .tc main_v102))⟩,
             ⟨S1x2000000, broadcastInDim S1x2000000 ![1] bcast_S2000000_S1x2000000_1 (X (Proc.devRef .tc main_v111))⟩,
             ⟨S1x2000000, broadcastInDim S1x2000000 ![1] bcast_S2000000_S1x2000000_1 (X (Proc.devRef .tc main_v120))⟩,
             ⟨S1x2000000, broadcastInDim S1x2000000 ![1] bcast_S2000000_S1x2000000_1 (X (Proc.devRef .tc main_v129))⟩,
             ⟨S1x2000000, broadcastInDim S1x2000000 ![1] bcast_S2000000_S1x2000000_1 (X (Proc.devRef .tc main_v138))⟩,
             ⟨S1x2000000, broadcastInDim S1x2000000 ![1] bcast_S2000000_S1x2000000_1 (X (Proc.devRef .tc main_v147))⟩]
            concatenates_S1x2000000_S1x2000000_S1x2000000_S1x2000000_S1x2000000_S1x2000000_S6x2000000_d0)
          (sitofp .f32 (constantI S_ 32 0#32)) pads_S6x2000000_S6x2031616_000_0316160 h_S_ := by
  simp only [postB, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, List.drop_succ_cons, List.drop_zero,
    List.flatten_cons, List.flatten_nil, List.append_nil, List.cons_append, List.nil_append]
  after_results6
  rfl

theorem read_v164 (V : Valuation τ sig (Elt F)) :
    StableHlo.after (opsB : List (HloOp τ sig (Elt F))) V (Proc.devRef .tc main_v164)
      = stackOf (V (Proc.devRef .tc main_v37_0)) (V (Proc.devRef .tc main_arg10)) := by
  obtain ⟨h0, h1, h2, h3, h4, h5⟩ := pre_cols_q (F := F) V
  rw [opsB_split, StableHlo.after_append, post_v164, h0, h1, h2, h3, h4, h5]
  rfl

theorem read_v165 (V : Valuation τ sig (Elt F)) :
    StableHlo.after (opsB : List (HloOp τ sig (Elt F))) V (Proc.devRef .tc main_v165)
      = stackOf (V (Proc.devRef .tc main_v37_1)) (V (Proc.devRef .tc main_arg10)) := by
  obtain ⟨h0, h1, h2, h3, h4, h5⟩ := pre_cols_e (F := F) V
  rw [opsB_split, StableHlo.after_append, post_v165, h0, h1, h2, h3, h4, h5]
  rfl

end Read

/-! ## The stacked rows read at an entry -/

/-- A link number normalised: a negative one counts from the end. -/
abbrev nrm (w : BitVec 32) : BitVec 32 := Scalar.select (IntOp.cmpi .slt w 0#32) (IntOp.addi w 4000000#32) w

theorem gcol_apply (q : (⟨S4194304, .f32⟩ : BufTy).Contents (Elt Ideal)) (a : (⟨S2000000x6, .i32⟩ : BufTy).Contents (Elt Ideal))
    (o : Nat) (ho : o < 6) (hs : S2000000x6.Slices ![0, o] S2000000x1) (n : Fin 2000000) :
    (gcol q a o hs : S2000000.Idx → EReal) (ix1 n)
      = (q : S4194304.Idx → EReal) (ix1 ⟨min (nrm ((a : IVec S2000000x6 32) (ix2 n ⟨o, ho⟩))).toInt.toNat (4000000 - 1), by omega⟩) := by
  unfold gcol
  refine (col_take_apply (N := 4000000) (R := 2000000) (C := 6) (by decide) gather_S4000000_S2000000x1_S2000000_n_0_n_n_0_1_1
    rfl rfl rfl rfl _ a o ho hs shapeCasts_S2000000x1_S2000000 bcast_S_S2000000 bcast_S2000000_S2000000x1_0
    0#32 4000000#32 n).trans ?_
  exact extractStridedSlice_apply _ q slices_S4194304_S4000000_0 _ _ (fun ax => by
    match ax with
    | ⟨0, _⟩ => exact (Nat.zero_add _).symm)

theorem stackOf_apply (q : (⟨S4194304, .f32⟩ : BufTy).Contents (Elt Ideal)) (a : (⟨S2000000x6, .i32⟩ : BufTy).Contents (Elt Ideal))
    (k : Fin 6) (n : Fin 2000000) :
    (stackOf q a : S6x2031616.Idx → EReal) (ix2 k ⟨n.val, by have := n.isLt; omega⟩)
      = (q : S4194304.Idx → EReal) (ix1 ⟨min (nrm ((a : IVec S2000000x6 32) (ix2 n k))).toInt.toNat (4000000 - 1), by omega⟩) := by
  unfold stackOf
  refine (stack6_pad_apply (M := 2000000) (P := 2031616) ![0, 31616] pads_S6x2000000_S6x2031616_000_0316160
    concatenates_S1x2000000_S1x2000000_S1x2000000_S1x2000000_S1x2000000_S1x2000000_S6x2000000_d0 bcast_S2000000_S1x2000000_1 _ h_S_
    _ _ _ _ _ _ k n ⟨n.val, by have := n.isLt; omega⟩ rfl).trans ?_
  match k with
  | ⟨0, hk⟩ => exact gcol_apply q a 0 hk slices_S2000000x6_S2000000x1_0_0 n
  | ⟨1, hk⟩ => exact gcol_apply q a 1 hk slices_S2000000x6_S2000000x1_0_1 n
  | ⟨2, hk⟩ => exact gcol_apply q a 2 hk slices_S2000000x6_S2000000x1_0_2 n
  | ⟨3, hk⟩ => exact gcol_apply q a 3 hk slices_S2000000x6_S2000000x1_0_3 n
  | ⟨4, hk⟩ => exact gcol_apply q a 4 hk slices_S2000000x6_S2000000x1_0_4 n
  | ⟨5, hk⟩ => exact gcol_apply q a 5 hk slices_S2000000x6_S2000000x1_0_5 n

/-! ## The reference's gathers read at an entry -/

theorem ref_take_q (y : (⟨Cert.ReferenceIdeal.S4000000, .f32⟩ : BufTy).Contents (Elt Ideal))
    (x10 : (⟨Cert.ReferenceIdeal.S2000000x6, .i32⟩ : BufTy).Contents (Elt Ideal)) (n : Fin 2000000) (k : Fin 6) :
    (Host.gather Cert.ReferenceIdeal.gather_S4000000_S2000000x6x1_S2000000x6_n_0_n_n_0_2_1 y
        (Cert.ReferenceIdeal.Read.val_main_v50 (F := Ideal) x10) : Cert.ReferenceIdeal.S2000000x6.Idx → EReal) (ix2 n k)
      = (y : Cert.ReferenceIdeal.S4000000.Idx → EReal) (ix1 ⟨min (nrm ((x10 : IVec Cert.ReferenceIdeal.S2000000x6 32) (ix2 n k))).toInt.toNat (4000000 - 1), by omega⟩) :=
  norm_take_apply (by decide) _ y x10 _ _ 0#32 4000000#32 n k

theorem ref_take_e (y : (⟨Cert.ReferenceIdeal.S4000000, .f32⟩ : BufTy).Contents (Elt Ideal))
    (x10 : (⟨Cert.ReferenceIdeal.S2000000x6, .i32⟩ : BufTy).Contents (Elt Ideal)) (n : Fin 2000000) (k : Fin 6) :
    (Host.gather Cert.ReferenceIdeal.gather_S4000000_S2000000x6x1_S2000000x6_n_0_n_n_0_2_1 y
        (Cert.ReferenceIdeal.Read.val_main_v63 (F := Ideal) x10) : Cert.ReferenceIdeal.S2000000x6.Idx → EReal) (ix2 n k)
      = (y : Cert.ReferenceIdeal.S4000000.Idx → EReal) (ix1 ⟨min (nrm ((x10 : IVec Cert.ReferenceIdeal.S2000000x6 32) (ix2 n k))).toInt.toNat (4000000 - 1), by omega⟩) :=
  norm_take_apply (by decide) _ y x10 _ _ 0#32 4000000#32 n k

/-! ## The node stage's stacked rows -/

variable (m : (ℓ : Loc nD τ sig) → Buf (Elt Ideal) ℓ) (ρ : Dev nD → PrngReg) (c : Dev nD)

theorem V3_v164 (hq : ∀ l : Fin 4000000, (V2 m ρ c main_v37_0 : S4194304.Idx → EReal) (ix1 ⟨l.val, by have := l.isLt; omega⟩) = Cert.ReferenceIdeal.Read.val_main_v44 (F := Ideal) (A0 m c) (A1 m c) (A2 m c) (A6 m c) (A8 m c) (A9 m c) (ix1 l))
    (k : Fin 6) (n : Fin 2000000) : (V3 m ρ c main_v164 : S6x2031616.Idx → EReal) (ix2 k ⟨n.val, by have := n.isLt; omega⟩) = Cert.ReferenceIdeal.Read.val_main_v51 (F := Ideal) (A0 m c) (A1 m c) (A2 m c) (A6 m c) (A8 m c) (A9 m c) (A10 m c) (ix2 n k) := by
  have hl : min (nrm ((A10 m c : IVec S2000000x6 32) (ix2 n k))).toInt.toNat (4000000 - 1) < 4000000 := by omega
  have hread : W3 m ρ c (Proc.devRef .tc main_v164) = stackOf (W2 m ρ c (Proc.devRef .tc main_v37_0)) (A10 m c) := by
    show StableHlo.after opsB (W2 m ρ c) (Proc.devRef .tc main_v164) = _
    rw [read_v164, W2_arg10]
  show (W3 m ρ c (Proc.devRef .tc main_v164) : S6x2031616.Idx → EReal) (ix2 k ⟨n.val, _⟩) = _
  rw [hread, stackOf_apply]
  exact (hq ⟨_, hl⟩).trans (ref_take_q (Cert.ReferenceIdeal.Read.val_main_v44 (F := Ideal) (A0 m c) (A1 m c) (A2 m c) (A6 m c) (A8 m c) (A9 m c)) (A10 m c) n k).symm
theorem V3_v165 (he : ∀ l : Fin 4000000, (V2 m ρ c main_v37_1 : S4194304.Idx → EReal) (ix1 ⟨l.val, by have := l.isLt; omega⟩) = Cert.ReferenceIdeal.Read.val_main_v57 (F := Ideal) (A0 m c) (A1 m c) (A2 m c) (A6 m c) (A8 m c) (A9 m c) (ix1 l))
    (k : Fin 6) (n : Fin 2000000) : (V3 m ρ c main_v165 : S6x2031616.Idx → EReal) (ix2 k ⟨n.val, by have := n.isLt; omega⟩) = Cert.ReferenceIdeal.Read.val_main_v64 (F := Ideal) (A0 m c) (A1 m c) (A2 m c) (A6 m c) (A8 m c) (A9 m c) (A10 m c) (ix2 n k) := by
  have hl : min (nrm ((A10 m c : IVec S2000000x6 32) (ix2 n k))).toInt.toNat (4000000 - 1) < 4000000 := by omega
  have hread : W3 m ρ c (Proc.devRef .tc main_v165) = stackOf (W2 m ρ c (Proc.devRef .tc main_v37_1)) (A10 m c) := by
    show StableHlo.after opsB (W2 m ρ c) (Proc.devRef .tc main_v165) = _
    rw [read_v165, W2_arg10]
  show (W3 m ρ c (Proc.devRef .tc main_v165) : S6x2031616.Idx → EReal) (ix2 k ⟨n.val, _⟩) = _
  rw [hread, stackOf_apply]
  exact (he ⟨_, hl⟩).trans (ref_take_e (Cert.ReferenceIdeal.Read.val_main_v57 (F := Ideal) (A0 m c) (A1 m c) (A2 m c) (A6 m c) (A8 m c) (A9 m c)) (A10 m c) n k).symm
end Cert.KernelIdeal.Val

end
-- ==== Proof.KIValB2.lean ====
/-
  The node stage's six rank-one operand arrays, as the host operations between the two regions leave them,
  read at a node index: the padded and guarded area is the area where that is not zero; the other padded
  arrays are the arguments.
-/
import proofs.«417076_j8899172237900_1_alg».proof.Proof.KIRun
import proofs.«417076_j8899172237900_1_alg».proof.Proof.KIArgs
import proofs.«417076_j8899172237900_1_alg».proof.Proof.KIKept
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run
import Idealize.ShloMosaic.Lib.StableHlo.Predicate
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

/-! ## The host operations between the regions, from any contents

Each of the six arrays is written once, by a pad of an argument with zeros at the high end (and, for the area,
the guard "replace a zero by one" after it); no operation of the stretch writes an argument. So from any contents
`V` the array is that expression over `V` at the argument, and below the argument's length it reads the argument. -/

namespace B2

/-- A rank-one array padded at its high end, read below the operand's length, is the operand there. -/
theorem pad_hi_apply {α : Type} {N M hi : Nat} (x : (⟨1, ![N]⟩ : Shape).Idx → α) {u : Shape} (v : u.Idx → α)
    (h : (⟨1, ![N]⟩ : Shape).Pads (![0] : Fin 1 → Nat) ![hi] ![0] ⟨1, ![M]⟩) (hu : 0 < u.numel) (n : Fin N) (hn : n.val < M) :
    pad (⟨1, ![M]⟩ : Shape) ![0] ![hi] ![0] x v h hu (ix1 ⟨n.val, hn⟩) = x (ix1 n) :=
  pad_apply_of_inside _ _ _ x v h hu _ (ix1 n) (by
    intro a
    obtain rfl : a = 0 := Subsingleton.elim _ _
    show n.val = 0 + n.val * (0 + 1)
    omega)

/-- "Replace a zero by one" leaves an entry that is not zero: the comparison with zero is false there, and the
    select takes the entry. -/
theorem guard_apply {s : Shape} (P Z O : FVec Ideal s .f32) (j : s.Idx) (hZ : Z j = 0) (hP : P j ≠ 0) :
    select (cmpf .oeq P Z) O P j = P j := by
  rw [select_apply, cmpf_apply, Ideal.cmpf_def]
  unfold Ideal.cmp
  simp only [hZ, hP, decide_false, BitVec.ofBool_false]
  exact select_zero _ _

variable (V : Valuation τ sig (Elt Ideal))

set_option maxHeartbeats 4000000 in
/-- From any contents `V`, the host operations between the regions leave at `main_v171` the geothermal heat flux (argument 5, read from `V`) padded with zeros. -/
theorem after_v171_arr : (StableHlo.after opsB V (Proc.devRef .tc main_v171) : S2031616.Idx → EReal)
    = @pad S2000000 EReal S2031616 ![0] ![31616] ![0] (V (Proc.devRef .tc main_arg5)) S_ (sitofp (F := Ideal) .f32 (constantI S_ 32 0#32)) pads_S2000000_S2031616_0316160 h_S_ := by
  simp only [opsB, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, List.flatten_cons, List.flatten_nil, List.append_nil, List.cons_append, List.nil_append]
  after_results
  rfl
/-- … so below the argument's length it is the argument. -/
theorem after_v171 (n : Fin 2000000) : (StableHlo.after opsB V (Proc.devRef .tc main_v171) : S2031616.Idx → EReal) (ix1 ⟨n.val, by have := n.isLt; omega⟩)
    = (V (Proc.devRef .tc main_arg5) : S2000000.Idx → EReal) (ix1 n) := by
  rw [after_v171_arr]
  exact pad_hi_apply _ _ _ _ n _

set_option maxHeartbeats 4000000 in
/-- From any contents `V`, the host operations between the regions leave at `main_v172` the ice thickness (argument 3, read from `V`) padded with zeros. -/
theorem after_v172_arr : (StableHlo.after opsB V (Proc.devRef .tc main_v172) : S2031616.Idx → EReal)
    = @pad S2000000 EReal S2031616 ![0] ![31616] ![0] (V (Proc.devRef .tc main_arg3)) S_ (sitofp (F := Ideal) .f32 (constantI S_ 32 0#32)) pads_S2000000_S2031616_0316160 h_S_ := by
  simp only [opsB, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, List.flatten_cons, List.flatten_nil, List.append_nil, List.cons_append, List.nil_append]
  after_results
  rfl
/-- … so below the argument's length it is the argument. -/
theorem after_v172 (n : Fin 2000000) : (StableHlo.after opsB V (Proc.devRef .tc main_v172) : S2031616.Idx → EReal) (ix1 ⟨n.val, by have := n.isLt; omega⟩)
    = (V (Proc.devRef .tc main_arg3) : S2000000.Idx → EReal) (ix1 n) := by
  rw [after_v172_arr]
  exact pad_hi_apply _ _ _ _ n _

set_option maxHeartbeats 4000000 in
/-- From any contents `V`, the host operations between the regions leave at `main_v173` the bedrock elevation (argument 4, read from `V`) padded with zeros. -/
theorem after_v173_arr : (StableHlo.after opsB V (Proc.devRef .tc main_v173) : S2031616.Idx → EReal)
    = @pad S2000000 EReal S2031616 ![0] ![31616] ![0] (V (Proc.devRef .tc main_arg4)) S_ (sitofp (F := Ideal) .f32 (constantI S_ 32 0#32)) pads_S2000000_S2031616_0316160 h_S_ := by
  simp only [opsB, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, List.flatten_cons, List.flatten_nil, List.append_nil, List.cons_append, List.nil_append]
  after_results
  rfl
/-- … so below the argument's length it is the argument. -/
theorem after_v173 (n : Fin 2000000) : (StableHlo.after opsB V (Proc.devRef .tc main_v173) : S2031616.Idx → EReal) (ix1 ⟨n.val, by have := n.isLt; omega⟩)
    = (V (Proc.devRef .tc main_arg4) : S2000000.Idx → EReal) (ix1 n) := by
  rw [after_v173_arr]
  exact pad_hi_apply _ _ _ _ n _

set_option maxHeartbeats 4000000 in
/-- From any contents `V`, the host operations between the regions leave at `main_v174` the hydraulic head (argument 1, read from `V`) padded with zeros. -/
theorem after_v174_arr : (StableHlo.after opsB V (Proc.devRef .tc main_v174) : S2031616.Idx → EReal)
    = @pad S2000000 EReal S2031616 ![0] ![31616] ![0] (V (Proc.devRef .tc main_arg1)) S_ (sitofp (F := Ideal) .f32 (constantI S_ 32 0#32)) pads_S2000000_S2031616_0316160 h_S_ := by
  simp only [opsB, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, List.flatten_cons, List.flatten_nil, List.append_nil, List.cons_append, List.nil_append]
  after_results
  rfl
/-- … so below the argument's length it is the argument. -/
theorem after_v174 (n : Fin 2000000) : (StableHlo.after opsB V (Proc.devRef .tc main_v174) : S2031616.Idx → EReal) (ix1 ⟨n.val, by have := n.isLt; omega⟩)
    = (V (Proc.devRef .tc main_arg1) : S2000000.Idx → EReal) (ix1 n) := by
  rw [after_v174_arr]
  exact pad_hi_apply _ _ _ _ n _

set_option maxHeartbeats 4000000 in
/-- From any contents `V`, the host operations between the regions leave at `main_v175` the conduit size (argument 0, read from `V`) padded with zeros. -/
theorem after_v175_arr : (StableHlo.after opsB V (Proc.devRef .tc main_v175) : S2031616.Idx → EReal)
    = @pad S2000000 EReal S2031616 ![0] ![31616] ![0] (V (Proc.devRef .tc main_arg0)) S_ (sitofp (F := Ideal) .f32 (constantI S_ 32 0#32)) pads_S2000000_S2031616_0316160 h_S_ := by
  simp only [opsB, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, List.flatten_cons, List.flatten_nil, List.append_nil, List.cons_append, List.nil_append]
  after_results
  rfl
/-- … so below the argument's length it is the argument. -/
theorem after_v175 (n : Fin 2000000) : (StableHlo.after opsB V (Proc.devRef .tc main_v175) : S2031616.Idx → EReal) (ix1 ⟨n.val, by have := n.isLt; omega⟩)
    = (V (Proc.devRef .tc main_arg0) : S2000000.Idx → EReal) (ix1 n) := by
  rw [after_v175_arr]
  exact pad_hi_apply _ _ _ _ n _

set_option maxHeartbeats 4000000 in
/-- From any contents `V`, the host operations between the regions leave at `main_v170` the node area (argument 7,
    read from `V`) padded with zeros, with one in place of every zero. -/
theorem after_v170_arr : (StableHlo.after opsB V (Proc.devRef .tc main_v170) : S2031616.Idx → EReal)
    = select (cmpf .oeq
          (@pad S2000000 EReal S2031616 ![0] ![31616] ![0] (V (Proc.devRef .tc main_arg7)) S_ (sitofp (F := Ideal) .f32 (constantI S_ 32 0#32)) pads_S2000000_S2031616_0316160 h_S_ : FVec Ideal S2031616 .f32)
          (broadcastInDim S2031616 ![] bcast_S_S2031616 (constant (F := Ideal) S_ .f32 0x00000000#32)))
        (broadcastInDim S2031616 ![] bcast_S_S2031616 (id (constant (F := Ideal) S_ .f32 0x3F800000#32)))
        (@pad S2000000 EReal S2031616 ![0] ![31616] ![0] (V (Proc.devRef .tc main_arg7)) S_ (sitofp (F := Ideal) .f32 (constantI S_ 32 0#32)) pads_S2000000_S2031616_0316160 h_S_) := by
  simp only [opsB, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, List.flatten_cons, List.flatten_nil, List.append_nil, List.cons_append, List.nil_append]
  after_results
  rfl
/-- … so below the argument's length, where the area is not zero, it is the area. -/
theorem after_v170 (hV : ∀ i, (V (Proc.devRef .tc main_arg7) : S2000000.Idx → EReal) i ≠ (0 : EReal)) (n : Fin 2000000) :
    (StableHlo.after opsB V (Proc.devRef .tc main_v170) : S2031616.Idx → EReal) (ix1 ⟨n.val, by have := n.isLt; omega⟩)
    = (V (Proc.devRef .tc main_arg7) : S2000000.Idx → EReal) (ix1 n) := by
  rw [after_v170_arr]
  have hp := pad_hi_apply (V (Proc.devRef .tc main_arg7) : S2000000.Idx → EReal) (sitofp (F := Ideal) .f32 (constantI S_ 32 0#32)) pads_S2000000_S2031616_0316160 h_S_ n (by have := n.isLt; omega)
  refine (guard_apply _ _ _ _ Ideal.ofBits_zero_f32 ?_).trans hp
  rw [hp]; exact hV _

end B2

/-! ## At the node stage's entry

The stretch runs from the link stage's exit contents, where every argument still holds its launch contents. -/

variable (m : (ℓ : Loc nD τ sig) → Buf (Elt Ideal) ℓ) (ρ : Dev nD → PrngReg) (c : Dev nD)

theorem V3_v170 (harea : ∀ i, A7 m c i ≠ (0 : EReal)) (n : Fin 2000000) : (V3 m ρ c main_v170 : S2031616.Idx → EReal) (ix1 ⟨n.val, by have := n.isLt; omega⟩) = A7 m c (ix1 n) := by
  have h := B2.after_v170 (W2 m ρ c) (by rw [W2_arg7]; exact harea) n
  rw [W2_arg7] at h
  exact h
theorem V3_v171 (n : Fin 2000000) : (V3 m ρ c main_v171 : S2031616.Idx → EReal) (ix1 ⟨n.val, by have := n.isLt; omega⟩) = A5 m c (ix1 n) := by
  have h := B2.after_v171 (W2 m ρ c) n
  rw [W2_arg5] at h
  exact h
theorem V3_v172 (n : Fin 2000000) : (V3 m ρ c main_v172 : S2031616.Idx → EReal) (ix1 ⟨n.val, by have := n.isLt; omega⟩) = A3 m c (ix1 n) := by
  have h := B2.after_v172 (W2 m ρ c) n
  rw [W2_arg3] at h
  exact h
theorem V3_v173 (n : Fin 2000000) : (V3 m ρ c main_v173 : S2031616.Idx → EReal) (ix1 ⟨n.val, by have := n.isLt; omega⟩) = A4 m c (ix1 n) := by
  have h := B2.after_v173 (W2 m ρ c) n
  rw [W2_arg4] at h
  exact h
theorem V3_v174 (n : Fin 2000000) : (V3 m ρ c main_v174 : S2031616.Idx → EReal) (ix1 ⟨n.val, by have := n.isLt; omega⟩) = A1 m c (ix1 n) := by
  have h := B2.after_v174 (W2 m ρ c) n
  rw [W2_arg1] at h
  exact h
theorem V3_v175 (n : Fin 2000000) : (V3 m ρ c main_v175 : S2031616.Idx → EReal) (ix1 ⟨n.val, by have := n.isLt; omega⟩) = A0 m c (ix1 n) := by
  have h := B2.after_v175 (W2 m ρ c) n
  rw [W2_arg0] at h
  exact h

end Cert.KernelIdeal.Val

end
-- ==== Proof.KIValB3.lean ====
/-
  The node stage's direction rows, as the host operations between the two regions leave them, read at a node
  index: row k of the converted, transposed and padded directions at node n is the converted direction (n, k).
-/
import proofs.«417076_j8899172237900_1_alg».proof.Proof.KIRun
import proofs.«417076_j8899172237900_1_alg».proof.Proof.KIArgs
import proofs.«417076_j8899172237900_1_alg».proof.Proof.KIKept
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.KernelVsHost
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-- A [2000000, 6] array of words converted to floats, transposed to [6, 2000000] and padded on the right to
    2031616 columns reads, at row `k` and a column `n` below 2000000, the converted word at `(n, k)`: the index is
    inside the padded operand, and the transpose swaps the two coordinates. -/
theorem pad_transpose_sitofp_apply (x : (⟨S2000000x6, .i32⟩ : BufTy).Contents (Elt Ideal)) (v : (⟨S_, .f32⟩ : BufTy).Contents (Elt Ideal))
    (k : Fin 6) (n : Fin 2000000) :
    (pad S6x2031616 ![0, 0] ![0, 31616] ![0, 0]
        (transpose S6x2000000 [1, 0] (sitofp (F := Ideal) .f32 x : (⟨S2000000x6, .f32⟩ : BufTy).Contents (Elt Ideal)) transposes_S2000000x6_S6x2000000_1_0)
        v pads_S6x2000000_S6x2031616_000_0316160 h_S_ : S6x2031616.Idx → EReal)
      (ix2 k ⟨n.val, by have := n.isLt; omega⟩) = FloatOps.sitofp (F := Ideal) .f32 (x (ix2 n k)) := by
  refine (pad_apply_of_inside _ _ _ _ _ pads_S6x2000000_S6x2031616_000_0316160 h_S_ _ (ix2 k n) fun a => ?_).trans ?_
  · match a with
    | ⟨0, _⟩ => show k.val = 0 + k.val * (0 + 1); omega
    | ⟨1, _⟩ => show n.val = 0 + n.val * (0 + 1); omega
  · exact transpose_ix2_apply _ transposes_S2000000x6_S6x2000000_1_0 k n

set_option maxHeartbeats 8000000 in
/-- The direction rows after the host operations between the two regions, from any contents `W` before them: the
    direction argument's words converted, transposed and padded with the converted zero word. No later operation
    of the stretch writes the rows, and none before the conversion writes the argument. -/
theorem after_opsB_v166 (W : Valuation τ sig (Elt Ideal)) :
    (StableHlo.after (opsB (F := Ideal)) W (Proc.devRef .tc main_v166) : S6x2031616.Idx → EReal)
      = pad S6x2031616 ![0, 0] ![0, 31616] ![0, 0]
          (transpose S6x2000000 [1, 0] (sitofp (F := Ideal) .f32 (W (Proc.devRef .tc main_arg11) : (⟨S2000000x6, .i32⟩ : BufTy).Contents (Elt Ideal)) : (⟨S2000000x6, .f32⟩ : BufTy).Contents (Elt Ideal)) transposes_S2000000x6_S6x2000000_1_0)
          (sitofp (F := Ideal) .f32 (constantI S_ 32 0#32) : (⟨S_, .f32⟩ : BufTy).Contents (Elt Ideal)) pads_S6x2000000_S6x2031616_000_0316160 h_S_ := by
  simp only [opsB, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, List.flatten_cons, List.flatten_nil, List.append_nil, List.cons_append, List.nil_append]
  after_results
  rfl

theorem V3_v166 (k : Fin 6) (n : Fin 2000000) : (V3 m ρ c main_v166 : S6x2031616.Idx → EReal) (ix2 k ⟨n.val, by have := n.isLt; omega⟩) = Cert.ReferenceIdeal.Read.val_main_v52 (F := Ideal) (A11 m c) (ix2 n k) := by
  refine (congrFun (after_opsB_v166 (W2 m ρ c)) _).trans ?_
  rw [W2_arg11 m ρ c]
  exact (pad_transpose_sitofp_apply (A11 m c) _ k n).trans
    (Cert.ReferenceIdeal.Read.val_main_v52_apply (F := Ideal) (A11 m c) (ix2 n k)).symm

end Cert.KernelIdeal.Val

end
-- ==== Proof.KIVal1.lean ====
/-
  The node stage's two result arrays at its region's exit, read at a node index: the new conduit size and the
  flux divergence the reference computes for that node, given what the nine operand arrays hold there.
-/
import proofs.«417076_j8899172237900_1_alg».proof.Proof.KIRun
import proofs.«417076_j8899172237900_1_alg».proof.Proof.KIArgs
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

namespace Node

/-! ## The two constants that differ between the programs

The kernel multiplies the sum of a node's six dissipation values by the named reciprocal of six; the reference divides
it by the literal 6.0. Every other literal is the same pattern on both sides and is never evaluated. -/

/-- The pattern of `6.0` denotes the real six. -/
theorem ofBits_six : Ideal.ofBits .f32 0x40C00000#32 = ((6 : ℝ) : EReal) := by
  simp [Ideal.ofBits, Ideal.ieee, -EReal.coe_mul]; norm_num

/-- The quotient by `6.0` is the product with one sixth, on every extended real. -/
theorem div_six (x : EReal) : Ideal.div x (Ideal.ofBits .f32 0x40C00000#32) = x * ((1 / 6 : ℝ) : EReal) := by
  rw [ofBits_six]; exact Ideal.div_coe (by norm_num) x

/-- The kernel's named reciprocal denotes one sixth. -/
theorem inv_6 : Named.named (F := Ideal) Cert.KernelIdeal.κ "inv_6" (φ := .f32) 0x3E2AAAAB#32 = ((1 / 6 : ℝ) : EReal) :=
  IdealRules.named_const.ideal_named_scalar _ _ _ _ rfl

/-! ## The node step on scalars -/

/-- The melt term of a node: from the mean `μ` of its links' dissipation and its geothermal flux `g`. -/
def meltS (μ g : EReal) : EReal :=
  Ideal.div (g + Ideal.ofBits .f32 0x46194800#32 * μ) (Ideal.ofBits .f32 0x48A31600#32) * Ideal.ofBits .f32 0xB8BDD18D#32

/-- The creep closure coefficient of a node: the signed cube of the effective pressure, from the ice thickness, the head
    and the bedrock elevation. -/
def creepS (ice head bed : EReal) : EReal :=
  Ideal.ofBits .f32 0x18E81D1F#32
      * ((Ideal.ofBits .f32 0x460C8F14#32 * ice - Ideal.ofBits .f32 0x46194800#32 * (head - bed))
        * (Ideal.ofBits .f32 0x460C8F14#32 * ice - Ideal.ofBits .f32 0x46194800#32 * (head - bed)))
    * (Ideal.ofBits .f32 0x460C8F14#32 * ice - Ideal.ofBits .f32 0x46194800#32 * (head - bed))

/-- The first slope of the classical fourth-order step of `dS/dt = mt - cc * S`. -/
def rkA (mt cc S : EReal) : EReal := mt - cc * S
/-- The second slope. -/
def rkB (mt cc S : EReal) : EReal :=
  mt - cc * (S + Ideal.div (rkA mt cc S * Ideal.ofBits .f32 0x3C23D70A#32) (Ideal.ofBits .f32 0x40000000#32))
/-- The third slope. -/
def rkC (mt cc S : EReal) : EReal :=
  mt - cc * (S + Ideal.div (rkB mt cc S * Ideal.ofBits .f32 0x3C23D70A#32) (Ideal.ofBits .f32 0x40000000#32))
/-- The fourth slope. -/
def rkD (mt cc S : EReal) : EReal :=
  mt - cc * (S + rkC mt cc S * Ideal.ofBits .f32 0x3C23D70A#32)
/-- The new size: the old one plus the step times the weighted mean of the four slopes. -/
def rk4S (mt cc S : EReal) : EReal :=
  S + Ideal.div (Ideal.ofBits .f32 0x3C23D70A#32
      * (rkA mt cc S + Ideal.ofBits .f32 0x40000000#32 * rkB mt cc S + Ideal.ofBits .f32 0x40000000#32 * rkC mt cc S + rkD mt cc S))
    (Ideal.ofBits .f32 0x40C00000#32)

/-- The flux divergence of a node from the sum of its signed link discharges and its area. -/
def fluxS (σ area : EReal) : EReal := Ideal.div σ area

/-! ## The body's payloads read at an index -/

/-- The sum over the six rows of a block, at a lane. -/
theorem lane_sum (v : FVec Ideal S6x65536 .f32) (h : S6x65536.Reduces [0] S65536) (hφ : FKind.Formats .f32)
    (hacc : (0x00000000#32 : BitVec 32) = 0x00000000#32) (q : Fin 65536) :
    multiReduction .add [0] S65536 v 0x00000000#32 h hφ hacc (ix1 q) = ∑ k : Fin 6, v (ix2 k q) := by
  refine (Ideal.multiReduction_add_single v 0x00000000#32 h hφ hacc (ix1 q)).trans ?_
  refine Finset.sum_congr rfl fun k _ => congrArg v ?_
  funext a; match a with | ⟨0, _⟩ => rfl | ⟨1, _⟩ => rfl

/-- The flux divergence payload: the lane sum of direction times discharge, over the area. -/
theorem pay2_apply (x0 x2 : Vec Ideal S6x65536 .f32) (x3 : Vec Ideal S65536 .f32) (q : Fin 65536) :
    k1_pay2 (F := Ideal) x0 x2 x3 (ix1 q) = fluxS (∑ k : Fin 6, x2 (ix2 k q) * x0 (ix2 k q)) (x3 (ix1 q)) := by
  unfold k1_pay2
  simp only [shapeCast_self, divf_apply]
  exact congrArg (fun σ => Ideal.div σ (x3 (ix1 q))) (lane_sum (mulf x2 x0) _ _ _ q)

/-- The melt payload: the lane sum of the dissipation times one sixth, then the melt term with the geothermal flux. -/
theorem pay3_apply (x1 : Vec Ideal S6x65536 .f32) (x4 : Vec Ideal S65536 .f32) (q : Fin 65536) :
    k1_pay3 (F := Ideal) x1 x4 (ix1 q) = meltS ((∑ k : Fin 6, x1 (ix2 k q)) * ((1 / 6 : ℝ) : EReal)) (x4 (ix1 q)) := by
  unfold k1_pay3
  simp only [shapeCast_self, mulf_apply, addf_apply, divf_apply, broadcast_apply, inv_6]
  exact congrArg (fun σ => meltS (σ * ((1 / 6 : ℝ) : EReal)) (x4 (ix1 q))) (lane_sum x1 _ _ _ q)

/-- The creep payload is pointwise. -/
theorem pay4_apply (x5 x7 x6 : Vec Ideal S65536 .f32) (i : S65536.Idx) :
    k1_pay4 (F := Ideal) x5 x7 x6 i = creepS (x5 i) (x7 i) (x6 i) := by
  unfold k1_pay4
  simp only [shapeCast_self]
  rfl

/-- The fourth-order step payload is pointwise. -/
theorem pay1_apply (v22 v38 : FVec Ideal S65536 .f32) (v39 : Vec Ideal S65536 .f32) (i : S65536.Idx) :
    k1_pay1 (F := Ideal) v22 v38 v39 i = rk4S (v22 i) (v38 i) (v39 i) := by
  unfold k1_pay1
  simp only [shapeCast_self]
  rfl

theorem hz1 : (![0] : Fin 1 → Nat) = fun _ => 0 := funext fun a => by fin_cases a; rfl
theorem hz2 : (![0, 0] : Fin 2 → Nat) = fun _ => 0 := funext fun a => by fin_cases a <;> rfl

/-- What the body leaves in the new size's buffer, at a lane. -/
theorem out9_apply (x0 x1 x2 : Vec Ideal S6x65536 .f32) (x3 x4 x5 x6 x7 x8 : Vec Ideal S65536 .f32) (q : Fin 65536) :
    out1_9 x0 x1 x2 x3 x4 x5 x6 x7 x8 (ix1 q)
      = rk4S (meltS ((∑ k : Fin 6, x1 (ix2 k q)) * ((1 / 6 : ℝ) : EReal)) (x4 (ix1 q)))
          (creepS (x5 (ix1 q)) (x7 (ix1 q)) (x6 (ix1 q))) (x8 (ix1 q)) := by
  unfold out1_9
  rw [View.canon_unit_zero hz1]
  simp only [View.ld_unit_zero (S := S6x65536) hz2, View.ld_unit_zero (S := S65536) hz1]
  rw [pay1_apply, pay3_apply, pay4_apply]

/-- What the body leaves in the flux divergence's buffer, at a lane. -/
theorem out10_apply (x0 x1 x2 : Vec Ideal S6x65536 .f32) (x3 x4 x5 x6 x7 x8 : Vec Ideal S65536 .f32) (q : Fin 65536) :
    out1_10 x0 x1 x2 x3 x4 x5 x6 x7 x8 (ix1 q) = fluxS (∑ k : Fin 6, x2 (ix2 k q) * x0 (ix2 k q)) (x3 (ix1 q)) := by
  unfold out1_10
  rw [View.canon_unit_zero hz1]
  simp only [View.ld_unit_zero (S := S6x65536) hz2, View.ld_unit_zero (S := S65536) hz1]
  rw [pay2_apply]

/-! ## The blocks of the nine operand arrays

The grid has 31 points; at point `t` a rank-1 window's block is elements `[65536 t, 65536 (t + 1))` of its array, and a
`[6, 2031616]` window's block all six rows of those columns. -/

section Blocks

variable (V : (c : Dev nD) → (b : Ref sig .tc) → Buf (Elt Ideal) ((c : Thread nD τ).loc b)) (c : Dev nD)

theorem t_lt (t : Fin cfg1.N) : t.val < 31 := Nat.lt_of_lt_of_eq t.isLt N_1

/-- The index maps of the three `[6, 2031616]` windows, decided over the grid: row block 0, column block `t`. -/
theorem idx1_r2 : ∀ t : Fin cfg1.N, win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

/-- The index maps of the eight rank-1 windows, decided over the grid: block `t`. -/
theorem idx1_r1 : ∀ t : Fin cfg1.N, win1_3.index t (0 : Fin 1) = t.val ∧ win1_4.index t (0 : Fin 1) = t.val
    ∧ win1_5.index t (0 : Fin 1) = t.val ∧ win1_6.index t (0 : Fin 1) = t.val ∧ win1_7.index t (0 : Fin 1) = t.val
    ∧ win1_8.index t (0 : Fin 1) = t.val ∧ win1_9.index t (0 : Fin 1) = t.val ∧ win1_10.index t (0 : Fin 1) = t.val :=
  (by decide +kernel : ∀ t : Fin grid1.N, _)

/-- Window 0's block at point `t` is the six rows of columns `65536 t …` of its array. -/
theorem iblk1_0_apply (t : Fin cfg1.N) (x : S6x65536.Idx) (k : S6x2031616.Idx) (hk0 : (k 0).val = (x 0).val)
    (hk1 : (k 1).val = t.val * 65536 + (x 1).val) :
    (iblk1 V c 0 t : Vec Ideal S6x65536 .f32) x = (V c main_v164 : S6x2031616.Idx → EReal) k := by
  have h := idx1_r2 t
  have h0 : win1_0.index t (0 : Fin 2) = 0 := h.1
  have h1 : win1_0.index t (1 : Fin 2) = t.val := h.2.1
  unfold iblk1
  rw [View.read_apply]
  show V c main_v164 _ = V c main_v164 _
  congr 1
  funext a
  apply Fin.ext
  match a with
  | ⟨0, _⟩ => show win1_0.index t (0 : Fin 2) * 6 + 1 * (x 0).val = (k 0).val; rw [h0, hk0]; omega
  | ⟨1, _⟩ => show win1_0.index t (1 : Fin 2) * 65536 + 1 * (x 1).val = (k 1).val; rw [h1, hk1]; omega

/-- Window 1's block at point `t` is the six rows of columns `65536 t …` of its array. -/
theorem iblk1_1_apply (t : Fin cfg1.N) (x : S6x65536.Idx) (k : S6x2031616.Idx) (hk0 : (k 0).val = (x 0).val)
    (hk1 : (k 1).val = t.val * 65536 + (x 1).val) :
    (iblk1 V c 1 t : Vec Ideal S6x65536 .f32) x = (V c main_v165 : S6x2031616.Idx → EReal) k := by
  have h := idx1_r2 t
  have h0 : win1_1.index t (0 : Fin 2) = 0 := h.2.2.1
  have h1 : win1_1.index t (1 : Fin 2) = t.val := h.2.2.2.1
  unfold iblk1
  rw [View.read_apply]
  show V c main_v165 _ = V c main_v165 _
  congr 1
  funext a
  apply Fin.ext
  match a with
  | ⟨0, _⟩ => show win1_1.index t (0 : Fin 2) * 6 + 1 * (x 0).val = (k 0).val; rw [h0, hk0]; omega
  | ⟨1, _⟩ => show win1_1.index t (1 : Fin 2) * 65536 + 1 * (x 1).val = (k 1).val; rw [h1, hk1]; omega

/-- Window 2's block at point `t` is the six rows of columns `65536 t …` of its array. -/
theorem iblk1_2_apply (t : Fin cfg1.N) (x : S6x65536.Idx) (k : S6x2031616.Idx) (hk0 : (k 0).val = (x 0).val)
    (hk1 : (k 1).val = t.val * 65536 + (x 1).val) :
    (iblk1 V c 2 t : Vec Ideal S6x65536 .f32) x = (V c main_v166 : S6x2031616.Idx → EReal) k := by
  have h := idx1_r2 t
  have h0 : win1_2.index t (0 : Fin 2) = 0 := h.2.2.2.2.1
  have h1 : win1_2.index t (1 : Fin 2) = t.val := h.2.2.2.2.2
  unfold iblk1
  rw [View.read_apply]
  show V c main_v166 _ = V c main_v166 _
  congr 1
  funext a
  apply Fin.ext
  match a with
  | ⟨0, _⟩ => show win1_2.index t (0 : Fin 2) * 6 + 1 * (x 0).val = (k 0).val; rw [h0, hk0]; omega
  | ⟨1, _⟩ => show win1_2.index t (1 : Fin 2) * 65536 + 1 * (x 1).val = (k 1).val; rw [h1, hk1]; omega

/-- Window 3's block at point `t` is elements `65536 t …` of its array. -/
theorem iblk1_3_apply (t : Fin cfg1.N) (x : S65536.Idx) (k : S2031616.Idx) (hk : (k 0).val = t.val * 65536 + (x 0).val) :
    (iblk1 V c 3 t : Vec Ideal S65536 .f32) x = (V c main_v170 : S2031616.Idx → EReal) k := by
  have h := idx1_r1 t
  have h0 : win1_3.index t (0 : Fin 1) = t.val := h.1
  unfold iblk1
  rw [View.read_apply]
  show V c main_v170 _ = V c main_v170 _
  congr 1
  funext a
  apply Fin.ext
  match a with
  | ⟨0, _⟩ => show win1_3.index t (0 : Fin 1) * 65536 + 1 * (x 0).val = (k 0).val; rw [h0, hk]; omega

/-- Window 4's block at point `t` is elements `65536 t …` of its array. -/
theorem iblk1_4_apply (t : Fin cfg1.N) (x : S65536.Idx) (k : S2031616.Idx) (hk : (k 0).val = t.val * 65536 + (x 0).val) :
    (iblk1 V c 4 t : Vec Ideal S65536 .f32) x = (V c main_v171 : S2031616.Idx → EReal) k := by
  have h := idx1_r1 t
  have h0 : win1_4.index t (0 : Fin 1) = t.val := h.2.1
  unfold iblk1
  rw [View.read_apply]
  show V c main_v171 _ = V c main_v171 _
  congr 1
  funext a
  apply Fin.ext
  match a with
  | ⟨0, _⟩ => show win1_4.index t (0 : Fin 1) * 65536 + 1 * (x 0).val = (k 0).val; rw [h0, hk]; omega

/-- Window 5's block at point `t` is elements `65536 t …` of its array. -/
theorem iblk1_5_apply (t : Fin cfg1.N) (x : S65536.Idx) (k : S2031616.Idx) (hk : (k 0).val = t.val * 65536 + (x 0).val) :
    (iblk1 V c 5 t : Vec Ideal S65536 .f32) x = (V c main_v172 : S2031616.Idx → EReal) k := by
  have h := idx1_r1 t
  have h0 : win1_5.index t (0 : Fin 1) = t.val := h.2.2.1
  unfold iblk1
  rw [View.read_apply]
  show V c main_v172 _ = V c main_v172 _
  congr 1
  funext a
  apply Fin.ext
  match a with
  | ⟨0, _⟩ => show win1_5.index t (0 : Fin 1) * 65536 + 1 * (x 0).val = (k 0).val; rw [h0, hk]; omega

/-- Window 6's block at point `t` is elements `65536 t …` of its array. -/
theorem iblk1_6_apply (t : Fin cfg1.N) (x : S65536.Idx) (k : S2031616.Idx) (hk : (k 0).val = t.val * 65536 + (x 0).val) :
    (iblk1 V c 6 t : Vec Ideal S65536 .f32) x = (V c main_v173 : S2031616.Idx → EReal) k := by
  have h := idx1_r1 t
  have h0 : win1_6.index t (0 : Fin 1) = t.val := h.2.2.2.1
  unfold iblk1
  rw [View.read_apply]
  show V c main_v173 _ = V c main_v173 _
  congr 1
  funext a
  apply Fin.ext
  match a with
  | ⟨0, _⟩ => show win1_6.index t (0 : Fin 1) * 65536 + 1 * (x 0).val = (k 0).val; rw [h0, hk]; omega

/-- Window 7's block at point `t` is elements `65536 t …` of its array. -/
theorem iblk1_7_apply (t : Fin cfg1.N) (x : S65536.Idx) (k : S2031616.Idx) (hk : (k 0).val = t.val * 65536 + (x 0).val) :
    (iblk1 V c 7 t : Vec Ideal S65536 .f32) x = (V c main_v174 : S2031616.Idx → EReal) k := by
  have h := idx1_r1 t
  have h0 : win1_7.index t (0 : Fin 1) = t.val := h.2.2.2.2.1
  unfold iblk1
  rw [View.read_apply]
  show V c main_v174 _ = V c main_v174 _
  congr 1
  funext a
  apply Fin.ext
  match a with
  | ⟨0, _⟩ => show win1_7.index t (0 : Fin 1) * 65536 + 1 * (x 0).val = (k 0).val; rw [h0, hk]; omega

/-- Window 8's block at point `t` is elements `65536 t …` of its array. -/
theorem iblk1_8_apply (t : Fin cfg1.N) (x : S65536.Idx) (k : S2031616.Idx) (hk : (k 0).val = t.val * 65536 + (x 0).val) :
    (iblk1 V c 8 t : Vec Ideal S65536 .f32) x = (V c main_v175 : S2031616.Idx → EReal) k := by
  have h := idx1_r1 t
  have h0 : win1_8.index t (0 : Fin 1) = t.val := h.2.2.2.2.2.1
  unfold iblk1
  rw [View.read_apply]
  show V c main_v175 _ = V c main_v175 _
  congr 1
  funext a
  apply Fin.ext
  match a with
  | ⟨0, _⟩ => show win1_8.index t (0 : Fin 1) * 65536 + 1 * (x 0).val = (k 0).val; rw [h0, hk]; omega

/-! ## The two result arrays as whole-array functions of the operand arrays -/

/-- The nine operand arrays as the region finds them, at their literal shapes: the discharge, dissipation and direction
    rows, the area, the geothermal flux, the ice thickness, the bedrock elevation, the head and the old size. -/
abbrev aQ : Vec Ideal S6x2031616 .f32 := V c main_v164
abbrev aD : Vec Ideal S6x2031616 .f32 := V c main_v165
abbrev aR : Vec Ideal S6x2031616 .f32 := V c main_v166
abbrev aArea : Vec Ideal S2031616 .f32 := V c main_v170
abbrev aGeo : Vec Ideal S2031616 .f32 := V c main_v171
abbrev aIce : Vec Ideal S2031616 .f32 := V c main_v172
abbrev aBed : Vec Ideal S2031616 .f32 := V c main_v173
abbrev aHead : Vec Ideal S2031616 .f32 := V c main_v174
abbrev aSize : Vec Ideal S2031616 .f32 := V c main_v175

/-- The new size of (padded) node `j` from the operand arrays. -/
def g9 (j : Fin 2031616) : EReal :=
  rk4S (meltS ((∑ k : Fin 6, aD V c (ix2 k j)) * ((1 / 6 : ℝ) : EReal)) (aGeo V c (ix1 j)))
    (creepS (aIce V c (ix1 j)) (aHead V c (ix1 j)) (aBed V c (ix1 j))) (aSize V c (ix1 j))

/-- The flux divergence of (padded) node `j` from the operand arrays. -/
def g10 (j : Fin 2031616) : EReal :=
  fluxS (∑ k : Fin 6, aR V c (ix2 k j) * aQ V c (ix2 k j)) (aArea V c (ix1 j))

/-- The new size array. -/
def G9 : S2031616.Idx → EReal := fun i => g9 V c ⟨(i 0).val, (i 0).isLt⟩
/-- The flux divergence array. -/
def G10 : S2031616.Idx → EReal := fun i => g10 V c ⟨(i 0).val, (i 0).isLt⟩

/-- What point `t` leaves in the new size's buffer at lane `q` is the new size of node `65536 t + q`. -/
theorem blk9 (t : Fin cfg1.N) (q : Fin 65536) (hb : t.val * 65536 + q.val < 2031616) :
    out1_9 (iblk1 V c 0 t) (iblk1 V c 1 t) (iblk1 V c 2 t) (iblk1 V c 3 t) (iblk1 V c 4 t) (iblk1 V c 5 t) (iblk1 V c 6 t)
        (iblk1 V c 7 t) (iblk1 V c 8 t) (ix1 q) = g9 V c ⟨t.val * 65536 + q.val, hb⟩ := by
  have e1 : ∀ k : Fin 6, (iblk1 V c 1 t : Vec Ideal S6x65536 .f32) (ix2 k q) = aD V c (ix2 k ⟨t.val * 65536 + q.val, hb⟩) :=
    fun k => iblk1_1_apply V c t (ix2 k q) (ix2 k ⟨t.val * 65536 + q.val, hb⟩) rfl rfl
  have e4 : (iblk1 V c 4 t : Vec Ideal S65536 .f32) (ix1 q) = aGeo V c (ix1 ⟨t.val * 65536 + q.val, hb⟩) :=
    iblk1_4_apply V c t (ix1 q) (ix1 ⟨t.val * 65536 + q.val, hb⟩) rfl
  have e5 : (iblk1 V c 5 t : Vec Ideal S65536 .f32) (ix1 q) = aIce V c (ix1 ⟨t.val * 65536 + q.val, hb⟩) :=
    iblk1_5_apply V c t (ix1 q) (ix1 ⟨t.val * 65536 + q.val, hb⟩) rfl
  have e6 : (iblk1 V c 6 t : Vec Ideal S65536 .f32) (ix1 q) = aBed V c (ix1 ⟨t.val * 65536 + q.val, hb⟩) :=
    iblk1_6_apply V c t (ix1 q) (ix1 ⟨t.val * 65536 + q.val, hb⟩) rfl
  have e7 : (iblk1 V c 7 t : Vec Ideal S65536 .f32) (ix1 q) = aHead V c (ix1 ⟨t.val * 65536 + q.val, hb⟩) :=
    iblk1_7_apply V c t (ix1 q) (ix1 ⟨t.val * 65536 + q.val, hb⟩) rfl
  have e8 : (iblk1 V c 8 t : Vec Ideal S65536 .f32) (ix1 q) = aSize V c (ix1 ⟨t.val * 65536 + q.val, hb⟩) :=
    iblk1_8_apply V c t (ix1 q) (ix1 ⟨t.val * 65536 + q.val, hb⟩) rfl
  rw [out9_apply]
  simp only [e1, e4, e5, e6, e7, e8]
  rfl

/-- What point `t` leaves in the flux divergence's buffer at lane `q` is the flux divergence of node `65536 t + q`. -/
theorem blk10 (t : Fin cfg1.N) (q : Fin 65536) (hb : t.val * 65536 + q.val < 2031616) :
    out1_10 (iblk1 V c 0 t) (iblk1 V c 1 t) (iblk1 V c 2 t) (iblk1 V c 3 t) (iblk1 V c 4 t) (iblk1 V c 5 t) (iblk1 V c 6 t)
        (iblk1 V c 7 t) (iblk1 V c 8 t) (ix1 q) = g10 V c ⟨t.val * 65536 + q.val, hb⟩ := by
  have e0 : ∀ k : Fin 6, (iblk1 V c 0 t : Vec Ideal S6x65536 .f32) (ix2 k q) = aQ V c (ix2 k ⟨t.val * 65536 + q.val, hb⟩) :=
    fun k => iblk1_0_apply V c t (ix2 k q) (ix2 k ⟨t.val * 65536 + q.val, hb⟩) rfl rfl
  have e2 : ∀ k : Fin 6, (iblk1 V c 2 t : Vec Ideal S6x65536 .f32) (ix2 k q) = aR V c (ix2 k ⟨t.val * 65536 + q.val, hb⟩) :=
    fun k => iblk1_2_apply V c t (ix2 k q) (ix2 k ⟨t.val * 65536 + q.val, hb⟩) rfl rfl
  have e3 : (iblk1 V c 3 t : Vec Ideal S65536 .f32) (ix1 q) = aArea V c (ix1 ⟨t.val * 65536 + q.val, hb⟩) :=
    iblk1_3_apply V c t (ix1 q) (ix1 ⟨t.val * 65536 + q.val, hb⟩) rfl
  rw [out10_apply]
  simp only [e0, e2, e3]
  rfl

/-- What point `t` writes back to window 9's array is block `t` of `G9`. -/
theorem flushed9_eq (t : Fin cfg1.N) :
    (dat1 V c).flushed 9 t = ((cfg1.win 9).blk t).view.read (Elt Ideal) (G9 V c) := by
  have ht : t.val < 31 := t_lt t
  have h := idx1_r1 t
  have hi : win1_9.index t (0 : Fin 1) = t.val := h.2.2.2.2.2.2.1
  show (cfg1.win 9).cut (grid1.coords t) ((dat1 V c).after 9 t) = _
  rw [after1_9]
  funext j
  have hq : (j 0).val < 65536 := (j 0).isLt
  have hb : t.val * 65536 + (j 0).val < 2031616 := by omega
  have hx : (cfg1.win 9).xinj (grid1.coords t) j = (ix1 ⟨(j 0).val, hq⟩ : S65536.Idx) :=
    funext fun a => by match a with | ⟨0, _⟩ => rfl
  have he : ((cfg1.win 9).blk t).view.emb j = (ix1 ⟨t.val * 65536 + (j 0).val, hb⟩ : S2031616.Idx) := by
    funext a
    apply Fin.ext
    match a with
    | ⟨0, _⟩ => show win1_9.index t (0 : Fin 1) * 65536 + 1 * (j 0).val = t.val * 65536 + (j 0).val; rw [hi]; omega
  show out1_9 (iblk1 V c 0 t) (iblk1 V c 1 t) (iblk1 V c 2 t) (iblk1 V c 3 t) (iblk1 V c 4 t) (iblk1 V c 5 t) (iblk1 V c 6 t)
      (iblk1 V c 7 t) (iblk1 V c 8 t) ((cfg1.win 9).xinj (grid1.coords t) j) = G9 V c (((cfg1.win 9).blk t).view.emb j)
  rw [hx, he]
  exact blk9 V c t ⟨(j 0).val, hq⟩ hb

/-- Every index of window 9's array is in some point's block: point `i / 65536`. -/
theorem cover9 (i : S2031616.Idx) :
    ∃ t : Fin cfg1.N, (cfg1.win 9).flush t = true ∧ i ∈ ((cfg1.win 9).blk t).view.set := by
  have hi : (i 0).val < 2031616 := (i 0).isLt
  have hN : cfg1.N = 31 := N_1
  have ht : (i 0).val / 65536 < cfg1.N := by rw [hN]; omega
  have h := idx1_r1 ⟨(i 0).val / 65536, ht⟩
  have hx : win1_9.index ⟨(i 0).val / 65536, ht⟩ (0 : Fin 1) = (i 0).val / 65536 := h.2.2.2.2.2.2.1
  refine ⟨⟨(i 0).val / 65536, ht⟩, flush1_9 _, ?_⟩
  show i ∈ ((View.whole main_v176_0).slice (win1_9.rect ⟨(i 0).val / 65536, ht⟩)).set
  rw [View.set_slice_whole, Rect.mem_set_unit]
  intro a
  match a with
  | ⟨0, _⟩ =>
    show win1_9.index ⟨(i 0).val / 65536, ht⟩ (0 : Fin 1) * 65536 ≤ (i 0).val
      ∧ (i 0).val < win1_9.index ⟨(i 0).val / 65536, ht⟩ (0 : Fin 1) * 65536 + 65536
    rw [hx]; omega

/-- So window 9's array ends holding `G9`. -/
theorem arr9_eq : (dat1 V c).arrAt 9 cfg1.N = G9 V c :=
  (dat1 V c).arrAt_eq_of_cover 9 (G9 V c) (fun t _ => flushed9_eq V c t) (cover9)

/-- What point `t` writes back to window 10's array is block `t` of `G10`. -/
theorem flushed10_eq (t : Fin cfg1.N) :
    (dat1 V c).flushed 10 t = ((cfg1.win 10).blk t).view.read (Elt Ideal) (G10 V c) := by
  have ht : t.val < 31 := t_lt t
  have h := idx1_r1 t
  have hi : win1_10.index t (0 : Fin 1) = t.val := h.2.2.2.2.2.2.2
  show (cfg1.win 10).cut (grid1.coords t) ((dat1 V c).after 10 t) = _
  rw [after1_10]
  funext j
  have hq : (j 0).val < 65536 := (j 0).isLt
  have hb : t.val * 65536 + (j 0).val < 2031616 := by omega
  have hx : (cfg1.win 10).xinj (grid1.coords t) j = (ix1 ⟨(j 0).val, hq⟩ : S65536.Idx) :=
    funext fun a => by match a with | ⟨0, _⟩ => rfl
  have he : ((cfg1.win 10).blk t).view.emb j = (ix1 ⟨t.val * 65536 + (j 0).val, hb⟩ : S2031616.Idx) := by
    funext a
    apply Fin.ext
    match a with
    | ⟨0, _⟩ => show win1_10.index t (0 : Fin 1) * 65536 + 1 * (j 0).val = t.val * 65536 + (j 0).val; rw [hi]; omega
  show out1_10 (iblk1 V c 0 t) (iblk1 V c 1 t) (iblk1 V c 2 t) (iblk1 V c 3 t) (iblk1 V c 4 t) (iblk1 V c 5 t) (iblk1 V c 6 t)
      (iblk1 V c 7 t) (iblk1 V c 8 t) ((cfg1.win 10).xinj (grid1.coords t) j) = G10 V c (((cfg1.win 10).blk t).view.emb j)
  rw [hx, he]
  exact blk10 V c t ⟨(j 0).val, hq⟩ hb

/-- Every index of window 10's array is in some point's block: point `i / 65536`. -/
theorem cover10 (i : S2031616.Idx) :
    ∃ t : Fin cfg1.N, (cfg1.win 10).flush t = true ∧ i ∈ ((cfg1.win 10).blk t).view.set := by
  have hi : (i 0).val < 2031616 := (i 0).isLt
  have hN : cfg1.N = 31 := N_1
  have ht : (i 0).val / 65536 < cfg1.N := by rw [hN]; omega
  have h := idx1_r1 ⟨(i 0).val / 65536, ht⟩
  have hx : win1_10.index ⟨(i 0).val / 65536, ht⟩ (0 : Fin 1) = (i 0).val / 65536 := h.2.2.2.2.2.2.2
  refine ⟨⟨(i 0).val / 65536, ht⟩, flush1_10 _, ?_⟩
  show i ∈ ((View.whole main_v176_1).slice (win1_10.rect ⟨(i 0).val / 65536, ht⟩)).set
  rw [View.set_slice_whole, Rect.mem_set_unit]
  intro a
  match a with
  | ⟨0, _⟩ =>
    show win1_10.index ⟨(i 0).val / 65536, ht⟩ (0 : Fin 1) * 65536 ≤ (i 0).val
      ∧ (i 0).val < win1_10.index ⟨(i 0).val / 65536, ht⟩ (0 : Fin 1) * 65536 + 65536
    rw [hx]; omega

/-- So window 10's array ends holding `G10`. -/
theorem arr10_eq : (dat1 V c).arrAt 10 cfg1.N = G10 V c :=
  (dat1 V c).arrAt_eq_of_cover 10 (G10 V c) (fun t _ => flushed10_eq V c t) (cover10)

end Blocks

/-! ## The reference's two stages read at a node -/

section Reference

variable (x0 x1 : (⟨Cert.ReferenceIdeal.S2000000, .f32⟩ : BufTy).Contents (Elt Ideal)) (x2 : (⟨Cert.ReferenceIdeal.S4000000, .f32⟩ : BufTy).Contents (Elt Ideal))
  (x3 x4 x5 : (⟨Cert.ReferenceIdeal.S2000000, .f32⟩ : BufTy).Contents (Elt Ideal)) (x6 : (⟨Cert.ReferenceIdeal.S4000000, .f32⟩ : BufTy).Contents (Elt Ideal))
  (x7 : (⟨Cert.ReferenceIdeal.S2000000, .f32⟩ : BufTy).Contents (Elt Ideal)) (x8 x9 : (⟨Cert.ReferenceIdeal.S4000000, .i32⟩ : BufTy).Contents (Elt Ideal))
  (x10 x11 : (⟨Cert.ReferenceIdeal.S2000000x6, .i32⟩ : BufTy).Contents (Elt Ideal))

/-- The reference's sum of a node's six dissipation values. -/
theorem ref65 (n : Fin 2000000) :
    Cert.ReferenceIdeal.Read.val_main_v65 (F := Ideal) x0 x1 x2 x6 x8 x9 x10 (ix1 n)
      = ∑ k : Fin 6, Cert.ReferenceIdeal.Read.val_main_v64 (F := Ideal) x0 x1 x2 x6 x8 x9 x10 (ix2 n k) := by
  rw [Cert.ReferenceIdeal.Read.val_main_v65_apply, Cert.ReferenceIdeal.Read.val_main_cst_16_apply,
    show FloatOps.ofBits (F := Ideal) .f32 0x00000000#32 = 0 from Ideal.ofBits_zero_f32, zero_add]
  refine Finset.sum_congr rfl fun k _ => congrArg _ ?_
  funext a; match a with | ⟨0, _⟩ => rfl | ⟨1, _⟩ => rfl

/-- The reference's sum of a node's six signed discharges. -/
theorem ref54 (n : Fin 2000000) :
    Cert.ReferenceIdeal.Read.val_main_v54 (F := Ideal) x0 x1 x2 x6 x8 x9 x10 x11 (ix1 n)
      = ∑ k : Fin 6, Cert.ReferenceIdeal.Read.val_main_v52 (F := Ideal) x11 (ix2 n k) * Cert.ReferenceIdeal.Read.val_main_v51 (F := Ideal) x0 x1 x2 x6 x8 x9 x10 (ix2 n k) := by
  rw [Cert.ReferenceIdeal.Read.val_main_v54_apply, Cert.ReferenceIdeal.Read.val_main_cst_13_apply,
    show FloatOps.ofBits (F := Ideal) .f32 0x00000000#32 = 0 from Ideal.ofBits_zero_f32, zero_add]
  refine Finset.sum_congr rfl fun k _ => ?_
  rw [Cert.ReferenceIdeal.Read.val_main_v53_apply]
  show Cert.ReferenceIdeal.Read.val_main_v52 (F := Ideal) x11 _ * Cert.ReferenceIdeal.Read.val_main_v51 (F := Ideal) x0 x1 x2 x6 x8 x9 x10 _ = _
  have e : Cert.ReferenceIdeal.Read.idx_main_v54 (ix1 n) k = ix2 n k := by
    funext a; match a with | ⟨0, _⟩ => rfl | ⟨1, _⟩ => rfl
  rw [e]

/-- The reference's flux divergence of node `n`. -/
theorem ref55 (n : Fin 2000000) :
    Cert.ReferenceIdeal.Read.val_main_v55 (F := Ideal) x0 x1 x2 x6 x7 x8 x9 x10 x11 (ix1 n)
      = fluxS (∑ k : Fin 6, Cert.ReferenceIdeal.Read.val_main_v52 (F := Ideal) x11 (ix2 n k) * Cert.ReferenceIdeal.Read.val_main_v51 (F := Ideal) x0 x1 x2 x6 x8 x9 x10 (ix2 n k))
          (x7 (ix1 n)) := by
  rw [Cert.ReferenceIdeal.Read.val_main_v55_apply, ref54]
  rfl

/-- The reference's new size of node `n`: the node step at the mean of the six dissipation values. -/
theorem ref117 (n : Fin 2000000) :
    Cert.ReferenceIdeal.Read.val_main_v117 (F := Ideal) x0 x1 x2 x3 x4 x5 x6 x8 x9 x10 (ix1 n)
      = rk4S (meltS (Ideal.div (∑ k : Fin 6, Cert.ReferenceIdeal.Read.val_main_v64 (F := Ideal) x0 x1 x2 x6 x8 x9 x10 (ix2 n k))
            (Ideal.ofBits .f32 0x40C00000#32)) (x5 (ix1 n)))
          (creepS (x3 (ix1 n)) (x1 (ix1 n)) (x4 (ix1 n))) (x0 (ix1 n)) := by
  simp only [Cert.ReferenceIdeal.Read.val_main_v117_apply,
    Cert.ReferenceIdeal.Read.val_main_v116_apply,
    Cert.ReferenceIdeal.Read.val_main_v115_apply,
    Cert.ReferenceIdeal.Read.val_main_cst_32_apply,
    Cert.ReferenceIdeal.Read.val_main_v114_apply,
    Cert.ReferenceIdeal.Read.val_main_v113_apply,
    Cert.ReferenceIdeal.Read.val_main_cst_31_apply,
    Cert.ReferenceIdeal.Read.val_main_v112_apply,
    Cert.ReferenceIdeal.Read.val_main_v111_apply,
    Cert.ReferenceIdeal.Read.val_main_v110_apply,
    Cert.ReferenceIdeal.Read.val_main_v109_apply,
    Cert.ReferenceIdeal.Read.val_main_cst_30_apply,
    Cert.ReferenceIdeal.Read.val_main_v108_apply,
    Cert.ReferenceIdeal.Read.val_main_v107_apply,
    Cert.ReferenceIdeal.Read.val_main_v106_apply,
    Cert.ReferenceIdeal.Read.val_main_cst_29_apply,
    Cert.ReferenceIdeal.Read.val_main_v105_apply,
    Cert.ReferenceIdeal.Read.val_main_v104_apply,
    Cert.ReferenceIdeal.Read.val_main_v103_apply,
    Cert.ReferenceIdeal.Read.val_main_v102_apply,
    Cert.ReferenceIdeal.Read.val_main_v101_apply,
    Cert.ReferenceIdeal.Read.val_main_cst_28_apply,
    Cert.ReferenceIdeal.Read.val_main_v100_apply,
    Cert.ReferenceIdeal.Read.val_main_v99_apply,
    Cert.ReferenceIdeal.Read.val_main_v98_apply,
    Cert.ReferenceIdeal.Read.val_main_v97_apply,
    Cert.ReferenceIdeal.Read.val_main_v96_apply,
    Cert.ReferenceIdeal.Read.val_main_cst_27_apply,
    Cert.ReferenceIdeal.Read.val_main_v95_apply,
    Cert.ReferenceIdeal.Read.val_main_v94_apply,
    Cert.ReferenceIdeal.Read.val_main_cst_26_apply,
    Cert.ReferenceIdeal.Read.val_main_v93_apply,
    Cert.ReferenceIdeal.Read.val_main_v92_apply,
    Cert.ReferenceIdeal.Read.val_main_v91_apply,
    Cert.ReferenceIdeal.Read.val_main_v90_apply,
    Cert.ReferenceIdeal.Read.val_main_v89_apply,
    Cert.ReferenceIdeal.Read.val_main_cst_25_apply,
    Cert.ReferenceIdeal.Read.val_main_v88_apply,
    Cert.ReferenceIdeal.Read.val_main_v87_apply,
    Cert.ReferenceIdeal.Read.val_main_cst_24_apply,
    Cert.ReferenceIdeal.Read.val_main_v86_apply,
    Cert.ReferenceIdeal.Read.val_main_v85_apply,
    Cert.ReferenceIdeal.Read.val_main_v84_apply,
    Cert.ReferenceIdeal.Read.val_main_v83_apply,
    Cert.ReferenceIdeal.Read.val_main_v82_apply,
    Cert.ReferenceIdeal.Read.val_main_cst_23_apply,
    Cert.ReferenceIdeal.Read.val_main_v81_apply,
    Cert.ReferenceIdeal.Read.val_main_v80_apply,
    Cert.ReferenceIdeal.Read.val_main_v79_apply,
    Cert.ReferenceIdeal.Read.val_main_v78_apply,
    Cert.ReferenceIdeal.Read.val_main_cst_22_apply,
    Cert.ReferenceIdeal.Read.val_main_v77_apply,
    Cert.ReferenceIdeal.Read.val_main_v76_apply,
    Cert.ReferenceIdeal.Read.val_main_v75_apply,
    Cert.ReferenceIdeal.Read.val_main_cst_21_apply,
    Cert.ReferenceIdeal.Read.val_main_v74_apply,
    Cert.ReferenceIdeal.Read.val_main_v73_apply,
    Cert.ReferenceIdeal.Read.val_main_cst_20_apply,
    Cert.ReferenceIdeal.Read.val_main_v72_apply,
    Cert.ReferenceIdeal.Read.val_main_v71_apply,
    Cert.ReferenceIdeal.Read.val_main_cst_19_apply,
    Cert.ReferenceIdeal.Read.val_main_v70_apply,
    Cert.ReferenceIdeal.Read.val_main_v69_apply,
    Cert.ReferenceIdeal.Read.val_main_v68_apply,
    Cert.ReferenceIdeal.Read.val_main_cst_18_apply,
    Cert.ReferenceIdeal.Read.val_main_v67_apply,
    Cert.ReferenceIdeal.Read.val_main_v66_apply,
    Cert.ReferenceIdeal.Read.val_main_cst_17_apply]
  rw [ref65]
  rfl

end Reference

/-! ## The two arrays at a node, given what the operand arrays hold there -/

/-- The new size array at node `n` is the reference's new size, when the dissipation rows, the geothermal flux, the ice
    thickness, the bedrock, the head and the old size hold the reference's values at the nodes. -/
theorem arr9_of (V : (c : Dev nD) → (b : Ref sig .tc) → Buf (Elt Ideal) ((c : Thread nD τ).loc b)) (c : Dev nD)
    (x0 x1 : (⟨Cert.ReferenceIdeal.S2000000, .f32⟩ : BufTy).Contents (Elt Ideal)) (x2 : (⟨Cert.ReferenceIdeal.S4000000, .f32⟩ : BufTy).Contents (Elt Ideal))
    (x3 x4 x5 : (⟨Cert.ReferenceIdeal.S2000000, .f32⟩ : BufTy).Contents (Elt Ideal)) (x6 : (⟨Cert.ReferenceIdeal.S4000000, .f32⟩ : BufTy).Contents (Elt Ideal))
    (x7 : (⟨Cert.ReferenceIdeal.S2000000, .f32⟩ : BufTy).Contents (Elt Ideal)) (x8 x9 : (⟨Cert.ReferenceIdeal.S4000000, .i32⟩ : BufTy).Contents (Elt Ideal))
    (x10 x11 : (⟨Cert.ReferenceIdeal.S2000000x6, .i32⟩ : BufTy).Contents (Elt Ideal))
    (h165 : ∀ (k : Fin 6) (n : Fin 2000000), (V c main_v165 : S6x2031616.Idx → EReal) (ix2 k ⟨n.val, by have := n.isLt; omega⟩) = Cert.ReferenceIdeal.Read.val_main_v64 (F := Ideal) x0 x1 x2 x6 x8 x9 x10 (ix2 n k))
    (h171 : ∀ n : Fin 2000000, (V c main_v171 : S2031616.Idx → EReal) (ix1 ⟨n.val, by have := n.isLt; omega⟩) = x5 (ix1 n))
    (h172 : ∀ n : Fin 2000000, (V c main_v172 : S2031616.Idx → EReal) (ix1 ⟨n.val, by have := n.isLt; omega⟩) = x3 (ix1 n))
    (h173 : ∀ n : Fin 2000000, (V c main_v173 : S2031616.Idx → EReal) (ix1 ⟨n.val, by have := n.isLt; omega⟩) = x4 (ix1 n))
    (h174 : ∀ n : Fin 2000000, (V c main_v174 : S2031616.Idx → EReal) (ix1 ⟨n.val, by have := n.isLt; omega⟩) = x1 (ix1 n))
    (h175 : ∀ n : Fin 2000000, (V c main_v175 : S2031616.Idx → EReal) (ix1 ⟨n.val, by have := n.isLt; omega⟩) = x0 (ix1 n))
    (n : Fin 2000000) :
    ((dat1 V c).arrAt 9 cfg1.N : S2031616.Idx → EReal) (ix1 ⟨n.val, by have := n.isLt; omega⟩)
      = Cert.ReferenceIdeal.Read.val_main_v117 (F := Ideal) x0 x1 x2 x3 x4 x5 x6 x8 x9 x10 (ix1 n) := by
  have hb : n.val < 2031616 := by have := n.isLt; omega
  have e165 : ∀ k : Fin 6, aD V c (ix2 k ⟨n.val, hb⟩) = Cert.ReferenceIdeal.Read.val_main_v64 (F := Ideal) x0 x1 x2 x6 x8 x9 x10 (ix2 n k) :=
    fun k => h165 k n
  have e171 : aGeo V c (ix1 ⟨n.val, hb⟩) = x5 (ix1 n) := h171 n
  have e172 : aIce V c (ix1 ⟨n.val, hb⟩) = x3 (ix1 n) := h172 n
  have e173 : aBed V c (ix1 ⟨n.val, hb⟩) = x4 (ix1 n) := h173 n
  have e174 : aHead V c (ix1 ⟨n.val, hb⟩) = x1 (ix1 n) := h174 n
  have e175 : aSize V c (ix1 ⟨n.val, hb⟩) = x0 (ix1 n) := h175 n
  rw [arr9_eq V c, ref117, div_six]
  show g9 V c ⟨n.val, hb⟩ = _
  unfold g9
  simp only [e165, e171, e172, e173, e174, e175]

/-- The flux divergence array at node `n` is the reference's, when the discharge rows, the direction rows and the area
    hold the reference's values at the nodes. -/
theorem arr10_of (V : (c : Dev nD) → (b : Ref sig .tc) → Buf (Elt Ideal) ((c : Thread nD τ).loc b)) (c : Dev nD)
    (x0 x1 : (⟨Cert.ReferenceIdeal.S2000000, .f32⟩ : BufTy).Contents (Elt Ideal)) (x2 : (⟨Cert.ReferenceIdeal.S4000000, .f32⟩ : BufTy).Contents (Elt Ideal))
    (x3 x4 x5 : (⟨Cert.ReferenceIdeal.S2000000, .f32⟩ : BufTy).Contents (Elt Ideal)) (x6 : (⟨Cert.ReferenceIdeal.S4000000, .f32⟩ : BufTy).Contents (Elt Ideal))
    (x7 : (⟨Cert.ReferenceIdeal.S2000000, .f32⟩ : BufTy).Contents (Elt Ideal)) (x8 x9 : (⟨Cert.ReferenceIdeal.S4000000, .i32⟩ : BufTy).Contents (Elt Ideal))
    (x10 x11 : (⟨Cert.ReferenceIdeal.S2000000x6, .i32⟩ : BufTy).Contents (Elt Ideal))
    (h164 : ∀ (k : Fin 6) (n : Fin 2000000), (V c main_v164 : S6x2031616.Idx → EReal) (ix2 k ⟨n.val, by have := n.isLt; omega⟩) = Cert.ReferenceIdeal.Read.val_main_v51 (F := Ideal) x0 x1 x2 x6 x8 x9 x10 (ix2 n k))
    (h166 : ∀ (k : Fin 6) (n : Fin 2000000), (V c main_v166 : S6x2031616.Idx → EReal) (ix2 k ⟨n.val, by have := n.isLt; omega⟩) = Cert.ReferenceIdeal.Read.val_main_v52 (F := Ideal) x11 (ix2 n k))
    (h170 : ∀ n : Fin 2000000, (V c main_v170 : S2031616.Idx → EReal) (ix1 ⟨n.val, by have := n.isLt; omega⟩) = x7 (ix1 n))
    (n : Fin 2000000) :
    ((dat1 V c).arrAt 10 cfg1.N : S2031616.Idx → EReal) (ix1 ⟨n.val, by have := n.isLt; omega⟩)
      = Cert.ReferenceIdeal.Read.val_main_v55 (F := Ideal) x0 x1 x2 x6 x7 x8 x9 x10 x11 (ix1 n) := by
  have hb : n.val < 2031616 := by have := n.isLt; omega
  have e164 : ∀ k : Fin 6, aQ V c (ix2 k ⟨n.val, hb⟩) = Cert.ReferenceIdeal.Read.val_main_v51 (F := Ideal) x0 x1 x2 x6 x8 x9 x10 (ix2 n k) :=
    fun k => h164 k n
  have e166 : ∀ k : Fin 6, aR V c (ix2 k ⟨n.val, hb⟩) = Cert.ReferenceIdeal.Read.val_main_v52 (F := Ideal) x11 (ix2 n k) := fun k => h166 k n
  have e170 : aArea V c (ix1 ⟨n.val, hb⟩) = x7 (ix1 n) := h170 n
  rw [arr10_eq V c, ref55]
  show g10 V c ⟨n.val, hb⟩ = _
  unfold g10
  simp only [e164, e166, e170]

end Node

variable (m : (ℓ : Loc nD τ sig) → Buf (Elt Ideal) ℓ) (ρ : Dev nD → PrngReg) (c : Dev nD)

theorem arr1_9
    (h164 : ∀ (k : Fin 6) (n : Fin 2000000), (V3 m ρ c main_v164 : S6x2031616.Idx → EReal) (ix2 k ⟨n.val, by have := n.isLt; omega⟩) = Cert.ReferenceIdeal.Read.val_main_v51 (F := Ideal) (A0 m c) (A1 m c) (A2 m c) (A6 m c) (A8 m c) (A9 m c) (A10 m c) (ix2 n k))
    (h165 : ∀ (k : Fin 6) (n : Fin 2000000), (V3 m ρ c main_v165 : S6x2031616.Idx → EReal) (ix2 k ⟨n.val, by have := n.isLt; omega⟩) = Cert.ReferenceIdeal.Read.val_main_v64 (F := Ideal) (A0 m c) (A1 m c) (A2 m c) (A6 m c) (A8 m c) (A9 m c) (A10 m c) (ix2 n k))
    (h166 : ∀ (k : Fin 6) (n : Fin 2000000), (V3 m ρ c main_v166 : S6x2031616.Idx → EReal) (ix2 k ⟨n.val, by have := n.isLt; omega⟩) = Cert.ReferenceIdeal.Read.val_main_v52 (F := Ideal) (A11 m c) (ix2 n k))
    (h170 : ∀ n : Fin 2000000, (V3 m ρ c main_v170 : S2031616.Idx → EReal) (ix1 ⟨n.val, by have := n.isLt; omega⟩) = A7 m c (ix1 n))
    (h171 : ∀ n : Fin 2000000, (V3 m ρ c main_v171 : S2031616.Idx → EReal) (ix1 ⟨n.val, by have := n.isLt; omega⟩) = A5 m c (ix1 n))
    (h172 : ∀ n : Fin 2000000, (V3 m ρ c main_v172 : S2031616.Idx → EReal) (ix1 ⟨n.val, by have := n.isLt; omega⟩) = A3 m c (ix1 n))
    (h173 : ∀ n : Fin 2000000, (V3 m ρ c main_v173 : S2031616.Idx → EReal) (ix1 ⟨n.val, by have := n.isLt; omega⟩) = A4 m c (ix1 n))
    (h174 : ∀ n : Fin 2000000, (V3 m ρ c main_v174 : S2031616.Idx → EReal) (ix1 ⟨n.val, by have := n.isLt; omega⟩) = A1 m c (ix1 n))
    (h175 : ∀ n : Fin 2000000, (V3 m ρ c main_v175 : S2031616.Idx → EReal) (ix1 ⟨n.val, by have := n.isLt; omega⟩) = A0 m c (ix1 n))
    (n : Fin 2000000) :
    ((dat1 (V3 m ρ) c).arrAt 9 cfg1.N : S2031616.Idx → EReal) (ix1 ⟨n.val, by have := n.isLt; omega⟩) = Cert.ReferenceIdeal.Read.val_main_v117 (F := Ideal) (A0 m c) (A1 m c) (A2 m c) (A3 m c) (A4 m c) (A5 m c) (A6 m c) (A8 m c) (A9 m c) (A10 m c) (ix1 n) := by
  exact Node.arr9_of (V3 m ρ) c (A0 m c) (A1 m c) (A2 m c) (A3 m c) (A4 m c) (A5 m c) (A6 m c) (A7 m c) (A8 m c) (A9 m c) (A10 m c) (A11 m c)
    h165 h171 h172 h173 h174 h175 n

theorem arr1_10
    (h164 : ∀ (k : Fin 6) (n : Fin 2000000), (V3 m ρ c main_v164 : S6x2031616.Idx → EReal) (ix2 k ⟨n.val, by have := n.isLt; omega⟩) = Cert.ReferenceIdeal.Read.val_main_v51 (F := Ideal) (A0 m c) (A1 m c) (A2 m c) (A6 m c) (A8 m c) (A9 m c) (A10 m c) (ix2 n k))
    (h165 : ∀ (k : Fin 6) (n : Fin 2000000), (V3 m ρ c main_v165 : S6x2031616.Idx → EReal) (ix2 k ⟨n.val, by have := n.isLt; omega⟩) = Cert.ReferenceIdeal.Read.val_main_v64 (F := Ideal) (A0 m c) (A1 m c) (A2 m c) (A6 m c) (A8 m c) (A9 m c) (A10 m c) (ix2 n k))
    (h166 : ∀ (k : Fin 6) (n : Fin 2000000), (V3 m ρ c main_v166 : S6x2031616.Idx → EReal) (ix2 k ⟨n.val, by have := n.isLt; omega⟩) = Cert.ReferenceIdeal.Read.val_main_v52 (F := Ideal) (A11 m c) (ix2 n k))
    (h170 : ∀ n : Fin 2000000, (V3 m ρ c main_v170 : S2031616.Idx → EReal) (ix1 ⟨n.val, by have := n.isLt; omega⟩) = A7 m c (ix1 n))
    (h171 : ∀ n : Fin 2000000, (V3 m ρ c main_v171 : S2031616.Idx → EReal) (ix1 ⟨n.val, by have := n.isLt; omega⟩) = A5 m c (ix1 n))
    (h172 : ∀ n : Fin 2000000, (V3 m ρ c main_v172 : S2031616.Idx → EReal) (ix1 ⟨n.val, by have := n.isLt; omega⟩) = A3 m c (ix1 n))
    (h173 : ∀ n : Fin 2000000, (V3 m ρ c main_v173 : S2031616.Idx → EReal) (ix1 ⟨n.val, by have := n.isLt; omega⟩) = A4 m c (ix1 n))
    (h174 : ∀ n : Fin 2000000, (V3 m ρ c main_v174 : S2031616.Idx → EReal) (ix1 ⟨n.val, by have := n.isLt; omega⟩) = A1 m c (ix1 n))
    (h175 : ∀ n : Fin 2000000, (V3 m ρ c main_v175 : S2031616.Idx → EReal) (ix1 ⟨n.val, by have := n.isLt; omega⟩) = A0 m c (ix1 n))
    (n : Fin 2000000) :
    ((dat1 (V3 m ρ) c).arrAt 10 cfg1.N : S2031616.Idx → EReal) (ix1 ⟨n.val, by have := n.isLt; omega⟩) = Cert.ReferenceIdeal.Read.val_main_v55 (F := Ideal) (A0 m c) (A1 m c) (A2 m c) (A6 m c) (A7 m c) (A8 m c) (A9 m c) (A10 m c) (A11 m c) (ix1 n) := by
  exact Node.arr10_of (V3 m ρ) c (A0 m c) (A1 m c) (A2 m c) (A3 m c) (A4 m c) (A5 m c) (A6 m c) (A7 m c) (A8 m c) (A9 m c) (A10 m c) (A11 m c)
    h164 h166 h170 n

end Cert.KernelIdeal.Val

end
-- ==== Proof.KIValC.lean ====
/-
  @main's result as the closing host operations leave it: the two result arrays of the node stage, cut to the
  2000000 nodes and stacked, are the reference's stacked result.
-/
import proofs.«417076_j8899172237900_1_alg».proof.Proof.KIRun
import proofs.«417076_j8899172237900_1_alg».proof.Proof.KIArgs
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

theorem W5_v181
    (h9 : ∀ n : Fin 2000000, (V4 m ρ c main_v176_0 : S2031616.Idx → EReal) (ix1 ⟨n.val, by have := n.isLt; omega⟩) = Cert.ReferenceIdeal.Read.val_main_v117 (F := Ideal) (A0 m c) (A1 m c) (A2 m c) (A3 m c) (A4 m c) (A5 m c) (A6 m c) (A8 m c) (A9 m c) (A10 m c) (ix1 n))
    (h10 : ∀ n : Fin 2000000, (V4 m ρ c main_v176_1 : S2031616.Idx → EReal) (ix1 ⟨n.val, by have := n.isLt; omega⟩) = Cert.ReferenceIdeal.Read.val_main_v55 (F := Ideal) (A0 m c) (A1 m c) (A2 m c) (A6 m c) (A7 m c) (A8 m c) (A9 m c) (A10 m c) (A11 m c) (ix1 n)) :
    (W5 m ρ c (Proc.devRef .tc main_v181) : S2x2000000.Idx → EReal) = Cert.ReferenceIdeal.Read.val_main_v120 (F := Ideal) (A0 m c) (A1 m c) (A2 m c) (A3 m c) (A4 m c) (A5 m c) (A6 m c) (A7 m c) (A8 m c) (A9 m c) (A10 m c) (A11 m c) := by
  -- each result array cut to the 2000000 nodes is the reference's stage
  have e9 : extractStridedSlice S2000000 ![0] (V4 m ρ c main_v176_0 : S2031616.Idx → EReal) slices_S2031616_S2000000_0
      = Cert.ReferenceIdeal.Read.val_main_v117 (F := Ideal) (A0 m c) (A1 m c) (A2 m c) (A3 m c) (A4 m c) (A5 m c) (A6 m c) (A8 m c) (A9 m c) (A10 m c) := by
    funext i
    obtain ⟨n, rfl⟩ : ∃ n : Fin 2000000, i = ix1 n := ⟨i 0, eq_ix1 i⟩
    rw [← h9 n]
    exact extractStridedSlice_apply _ _ _ _ _ (fun a => by
      match a with
      | ⟨0, _⟩ => show n.val = 0 + n.val; omega)
  have e10 : extractStridedSlice S2000000 ![0] (V4 m ρ c main_v176_1 : S2031616.Idx → EReal) slices_S2031616_S2000000_0
      = Cert.ReferenceIdeal.Read.val_main_v55 (F := Ideal) (A0 m c) (A1 m c) (A2 m c) (A6 m c) (A7 m c) (A8 m c) (A9 m c) (A10 m c) (A11 m c) := by
    funext i
    obtain ⟨n, rfl⟩ : ∃ n : Fin 2000000, i = ix1 n := ⟨i 0, eq_ix1 i⟩
    rw [← h10 n]
    exact extractStridedSlice_apply _ _ _ _ _ (fun a => by
      match a with
      | ⟨0, _⟩ => show n.val = 0 + n.val; omega)
  show StableHlo.after hostOps2 (W4 m ρ c) (Proc.devRef .tc main_v181) = _
  after_results
  unfold Cert.ReferenceIdeal.Read.val_main_v120 Cert.ReferenceIdeal.Read.val_main_v118 Cert.ReferenceIdeal.Read.val_main_v119
  rw [← e9, ← e10]

end Cert.KernelIdeal.Val

end
-- ==== Proof.KIResult.lean ====
/-
  The idealized kernel's result: chaining the readings of the run's five boundaries, @main's result buffer at
  the return is the reference's stacked result of the argument arrays, where no link length and no node area
  is zero.
-/
import proofs.«417076_j8899172237900_1_alg».proof.Proof.KIRun
import proofs.«417076_j8899172237900_1_alg».proof.Proof.KIArgs
import proofs.«417076_j8899172237900_1_alg».proof.Proof.KIKept
import proofs.«417076_j8899172237900_1_alg».proof.Proof.KIValA
import proofs.«417076_j8899172237900_1_alg».proof.Proof.KIVal0
import proofs.«417076_j8899172237900_1_alg».proof.Proof.KIValB
import proofs.«417076_j8899172237900_1_alg».proof.Proof.KIValB2
import proofs.«417076_j8899172237900_1_alg».proof.Proof.KIValB3
import proofs.«417076_j8899172237900_1_alg».proof.Proof.KIVal1
import proofs.«417076_j8899172237900_1_alg».proof.Proof.KIValC
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

theorem result_eq (hlen : ∀ i, A6 m c i ≠ (0 : EReal)) (harea : ∀ i, A7 m c i ≠ (0 : EReal)) :
    (W5 m ρ c (Proc.devRef .tc main_v181) : S2x2000000.Idx → EReal) = Cert.ReferenceIdeal.Read.val_main_v120 (F := Ideal) (A0 m c) (A1 m c) (A2 m c) (A3 m c) (A4 m c) (A5 m c) (A6 m c) (A7 m c) (A8 m c) (A9 m c) (A10 m c) (A11 m c) := by
  -- the link stage: its operands, then its two result arrays
  have h28 := V1_v28 m ρ c
  have h29 := V1_v29 m ρ c
  have h30 := V1_v30 m ρ c
  have h31 := V1_v31 m ρ c
  have h35 := V1_v35 m ρ c hlen
  have h36 := V1_v36 m ρ c
  have hq : ∀ l : Fin 4000000, (V2 m ρ c main_v37_0 : S4194304.Idx → EReal) (ix1 ⟨l.val, by have := l.isLt; omega⟩) = Cert.ReferenceIdeal.Read.val_main_v44 (F := Ideal) (A0 m c) (A1 m c) (A2 m c) (A6 m c) (A8 m c) (A9 m c) (ix1 l) := fun l =>
    (congrFun (W2_arr m ρ c 6) _).trans (arr0_6 m ρ c h28 h29 h30 h31 h35 h36 l)
  have he : ∀ l : Fin 4000000, (V2 m ρ c main_v37_1 : S4194304.Idx → EReal) (ix1 ⟨l.val, by have := l.isLt; omega⟩) = Cert.ReferenceIdeal.Read.val_main_v57 (F := Ideal) (A0 m c) (A1 m c) (A2 m c) (A6 m c) (A8 m c) (A9 m c) (ix1 l) := fun l =>
    (congrFun (W2_arr m ρ c 7) _).trans (arr0_7 m ρ c h28 h29 h30 h31 h35 h36 l)
  -- the node stage: its operands, then its two result arrays
  have h164 := V3_v164 m ρ c hq
  have h165 := V3_v165 m ρ c he
  have h166 := V3_v166 m ρ c
  have h170 := V3_v170 m ρ c harea
  have h171 := V3_v171 m ρ c
  have h172 := V3_v172 m ρ c
  have h173 := V3_v173 m ρ c
  have h174 := V3_v174 m ρ c
  have h175 := V3_v175 m ρ c
  have h9 : ∀ n : Fin 2000000, (V4 m ρ c main_v176_0 : S2031616.Idx → EReal) (ix1 ⟨n.val, by have := n.isLt; omega⟩) = Cert.ReferenceIdeal.Read.val_main_v117 (F := Ideal) (A0 m c) (A1 m c) (A2 m c) (A3 m c) (A4 m c) (A5 m c) (A6 m c) (A8 m c) (A9 m c) (A10 m c) (ix1 n) := fun n =>
    (congrFun (W4_arr m ρ c 9) _).trans (arr1_9 m ρ c h164 h165 h166 h170 h171 h172 h173 h174 h175 n)
  have h10 : ∀ n : Fin 2000000, (V4 m ρ c main_v176_1 : S2031616.Idx → EReal) (ix1 ⟨n.val, by have := n.isLt; omega⟩) = Cert.ReferenceIdeal.Read.val_main_v55 (F := Ideal) (A0 m c) (A1 m c) (A2 m c) (A6 m c) (A7 m c) (A8 m c) (A9 m c) (A10 m c) (A11 m c) (ix1 n) := fun n =>
    (congrFun (W4_arr m ρ c 10) _).trans (arr1_10 m ρ c h164 h165 h166 h170 h171 h172 h173 h174 h175 n)
  exact W5_v181 m ρ c h9 h10

end Cert.KernelIdeal.Val

end
-- ==== Proof.PreDecode.lean ====
/-
  The precondition read at the idealized kernel's memory: the two conjuncts added to the finiteness of the
  inputs say that no link length and no node area is zero.
-/
import proofs.«417076_j8899172237900_1_alg».proof.Defs
import proofs.«417076_j8899172237900_1_alg».proof.Proof.Gen.Pre_finite_inputs
import proofs.«417076_j8899172237900_1_alg».proof.Proof.Gen.KernelIdeal
import Idealize.ShloMosaic.Lib.ValueIdx
import Idealize.ShloMosaic.Lib.ReduceAll
import Idealize.ShloMosaic.Lib.StableHlo.Predicate
import Idealize.ShloMosaic.PureOps.Ideal.Laws

noncomputable section

namespace Cert.Proof.PreDecode

open Idealize.ShloMosaic Idealize.ShloMosaic.TcCoe Idealize.SL.Sem

/-- The result of the precondition has one index. -/
instance : Subsingleton Cert.Pre_finite_inputs.S_.Idx := ⟨fun a b => funext fun d => d.elim0⟩

/-- Over the extended reals "x differs from the value of the zero word" says x ≠ 0. -/
theorem une_zero {s : Shape} (x z : FVec Ideal s .f32) (hz : ∀ i, z i = 0) (i : s.Idx)
    (h : cmpf .une x z i = 1#1) : x i ≠ 0 := by
  have h' : Ideal.cmp .une (x i) (z i) = 1#1 := h
  rw [hz i] at h'
  simpa only [Ideal.cmp, StableHlo.Predicate.ofBool_eq_one_iff, decide_eq_true_eq] using h'

open Cert.Pre_finite_inputs in
/-- The printed predicate is a conjunction of ten reductions by "and" over whole arrays; its last two
    conjuncts compare the seventh and the eighth argument, element by element, with zero. Where the
    predicate is all ones neither array has a zero entry. -/
theorem decode [Cert.Pre_finite_inputs.Facts] (a0 : FVec Ideal S2000000 .f32) (a1 : FVec Ideal S2000000 .f32)
    (a2 : FVec Ideal S4000000 .f32) (a3 : FVec Ideal S2000000 .f32) (a4 : FVec Ideal S2000000 .f32)
    (a5 : FVec Ideal S2000000 .f32) (a6 : FVec Ideal S4000000 .f32) (a7 : FVec Ideal S2000000 .f32)
    (a8 : IVec S4000000 32) (a9 : IVec S4000000 32) (a10 : IVec S2000000x6 32) (a11 : IVec S2000000x6 32)
    (h : Cert.Pre_finite_inputs.fn (F := Ideal) a0 a1 a2 a3 a4 a5 a6 a7 a8 a9 a10 a11 = fun _ => 1#1) :
    (∀ i, a6 i ≠ 0) ∧ (∀ i, a7 i ≠ 0) := by
  have h0 := congrFun h ValueIdx.ix0
  dsimp only [Cert.Pre_finite_inputs.fn, Cert.Pre_finite_inputs.fn_part1, Cert.Pre_finite_inputs.fn_part2] at h0
  -- the conjunction associates to the left: ((… ∧ all (a6 ≠ 0)) ∧ all (a7 ≠ 0)); peel the last two conjuncts
  obtain ⟨h42, h45⟩ := IntOp.andi_eq_one.1 h0
  obtain ⟨_, h41⟩ := IntOp.andi_eq_one.1 h42
  refine ⟨fun i => ?_, fun i => ?_⟩
  · refine une_zero _ _ (fun j => ?_) i (Host.reduce_andi_all _ _ _ _ _ h41 i)
    exact Ideal.ofBits_zero_f32
  · refine une_zero _ _ (fun j => ?_) i (Host.reduce_andi_all _ _ _ _ _ h45 i)
    exact Ideal.ofBits_zero_f32

/-- Under the precondition no link length is zero and no node area is zero, on every core. -/
theorem nonzero [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, (m ((c.tc : Thread Cert.KernelIdeal.nD Cert.KernelIdeal.τ).loc Cert.KernelIdeal.main_arg6) : Cert.Pre_finite_inputs.S4000000.Idx → EReal) i ≠ (0 : EReal))
    ∧ (∀ i, (m ((c.tc : Thread Cert.KernelIdeal.nD Cert.KernelIdeal.τ).loc Cert.KernelIdeal.main_arg7) : Cert.Pre_finite_inputs.S2000000.Idx → EReal) i ≠ (0 : EReal)) :=
  decode _ _ _ _ _ _ _ _ _ _ _ _ (h c)

end Cert.Proof.PreDecode

end
-- ==== Proof.lean ====
/-
  The certificate of the glacier-hydrology step: a link stage (discharge and dissipation of every link, from the
  conduit size and the hydraulic head gathered at the link's two nodes) and a node stage (the flux divergence and
  one Runge-Kutta step of the conduit size, from the links gathered at every node), as two Pallas kernels among
  host operations, against the plain array reference.

  The three frames: the kernel programs run through their two regions and three stretches of host operations
  (the run is a fold of the buffer contents from the launch memory, and no operation writes an argument); the
  reference's frame is its generated run. The ledger's entry names the kernel's folded reciprocal 1/6. The
  value claim: where no link length and no node area is zero (the kernel's host code replaces a zero by one
  before dividing; the reference divides by it), both programs end at the same stacked array, the kernel's
  blockwise stages read index by index against the reference's stages, the mean of six dissipations as a
  product with 1/6 on one side and a quotient by 6 on the other.
-/
import proofs.«417076_j8899172237900_1_alg».proof.Defs
import proofs.«417076_j8899172237900_1_alg».proof.Proof.Gen.Kernel
import proofs.«417076_j8899172237900_1_alg».proof.Proof.Gen.KernelIdeal
import proofs.«417076_j8899172237900_1_alg».proof.Proof.Gen.ReferenceIdeal
import proofs.«417076_j8899172237900_1_alg».proof.Proof.Gen.Pre_finite_inputs
import proofs.«417076_j8899172237900_1_alg».proof.Proof.KRun
import proofs.«417076_j8899172237900_1_alg».proof.Proof.KKept
import proofs.«417076_j8899172237900_1_alg».proof.Proof.KIRun
import proofs.«417076_j8899172237900_1_alg».proof.Proof.KIKept
import proofs.«417076_j8899172237900_1_alg».proof.Proof.KIResult
import proofs.«417076_j8899172237900_1_alg».proof.Proof.RefValue
import proofs.«417076_j8899172237900_1_alg».proof.Proof.PreDecode
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs to the end, faults nowhere and leaves its arguments as launched. -/
theorem frame_K : Cert.frame_Kernel := fun m ρ _ =>
  Cert.Kernel.Hand.run_main (F := Bits) m ρ (fun s h c =>
    ⟨(h c _ (Cert.Kernel.Hand.mem_uc Cert.Kernel.main_arg0 (by decide))).trans (Cert.Kernel.Hand.W5_arg0 m ρ c),
     (h c _ (Cert.Kernel.Hand.mem_uc Cert.Kernel.main_arg1 (by decide))).trans (Cert.Kernel.Hand.W5_arg1 m ρ c),
     (h c _ (Cert.Kernel.Hand.mem_uc Cert.Kernel.main_arg2 (by decide))).trans (Cert.Kernel.Hand.W5_arg2 m ρ c),
     (h c _ (Cert.Kernel.Hand.mem_uc Cert.Kernel.main_arg3 (by decide))).trans (Cert.Kernel.Hand.W5_arg3 m ρ c),
     (h c _ (Cert.Kernel.Hand.mem_uc Cert.Kernel.main_arg4 (by decide))).trans (Cert.Kernel.Hand.W5_arg4 m ρ c),
     (h c _ (Cert.Kernel.Hand.mem_uc Cert.Kernel.main_arg5 (by decide))).trans (Cert.Kernel.Hand.W5_arg5 m ρ c),
     (h c _ (Cert.Kernel.Hand.mem_uc Cert.Kernel.main_arg6 (by decide))).trans (Cert.Kernel.Hand.W5_arg6 m ρ c),
     (h c _ (Cert.Kernel.Hand.mem_uc Cert.Kernel.main_arg7 (by decide))).trans (Cert.Kernel.Hand.W5_arg7 m ρ c),
     (h c _ (Cert.Kernel.Hand.mem_uc Cert.Kernel.main_arg8 (by decide))).trans (Cert.Kernel.Hand.W5_arg8 m ρ c),
     (h c _ (Cert.Kernel.Hand.mem_uc Cert.Kernel.main_arg9 (by decide))).trans (Cert.Kernel.Hand.W5_arg9 m ρ c),
     (h c _ (Cert.Kernel.Hand.mem_uc Cert.Kernel.main_arg10 (by decide))).trans (Cert.Kernel.Hand.W5_arg10 m ρ c),
     (h c _ (Cert.Kernel.Hand.mem_uc Cert.Kernel.main_arg11 (by decide))).trans (Cert.Kernel.Hand.W5_arg11 m ρ c)⟩)

/-- So does the idealized kernel program. -/
theorem frame_KI : Cert.frame_KernelIdeal := fun m ρ _ =>
  Cert.KernelIdeal.Hand.run_main (F := Ideal) m ρ (fun s h c =>
    ⟨(h c _ (Cert.KernelIdeal.Hand.mem_uc Cert.KernelIdeal.main_arg0 (by decide))).trans (Cert.KernelIdeal.Hand.W5_arg0 m ρ c),
     (h c _ (Cert.KernelIdeal.Hand.mem_uc Cert.KernelIdeal.main_arg1 (by decide))).trans (Cert.KernelIdeal.Hand.W5_arg1 m ρ c),
     (h c _ (Cert.KernelIdeal.Hand.mem_uc Cert.KernelIdeal.main_arg2 (by decide))).trans (Cert.KernelIdeal.Hand.W5_arg2 m ρ c),
     (h c _ (Cert.KernelIdeal.Hand.mem_uc Cert.KernelIdeal.main_arg3 (by decide))).trans (Cert.KernelIdeal.Hand.W5_arg3 m ρ c),
     (h c _ (Cert.KernelIdeal.Hand.mem_uc Cert.KernelIdeal.main_arg4 (by decide))).trans (Cert.KernelIdeal.Hand.W5_arg4 m ρ c),
     (h c _ (Cert.KernelIdeal.Hand.mem_uc Cert.KernelIdeal.main_arg5 (by decide))).trans (Cert.KernelIdeal.Hand.W5_arg5 m ρ c),
     (h c _ (Cert.KernelIdeal.Hand.mem_uc Cert.KernelIdeal.main_arg6 (by decide))).trans (Cert.KernelIdeal.Hand.W5_arg6 m ρ c),
     (h c _ (Cert.KernelIdeal.Hand.mem_uc Cert.KernelIdeal.main_arg7 (by decide))).trans (Cert.KernelIdeal.Hand.W5_arg7 m ρ c),
     (h c _ (Cert.KernelIdeal.Hand.mem_uc Cert.KernelIdeal.main_arg8 (by decide))).trans (Cert.KernelIdeal.Hand.W5_arg8 m ρ c),
     (h c _ (Cert.KernelIdeal.Hand.mem_uc Cert.KernelIdeal.main_arg9 (by decide))).trans (Cert.KernelIdeal.Hand.W5_arg9 m ρ c),
     (h c _ (Cert.KernelIdeal.Hand.mem_uc Cert.KernelIdeal.main_arg10 (by decide))).trans (Cert.KernelIdeal.Hand.W5_arg10 m ρ c),
     (h c _ (Cert.KernelIdeal.Hand.mem_uc Cert.KernelIdeal.main_arg11 (by decide))).trans (Cert.KernelIdeal.Hand.W5_arg11 m ρ c)⟩)

/-- The reference's frame is its run with the result dropped. -/
theorem frame_RI : Cert.frame_ReferenceIdeal := fun m ρ _ =>
  (θ_run Cert.ReferenceIdeal.defs _ _).mono (fun _ h c => (h c).2) (Cert.ReferenceIdeal.Value.run (F := Ideal) m ρ)

/-- The ledger's one entry: the table gives the name the value 1/6. -/
theorem preserves : Cert.preserves_Kernel_KernelIdeal :=
  IdealRules.named_const.statement Cert.KernelIdeal.κ "inv_6" .f32 0x3E2AAAAB#32 ((1 / 6 : ℝ) : EReal) rfl

/-- Both idealized programs end at the reference's stacked result of the argument arrays. -/
theorem algebraic : Cert.algebraic_KernelIdeal_ReferenceIdeal := by
  intro m ρ m' ρ' hpre hagree
  refine ⟨fun c => Cert.ReferenceIdeal.Read.val_main_v120 (F := Ideal) (Cert.KernelIdeal.Val.A0 m c) (Cert.KernelIdeal.Val.A1 m c) (Cert.KernelIdeal.Val.A2 m c) (Cert.KernelIdeal.Val.A3 m c) (Cert.KernelIdeal.Val.A4 m c) (Cert.KernelIdeal.Val.A5 m c) (Cert.KernelIdeal.Val.A6 m c) (Cert.KernelIdeal.Val.A7 m c) (Cert.KernelIdeal.Val.A8 m c) (Cert.KernelIdeal.Val.A9 m c) (Cert.KernelIdeal.Val.A10 m c) (Cert.KernelIdeal.Val.A11 m c), ?_, ?_⟩
  · exact Cert.KernelIdeal.Hand.run_main (F := Ideal) m ρ (fun s h c =>
      ⟨(h c _ (Cert.KernelIdeal.Hand.mem_uc Cert.KernelIdeal.main_v181 (by decide))).trans
          (Cert.KernelIdeal.Val.result_eq m ρ c (PreDecode.nonzero m hpre c).1 (PreDecode.nonzero m hpre c).2),
       (h c _ (Cert.KernelIdeal.Hand.mem_uc Cert.KernelIdeal.main_arg0 (by decide))).trans (Cert.KernelIdeal.Hand.W5_arg0 m ρ c),
       (h c _ (Cert.KernelIdeal.Hand.mem_uc Cert.KernelIdeal.main_arg1 (by decide))).trans (Cert.KernelIdeal.Hand.W5_arg1 m ρ c),
       (h c _ (Cert.KernelIdeal.Hand.mem_uc Cert.KernelIdeal.main_arg2 (by decide))).trans (Cert.KernelIdeal.Hand.W5_arg2 m ρ c),
       (h c _ (Cert.KernelIdeal.Hand.mem_uc Cert.KernelIdeal.main_arg3 (by decide))).trans (Cert.KernelIdeal.Hand.W5_arg3 m ρ c),
       (h c _ (Cert.KernelIdeal.Hand.mem_uc Cert.KernelIdeal.main_arg4 (by decide))).trans (Cert.KernelIdeal.Hand.W5_arg4 m ρ c),
       (h c _ (Cert.KernelIdeal.Hand.mem_uc Cert.KernelIdeal.main_arg5 (by decide))).trans (Cert.KernelIdeal.Hand.W5_arg5 m ρ c),
       (h c _ (Cert.KernelIdeal.Hand.mem_uc Cert.KernelIdeal.main_arg6 (by decide))).trans (Cert.KernelIdeal.Hand.W5_arg6 m ρ c),
       (h c _ (Cert.KernelIdeal.Hand.mem_uc Cert.KernelIdeal.main_arg7 (by decide))).trans (Cert.KernelIdeal.Hand.W5_arg7 m ρ c),
       (h c _ (Cert.KernelIdeal.Hand.mem_uc Cert.KernelIdeal.main_arg8 (by decide))).trans (Cert.KernelIdeal.Hand.W5_arg8 m ρ c),
       (h c _ (Cert.KernelIdeal.Hand.mem_uc Cert.KernelIdeal.main_arg9 (by decide))).trans (Cert.KernelIdeal.Hand.W5_arg9 m ρ c),
       (h c _ (Cert.KernelIdeal.Hand.mem_uc Cert.KernelIdeal.main_arg10 (by decide))).trans (Cert.KernelIdeal.Hand.W5_arg10 m ρ c),
       (h c _ (Cert.KernelIdeal.Hand.mem_uc Cert.KernelIdeal.main_arg11 (by decide))).trans (Cert.KernelIdeal.Hand.W5_arg11 m ρ c)⟩)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v120_eq]
    obtain ⟨e0, e1, e2, e3, e4, e5, e6, e7, e8, e9, e10, e11⟩ := hagree c
    rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_K, frame_KI, frame_RI, preserves, algebraic⟩

end Cert.Proof

end
